-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x512 .f32) (main_arg1 : IVec S262144 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 512#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x512 : Shape := ⟨2, ![262144, 512]⟩
abbrev S262144 : Shape := ⟨1, ![262144]⟩
abbrev S_ : Shape := ⟨0, ![]⟩
abbrev S262144x1 : Shape := ⟨2, ![262144, 1]⟩
abbrev S2x8x128 : Shape := ⟨3, ![2, 8, 128]⟩
abbrev S4096x512 : Shape := ⟨2, ![4096, 512]⟩
abbrev S4096x1 : Shape := ⟨2, ![4096, 1]⟩
abbrev S1x8x128 : Shape := ⟨3, ![1, 8, 128]⟩
abbrev S8x128 : Shape := ⟨2, ![8, 128]⟩
abbrev S1x128 : Shape := ⟨2, ![1, 128]⟩
abbrev S2048x512 : Shape := ⟨2, ![2048, 512]⟩
abbrev S2048x1 : Shape := ⟨2, ![2048, 1]⟩
abbrev S2048 : Shape := ⟨1, ![2048]⟩
abbrev S2048x128 : Shape := ⟨2, ![2048, 128]⟩
abbrev S128 : Shape := ⟨1, ![128]⟩
abbrev S1x1x128 : Shape := ⟨3, ![1, 1, 128]⟩
abbrev S2x1x10 : Shape := ⟨3, ![2, 1, 10]⟩
abbrev S2x10 : Shape := ⟨2, ![2, 10]⟩
abbrev S10 : Shape := ⟨1, ![10]⟩

abbrev nBuf : Space → Nat
  | .hbm => 41
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S262144, .i32⟩
  | .hbm, ⟨6, _⟩ => ⟨S262144, .i32⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S2x8x128, .f32⟩
  | .hbm, ⟨12, _⟩ => ⟨S2x8x128, .f32⟩
  | .hbm, ⟨13, _⟩ => ⟨S2x1x10, .f32⟩
  | .hbm, ⟨14, _⟩ => ⟨S2x10, .f32⟩
  | .hbm, ⟨15, _⟩ => ⟨S_, .f32⟩
  | .hbm, ⟨16, _⟩ => ⟨S10, .f32⟩
  | .hbm, ⟨17, _⟩ => ⟨S2x1x10, .f32⟩
  | .hbm, ⟨18, _⟩ => ⟨S2x10, .f32⟩
  | .hbm, ⟨19, _⟩ => ⟨S_, .f32⟩
  | .hbm, ⟨20, _⟩ => ⟨S10, .f32⟩
  | .hbm, ⟨21, _⟩ => ⟨S_, .f32⟩
  | .hbm, ⟨22, _⟩ => ⟨S10, .f32⟩
  | .hbm, ⟨23, _⟩ => ⟨S10, .i1⟩
  | .hbm, ⟨24, _⟩ => ⟨S10, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S10, .f32⟩
  | .hbm, ⟨29, _⟩ => ⟨S10, .f32⟩
  | .hbm, ⟨30, _⟩ => ⟨S_, .f32⟩
  | .hbm, ⟨31, _⟩ => ⟨S10, .f32⟩
  | .hbm, ⟨32, _⟩ => ⟨S10, .f32⟩
  | .hbm, ⟨33, _⟩ => ⟨S_, .f32⟩
  | .hbm, ⟨34, _⟩ => ⟨S10, .f32⟩
  | .hbm, ⟨35, _⟩ => ⟨S10, .f32⟩
  | .hbm, ⟨36, _⟩ => ⟨S10, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x1, .i32⟩
  | .local _ .vmem, ⟨3, _⟩ => ⟨S4096x1, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_2 : BitVec 32 := 0#32
  let c2_i32 : BitVec 32 := 2#32
  let v5 : BitVec 32 := Scalar.addi c0_i32_2 c2_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg6 : BitVec 32 := Scf.iv c0_i32_2 c1_i32 k0_t1
  let c2048_i32 : BitVec 32 := 2048#32
  let v19 : BitVec 32 := Scalar.muli arg6 c2048_i32
  v19
def k0_off1 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let c2048_i32 : BitVec 32 := 2048#32
  let v19 : BitVec 32 := Scalar.muli arg6 c2048_i32
  let v20 : BitVec 32 := v19
  let v21 : Index := Scalar.indexCast v20
  let c0_15 : Index := 0#32
  ![v21.toNat, 0]
def k0_off2 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let c2048_i32 : BitVec 32 := 2048#32
  let v19 : BitVec 32 := Scalar.muli arg6 c2048_i32
  let v20 : BitVec 32 := v19
  let v23 : Index := Scalar.indexCast v20
  let c0_16 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S262144 : S_.BroadcastsInDim S262144 (![] : Fin 0 → Fin S262144.rank)
  shapeCasts_S262144_S262144x1 : S262144.ShapeCasts S262144x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  h_S2048x512 : 0 < S2048x512.numel
  h_S2048x1 : 0 < S2048x1.numel
  shapeCasts_S2048x1_S2048x1 : S2048x1.ShapeCasts S2048x1
  reduces_S2048x512_S2048 : S2048x512.Reduces [1] S2048
  shapeCasts_S2048_S2048x1 : S2048.ShapeCasts S2048x1
  broadcasts_S2048x1_S2048x512 : S2048x1.Broadcasts S2048x512
  iota_S2048x512_d1_w32 : S2048x512.Iotas .tc 32 [1]
  iota_S2048x128_d1_w32 : S2048x128.Iotas .tc 32 [1]
  broadcasts_S2048x1_S2048x128 : S2048x1.Broadcasts S2048x128
  natLt_1_32 : 1 < 32
  reduces_S2048x128_S128 : S2048x128.Reduces [0] S128
  shapeCasts_S128_S1x128 : S128.ShapeCasts S1x128
  inb_S1x8x128_S1x1x128_0_0_0 : ∀ a, (![0, 0, 0] : Fin 3 → Nat) a + S1x1x128.size a ≤ S1x8x128.size a
  h_S1x1x128 : 0 < S1x1x128.numel
  shapeCasts_S1x1x128_S1x128 : S1x1x128.ShapeCasts S1x128
  shapeCasts_S1x128_S1x1x128 : S1x128.ShapeCasts S1x1x128
  slices_S2x8x128_S2x1x10_0_0_0 : S2x8x128.Slices ![0, 0, 0] S2x1x10
  shapeCasts_S2x1x10_S2x10 : S2x1x10.ShapeCasts S2x10
  reducesTo_S2x10_S10_d0 : S2x10.ReducesTo [0] S10
  h_S_ : 0 < S_.numel
  bcast_S_S10 : S_.BroadcastsInDim S10 (![] : Fin 0 → Fin S10.rank)
  reducesTo_S10_S_d0 : S10.ReducesTo [0] S_
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x512.size a ≤ S4096x512.size a
  k0_off2_inb : ∀ k0_t1 : Fin k0_t1_loop.trips, ∀ a, (k0_off2 k0_t1) a + S2048x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S10 : Shape := ⟨1, ![10]⟩

abbrev nBuf : Space → Nat
  | .hbm => 94
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x512, .f32⟩
  | .hbm, ⟨9, _⟩ => ⟨S262144x512, .f32⟩
  | .hbm, ⟨10, _⟩ => ⟨S262144x512, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1, .f32⟩
  | .hbm, ⟨15, _⟩ => ⟨S262144x512, .f32⟩
  | .hbm, ⟨16, _⟩ => ⟨S262144x512, .f32⟩
  | .hbm, ⟨17, _⟩ => ⟨S262144x1, .i32⟩
  | .hbm, ⟨18, _⟩ => ⟨S_, .i32⟩
  | .hbm, ⟨19, _⟩ => ⟨S262144x1, .i32⟩
  | .hbm, ⟨20, _⟩ => ⟨S262144x1, .i1⟩
  | .hbm, ⟨21, _⟩ => ⟨S_, .i32⟩
  | .hbm, ⟨22, _⟩ => ⟨S262144x1, .i32⟩
  | .hbm, ⟨23, _⟩ => ⟨S262144x1, .i32⟩
  | .hbm, ⟨24, _⟩ => ⟨S262144x1, .i32⟩
  | .hbm, ⟨25, _⟩ => ⟨S262144x1x1, .i32⟩
  | .hbm, ⟨26, _⟩ => ⟨S1, .i32⟩
  | .hbm, ⟨27, _⟩ => ⟨S_, .i32⟩
  | .hbm, ⟨28, _⟩ => ⟨S262144x1x1, .i32⟩
  | .hbm, ⟨29, _⟩ => ⟨S262144x1x1, .i1⟩
  | .hbm, ⟨30, _⟩ => ⟨S1x1x1, .i32⟩
  | .hbm, ⟨31, _⟩ => ⟨S262144x1x1, .i32⟩
  | .hbm, ⟨32, _⟩ => ⟨S262144x1x1, .i1⟩
  | .hbm, ⟨33, _⟩ => ⟨S262144x1x1, .i1⟩
  | .hbm, ⟨34, _⟩ => ⟨S_, .i1⟩
  | .hbm, ⟨35, _⟩ => ⟨S262144x1, .i1⟩
  | .hbm, ⟨36, _⟩ => ⟨S262144x1, .f32⟩
  | .hbm, ⟨37, _⟩ => ⟨S_, .f32⟩
  | .hbm, ⟨38, _⟩ => ⟨S262144x1, .f32⟩
  | .hbm, ⟨39, _⟩ => ⟨S262144x1, .f32⟩
  | .hbm, ⟨40, _⟩ => ⟨S262144, .f32⟩
  | .hbm, ⟨41, _⟩ => ⟨S262144, .f32⟩
  | .hbm, ⟨42, _⟩ => ⟨S262144, .f32⟩
  | .hbm, ⟨43, _⟩ => ⟨S_, .f32⟩
  | .hbm, ⟨44, _⟩ => ⟨S262144, .f32⟩
  | .hbm, ⟨45, _⟩ => ⟨S262144, .f32⟩
  | .hbm, ⟨46, _⟩ => ⟨S262144, .f32⟩
  | .hbm, ⟨47, _⟩ => ⟨S_, .f32⟩
  | .hbm, ⟨48, _⟩ => ⟨S262144, .f32⟩
  | .hbm, ⟨49, _⟩ => ⟨S262144, .f32⟩
  | .hbm, ⟨50, _⟩ => ⟨S262144, .f32⟩
  | .hbm, ⟨51, _⟩ => ⟨S262144, .i32⟩
  | .hbm, ⟨52, _⟩ => ⟨S_, .f32⟩
  | .hbm, ⟨53, _⟩ => ⟨S10, .f32⟩
  | .hbm, ⟨54, _⟩ => ⟨S_, .i32⟩
  | .hbm, ⟨55, _⟩ => ⟨S262144, .i32⟩
  | .hbm, ⟨56, _⟩ => ⟨S262144, .i1⟩
  | .hbm, ⟨57, _⟩ => ⟨S_, .i32⟩
  | .hbm, ⟨58, _⟩ => ⟨S262144, .i32⟩
  | .hbm, ⟨59, _⟩ => ⟨S262144, .i32⟩
  | .hbm, ⟨60, _⟩ => ⟨S262144, .i32⟩
  | .hbm, ⟨61, _⟩ => ⟨S262144x1, .i32⟩
  | .hbm, ⟨62, _⟩ => ⟨S_, .f32⟩
  | .hbm, ⟨63, _⟩ => ⟨S262144, .f32⟩
  | .hbm, ⟨64, _⟩ => ⟨S10, .f32⟩
  | .hbm, ⟨65, _⟩ => ⟨S_, .f32⟩
  | .hbm, ⟨66, _⟩ => ⟨S10, .f32⟩
  | .hbm, ⟨67, _⟩ => ⟨S10, .i1⟩
  | .hbm, ⟨68, _⟩ => ⟨S10, .i32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S10, .f32⟩
  | .hbm, ⟨73, _⟩ => ⟨S10, .f32⟩
  | .hbm, ⟨74, _⟩ => ⟨S_, .f32⟩
  | .hbm, ⟨75, _⟩ => ⟨S10, .f32⟩
  | .hbm, ⟨76, _⟩ => ⟨S10, .f32⟩
  | .hbm, ⟨77, _⟩ => ⟨S_, .f32⟩
  | .hbm, ⟨78, _⟩ => ⟨S10, .f32⟩
  | .hbm, ⟨79, _⟩ => ⟨S10, .f32⟩
  | .hbm, ⟨80, _⟩ => ⟨S_, .i32⟩
  | .hbm, ⟨81, _⟩ => ⟨S262144, .i32⟩
  | .hbm, ⟨82, _⟩ => ⟨S262144, .i1⟩
  | .hbm, ⟨83, _⟩ => ⟨S_, .i32⟩
  | .hbm, ⟨84, _⟩ => ⟨S262144, .i32⟩
  | .hbm, ⟨85, _⟩ => ⟨S262144, .i32⟩
  | .hbm, ⟨86, _⟩ => ⟨S262144, .i32⟩
  | .hbm, ⟨87, _⟩ => ⟨S262144x1, .i32⟩
  | .hbm, ⟨88, _⟩ => ⟨S262144, .f32⟩
  | .hbm, ⟨89, _⟩ => ⟨S262144, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_cst_0 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_c : Ref sig .tc := ⟨.hbm, 54, rfl⟩
abbrev main_v14 : Ref sig .tc := ⟨.hbm, 55, rfl⟩
abbrev main_v15 : Ref sig .tc := ⟨.hbm, 56, rfl⟩
abbrev main_c_2 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_v21 : Ref sig .tc := ⟨.hbm, 64, rfl⟩
abbrev main_cst_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_5 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_6 : Ref sig .tc := ⟨.hbm, 74, rfl⟩
abbrev main_v29 : Ref sig .tc := ⟨.hbm, 75, rfl⟩
abbrev main_v30 : Ref sig .tc := ⟨.hbm, 76, rfl⟩
abbrev main_cst_7 : Ref sig .tc := ⟨.hbm, 77, rfl⟩
abbrev main_v31 : Ref sig .tc := ⟨.hbm, 78, rfl⟩
abbrev main_v32 : Ref sig .tc := ⟨.hbm, 79, rfl⟩
abbrev main_c_8 : Ref sig .tc := ⟨.hbm, 80, rfl⟩
abbrev main_v33 : Ref sig .tc := ⟨.hbm, 81, rfl⟩
abbrev main_v34 : Ref sig .tc := ⟨.hbm, 82, rfl⟩
abbrev main_c_9 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_10 : Ref sig .tc := ⟨.hbm, 90, rfl⟩
abbrev main_v41 : Ref sig .tc := ⟨.hbm, 91, rfl⟩
abbrev main_cst_11 : Ref sig .tc := ⟨.hbm, 92, rfl⟩
abbrev main_v42 : Ref sig .tc := ⟨.hbm, 93, rfl⟩

abbrev nD : Nat := 1
abbrev τ : Topo := Topo.v7x

variable {F : FTy → Type} [FloatOps F]

class Facts₀ : Prop where
  reducesTo_S262144x512_S262144_d1 : S262144x512.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  bcast_S_S10 : S_.BroadcastsInDim S10 (![] : Fin 0 → Fin S10.rank)
  natLt_1_32 : 1 < 32
  reducesTo_S10_S_d0 : S10.ReducesTo [0] S_
  reducesTo_S262144_S_d0 : S262144.ReducesTo [0] S_
  gather_S262144x512_S262144x1x1_S262144x1_n_1_0_0_1_2_11_wf : GatherDims.WF S262144x512 S262144x1x1 S262144x1 [] [1] [0] [1] [0] 2 ![1, 1]
  scatter_S10_S262144x1_S262144_n_0_0_1_wf : ScatterDims.WF S10 S262144x1 S262144 [] [0] [0] 1
  gather_S10_S262144x1_S262144_n_0_n_n_0_1_1_wf : GatherDims.WF S10 S262144x1 S262144 [] [0] [] [0] [] 1 ![1]

variable [Facts₀]

def gather_S262144x512_S262144x1x1_S262144x1_n_1_0_0_1_2_11 : GatherDims S262144x512 S262144x1x1 S262144x1 where
  offsetDims := []
  collapsedSliceDims := [1]
  operandBatchingDims := [0]
  startIndicesBatchingDims := [0]
  startIndexMap := [1]
  indexVectorDim := 2
  sliceSizes := ![1, 1]
  wf := gather_S262144x512_S262144x1x1_S262144x1_n_1_0_0_1_2_11_wf
def scatter_S10_S262144x1_S262144_n_0_0_1 : ScatterDims S10 S262144x1 S262144 where
  updateWindowDims := []
  insertedWindowDims := [0]
  scatterDimsToOperandDims := [0]
  indexVectorDim := 1
  wf := scatter_S10_S262144x1_S262144_n_0_0_1_wf
def gather_S10_S262144x1_S262144_n_0_n_n_0_1_1 : GatherDims S10 S262144x1 S262144 where
  offsetDims := []
  collapsedSliceDims := [0]
  operandBatchingDims := []
  startIndicesBatchingDims := []
  startIndexMap := [0]
  indexVectorDim := 1
  sliceSizes := ![1]
  wf := gather_S10_S262144x1_S262144_n_0_n_n_0_1_1_wf

class Facts : Prop extends Facts₀ where

variable [Facts]
-- ==== Proof.KLoop.lean ====
/- The counted loop of the kernel body, read: its two trips carry the running pair through the two half-blocks in order. -/
import proofs.«416635_j57157424775631_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.GhmcLoop

open Cert.KernelIdeal Cert.KernelIdeal.Gen

variable {F : FTy → Type} [FloatOps F]

/-- Half ch of a [4096, 512] input block: its rows 2048·ch … 2048·ch + 2047. -/
def halfX (ch : Fin 2) (x0 : Vec F S4096x512 .f32) : Vec F S2048x512 .f32 := fun y =>
  x0 (ix2 (⟨ch.val * 2048 + (y 0).val, by have h : (y 0).val < 2048 := (y 0).isLt; have := ch.isLt; omega⟩ : Fin 4096)
    (⟨(y 1).val, (y 1).isLt⟩ : Fin 512))

/-- Half ch of the [4096, 1] block of class words. -/
def halfT (ch : Fin 2) (x1 : Vec F S4096x1 .i32) : Vec F S2048x1 .i32 := fun y =>
  x1 (ix2 (⟨ch.val * 2048 + (y 0).val, by have h : (y 0).val < 2048 := (y 0).isLt; have := ch.isLt; omega⟩ : Fin 4096)
    (⟨(y 1).val, (y 1).isLt⟩ : Fin 1))

/-- What the loop yields from the zero pair: the first half's contribution added, then the second's. -/
def loopVal (x0 : Vec F S4096x512 .f32) (x1 : Vec F S4096x1 .i32) : FVec F S1x128 .f32 × FVec F S1x128 .f32 :=
  (k0_pay5 (k0_pay5 k0_pay3 (k0_pay11 (halfX 0 x0) (halfT 0 x1))) (k0_pay11 (halfX 1 x0) (halfT 1 x1)),
   k0_pay6 (k0_pay6 k0_pay4 (k0_pay10 (halfX 0 x0) (halfT 0 x1)) (k0_pay12 (halfX 0 x0) (halfT 0 x1)))
     (k0_pay10 (halfX 1 x0) (halfT 1 x1)) (k0_pay12 (halfX 1 x0) (halfT 1 x1)))

/-- The first staging buffer read through the trip's rectangle is the trip's half of the block. -/
theorem readX (a2 : Memref sig .tc .vmem S4096x512 .f32) (h2 : a2.IsWhole) (x0 : Vec F S4096x512 .f32)
    (k : Fin k0_t1_loop.trips) (hk : k.val < 2) :
    View.readAt (Elt F) a2.view (Rect.unit (s := S4096x512) (k0_off1 k) S2048x512.size (k0_off1_inb k)).toLoadRect (h2.unread x0)
      = halfX ⟨k.val, hk⟩ x0 := by
  rw [View.readAt_eq_ld, h2.read_unread]
  funext y
  show x0 _ = x0 _
  congr 1
  funext a
  apply Fin.ext
  have e0 : (k0_off1 k) 0 = 2048 * k.val := by rw [k0_off1_eq]; rfl
  have e1 : (k0_off1 k) 1 = 0 := by rw [k0_off1_eq]; rfl
  match a with
  | ⟨0, _⟩ =>
    show (k0_off1 k) 0 + 1 * (y 0).val = k.val * 2048 + (y 0).val
    omega
  | ⟨1, _⟩ =>
    show (k0_off1 k) 1 + 1 * (y 1).val = (y 1).val
    omega

/-- The second staging buffer read through the trip's rectangle is the trip's half of the class words. -/
theorem readT (a3 : Memref sig .tc .vmem S4096x1 .i32) (h3 : a3.IsWhole) (x1 : Vec F S4096x1 .i32)
    (k : Fin k0_t1_loop.trips) (hk : k.val < 2) :
    View.readAt (Elt F) a3.view (Rect.unit (s := S4096x1) (k0_off2 k) S2048x1.size (k0_off2_inb k)).toLoadRect (h3.unread x1)
      = halfT ⟨k.val, hk⟩ x1 := by
  rw [View.readAt_eq_ld, h3.read_unread]
  funext y
  show x1 _ = x1 _
  congr 1
  funext a
  apply Fin.ext
  have e0 : (k0_off2 k) 0 = 2048 * k.val := by rw [k0_off2_eq]; rfl
  have e1 : (k0_off2 k) 1 = 0 := by rw [k0_off2_eq]; rfl
  match a with
  | ⟨0, _⟩ =>
    show (k0_off2 k) 0 + 1 * (y 0).val = k.val * 2048 + (y 0).val
    omega
  | ⟨1, _⟩ =>
    show (k0_off2 k) 1 + 1 * (y 1).val = (y 1).val
    omega

/-- One trip, read: it adds the payloads of its half-block to the carried pair. -/
theorem trip_eq (c : Dev nD) (i : grid0.Coords) (a2 : Memref sig .tc .vmem S4096x512 .f32) (h2 : a2.IsWhole)
    (a3 : Memref sig .tc .vmem S4096x1 .i32) (h3 : a3.IsWhole) (a4 : Memref sig .tc .vmem S1x8x128 .f32) (h4 : a4.IsWhole)
    (a5 : Memref sig .tc .vmem S1x8x128 .f32) (h5 : a5.IsWhole) (x0 : Vec F S4096x512 .f32) (x1 : Vec F S4096x1 .i32)
    (k : Fin k0_t1_loop.trips) (hk : k.val < 2) (acc : FVec F S1x128 .f32 × FVec F S1x128 .f32) :
    tripR_k0_t1 (F := F) Variants.none c none i a2 h2 a3 h3 a4 h4 a5 h5 (h2.unread x0) (h3.unread x1) k acc
      = (k0_pay5 acc.1 (k0_pay11 (halfX ⟨k.val, hk⟩ x0) (halfT ⟨k.val, hk⟩ x1)),
         k0_pay6 acc.2 (k0_pay10 (halfX ⟨k.val, hk⟩ x0) (halfT ⟨k.val, hk⟩ x1)) (k0_pay12 (halfX ⟨k.val, hk⟩ x0) (halfT ⟨k.val, hk⟩ x1))) := by
  rw [← readX a2 h2 x0 k hk, ← readT a3 h3 x1 k hk]
  unfold tripR_k0_t1 trip_k0_t1
  rfl

/-- The loop has two trips. -/
theorem trips_two : Scf.trips (0#32) (Scalar.addi 0#32 2#32) 1#32 = 2 := by decide +kernel

/-- The same count, as the loop's own record states it. -/
theorem loopTrips_two : k0_t1_loop.trips = 2 := trips_two

/-- The carried value after the loop's two trips, on whole staging memrefs holding the blocks x0, x1. -/
theorem loop_eq (c : Dev nD) (i : grid0.Coords) (a2 : Memref sig .tc .vmem S4096x512 .f32) (h2 : a2.IsWhole)
    (a3 : Memref sig .tc .vmem S4096x1 .i32) (h3 : a3.IsWhole) (a4 : Memref sig .tc .vmem S1x8x128 .f32) (h4 : a4.IsWhole)
    (a5 : Memref sig .tc .vmem S1x8x128 .f32) (h5 : a5.IsWhole) (x0 : Vec F S4096x512 .f32) (x1 : Vec F S4096x1 .i32) :
    st_k0_t1 (F := F) Variants.none c none i a2 h2 a3 h3 a4 h4 a5 h5 (h2.unread x0) (h3.unread x1) (k0_pay3, k0_pay4)
        (Scf.trips (0#32) (Scalar.addi 0#32 2#32) 1#32)
      = loopVal x0 x1 := by
  rw [trips_two]
  have h0 : 0 < k0_t1_loop.trips := by rw [loopTrips_two]; omega
  have h1 : 1 < k0_t1_loop.trips := by rw [loopTrips_two]; omega
  have s1 := st_k0_t1_succ (F := F) Variants.none c none i a2 h2 a3 h3 a4 h4 a5 h5 (h2.unread x0) (h3.unread x1)
    (k0_pay3, k0_pay4) ⟨0, h0⟩
  have s2 := st_k0_t1_succ (F := F) Variants.none c none i a2 h2 a3 h3 a4 h4 a5 h5 (h2.unread x0) (h3.unread x1)
    (k0_pay3, k0_pay4) ⟨1, h1⟩
  rw [st_k0_t1_zero, trip_eq c i a2 h2 a3 h3 a4 h4 a5 h5 x0 x1 ⟨0, h0⟩ (show 0 < 2 by omega)] at s1
  refine s2.trans ?_
  show tripR_k0_t1 (F := F) Variants.none c none i a2 h2 a3 h3 a4 h4 a5 h5 (h2.unread x0) (h3.unread x1) ⟨1, h1⟩
      (st_k0_t1 (F := F) Variants.none c none i a2 h2 a3 h3 a4 h4 a5 h5 (h2.unread x0) (h3.unread x1) (k0_pay3, k0_pay4) (0 + 1)) = _
  rw [s1, trip_eq c i a2 h2 a3 h3 a4 h4 a5 h5 x0 x1 ⟨1, h1⟩ (show 1 < 2 by omega)]
  rfl

end Cert.KernelIdeal.GhmcLoop

end
-- ==== Proof.KCases.lean ====
/- What each case of the kernel body leaves in the two accumulator blocks: the reset case leaves the zero block with
   the loop's result added into row 0; the other case adds the loop's result into row 0 of what the point before left. -/
import proofs.«416635_j57157424775631_3_alg».proof.Proof.KLoop
import Idealize.ShloMosaic.Lib.Writes

noncomputable section

open Idealize.ShloMosaic Idealize.ShloMosaic.TcCoe Idealize.ShloMosaic.ValueIdx Idealize.SL.Sem
open Idealize.ShloMosaic.Pipeline (Dat)

namespace Cert.KernelIdeal.GhmcCases

open Cert.KernelIdeal Cert.KernelIdeal.Gen Cert.KernelIdeal.GhmcLoop

variable {F : FTy → Type} [FloatOps F]

/-- Row 0 of an accumulator block, as a [1, 1, 128] vector. -/
def row0 (blk : Vec F S1x8x128 .f32) : Vec F S1x1x128 .f32 := fun y =>
  blk (ix3 (0 : Fin 1) (0 : Fin 8) (⟨(y 2).val, (y 2).isLt⟩ : Fin 128))

/-- A block with its row 0 replaced. -/
def mergeRow0 (blk : Vec F S1x8x128 .f32) (row : Vec F S1x1x128 .f32) : Vec F S1x8x128 .f32 := fun y =>
  if (y 1).val = 0 then row (ix3 (0 : Fin 1) (0 : Fin 1) (⟨(y 2).val, (y 2).isLt⟩ : Fin 128)) else blk y

/-! ## The row-0 rectangle of a [1, 8, 128] block

The unit-stride rectangle of sizes [1, 1, 128] at zero offsets holds exactly the indices of row 0; the index (0, 0, k)
of the block sits at position (0, 0, k) of the rectangle. -/

section Row0

variable {Val : EltTy → Type} {e : EltTy}

/-- The position of column k in the row-0 rectangle goes to the block's index (0, 0, k). -/
theorem emb_row0 (inb : ∀ a, (![0, 0, 0] : Fin 3 → ℕ) a + (![1, 1, 128] : Fin 3 → ℕ) a ≤ S1x8x128.size a)
    (y : S1x8x128.Idx) (h : (y 1).val = 0) :
    (Rect.unit (s := S1x8x128) ![0, 0, 0] ![1, 1, 128] inb).emb
      (ix3 (0 : Fin 1) (0 : Fin 1) (⟨(y 2).val, (y 2).isLt⟩ : Fin 128)) = y := by
  have h0 : (y 0).val < 1 := (y 0).isLt
  funext a
  apply Fin.ext
  rw [Rect.emb_apply]
  fin_cases a
  · show 0 + 1 * 0 = (y 0).val
    omega
  · show 0 + 1 * 0 = (y 1).val
    omega
  · show 0 + 1 * (y 2).val = (y 2).val
    omega

/-- An index off row 0 is outside the row-0 rectangle. -/
theorem not_mem_row0 (inb : ∀ a, (![0, 0, 0] : Fin 3 → ℕ) a + (![1, 1, 128] : Fin 3 → ℕ) a ≤ S1x8x128.size a)
    (y : S1x8x128.Idx) (h : ¬(y 1).val = 0) :
    y ∉ (Rect.unit (s := S1x8x128) ![0, 0, 0] ![1, 1, 128] inb).set := by
  rw [Rect.mem_set_unit]
  intro hall
  have h1 : (y 1).val < 0 + 1 := (hall 1).2
  omega

/-- A list of stores whose newest is a store to row 0, read at an index: on row 0 the store's payload at the column,
    elsewhere what the earlier stores left. -/
theorem canon_row0_cons [∀ e, Nonempty (Val e)]
    (inb : ∀ a, (![0, 0, 0] : Fin 3 → ℕ) a + (![1, 1, 128] : Fin 3 → ℕ) a ≤ S1x8x128.size a)
    (w : S1x1x128.Idx → Val e) (L : List (View.Piece Val S1x8x128 e)) (y : S1x8x128.Idx) :
    View.canon ((⟨Rect.unit (s := S1x8x128) ![0, 0, 0] ![1, 1, 128] inb, w⟩ : View.Piece Val S1x8x128 e) :: L) y
      = if (y 1).val = 0 then w (ix3 (0 : Fin 1) (0 : Fin 1) (⟨(y 2).val, (y 2).isLt⟩ : Fin 128)) else View.canon L y := by
  by_cases h : (y 1).val = 0
  · rw [if_pos h]
    have e1 := View.canon_cons_emb (Val := Val) (Rect.unit (s := S1x8x128) ![0, 0, 0] ![1, 1, 128] inb) w L
      (ix3 (0 : Fin 1) (0 : Fin 1) (⟨(y 2).val, (y 2).isLt⟩ : Fin 128))
    rw [emb_row0 inb y h] at e1
    exact e1
  · rw [if_neg h]
    exact View.canon_cons_of_not_mem _ L (not_mem_row0 inb y h)

/-- The same for the stores read back through a view over any earlier contents. -/
theorem read_writes_row0_cons {sig : RefSig} {κ : Kind} {sp : Space} (v : View sig κ sp S1x8x128 e) (f : v.ty.Contents Val)
    (inb : ∀ a, (![0, 0, 0] : Fin 3 → ℕ) a + (![1, 1, 128] : Fin 3 → ℕ) a ≤ S1x8x128.size a)
    (w : S1x1x128.Idx → Val e) (L : List (View.Piece Val S1x8x128 e)) (y : S1x8x128.Idx) :
    v.read Val (v.writes Val f ((⟨Rect.unit (s := S1x8x128) ![0, 0, 0] ![1, 1, 128] inb, w⟩ : View.Piece Val S1x8x128 e) :: L)) y
      = if (y 1).val = 0 then w (ix3 (0 : Fin 1) (0 : Fin 1) (⟨(y 2).val, (y 2).isLt⟩ : Fin 128))
        else v.read Val (v.writes Val f L) y := by
  by_cases h : (y 1).val = 0
  · rw [if_pos h]
    have e1 := View.read_writes_cons_emb v f (Rect.unit (s := S1x8x128) ![0, 0, 0] ![1, 1, 128] inb) w L
      (ix3 (0 : Fin 1) (0 : Fin 1) (⟨(y 2).val, (y 2).isLt⟩ : Fin 128))
    rw [emb_row0 inb y h] at e1
    exact e1
  · rw [if_neg h, View.writes_cons]
    exact View.read_slice_write_of_not_mem _ _ _ _ (by rw [Rect.map_emb_univ]; exact not_mem_row0 inb y h)

/-- A load through the row-0 rectangle reads row 0 of the contents. -/
theorem ld_row0 (inb : ∀ a, (![0, 0, 0] : Fin 3 → ℕ) a + (![1, 1, 128] : Fin 3 → ℕ) a ≤ S1x8x128.size a)
    (X : S1x8x128.Idx → Val e) (x : S1x1x128.Idx) :
    X ((Rect.unit (s := S1x8x128) ![0, 0, 0] ![1, 1, 128] inb).idx x)
      = X (ix3 (0 : Fin 1) (0 : Fin 8) (⟨(x 2).val, (x 2).isLt⟩ : Fin 128)) := by
  have h0 : (x 0).val < 1 := (x 0).isLt
  have h1 : (x 1).val < 1 := (x 1).isLt
  congr 1
  funext a
  apply Fin.ext
  rw [LoadRect.idx_apply]
  fin_cases a
  · show 0 + 1 * (x 0).val = 0
    omega
  · show 0 + 1 * (x 1).val = 0
    omega
  · show 0 + 1 * (x 2).val = (x 2).val
    omega

/-- The same as an equation of loaded vectors. -/
theorem ld_row0_eq (inb : ∀ a, (![0, 0, 0] : Fin 3 → ℕ) a + (![1, 1, 128] : Fin 3 → ℕ) a ≤ S1x8x128.size a)
    (X : S1x8x128.Idx → Val e) :
    View.ld X (Rect.unit (s := S1x8x128) ![0, 0, 0] ![1, 1, 128] inb)
      = fun x => X (ix3 (0 : Fin 1) (0 : Fin 8) (⟨(x 2).val, (x 2).isLt⟩ : Fin 128)) :=
  funext fun x => ld_row0 inb X x

/-- A load of row 0 after one store of the whole block reads row 0 of the stored block. -/
theorem readCov_row0_of_whole [∀ e, Nonempty (Val e)] {sig : RefSig} {κ : Kind} {sp : Space} (v : View sig κ sp S1x8x128 e)
    (inb8 : ∀ a, (![0, 0, 0] : Fin 3 → ℕ) a + S1x8x128.size a ≤ S1x8x128.size a)
    (inb1 : ∀ a, (![0, 0, 0] : Fin 3 → ℕ) a + (![1, 1, 128] : Fin 3 → ℕ) a ≤ S1x8x128.size a)
    (X : S1x8x128.Idx → Val e) :
    v.readCov [(⟨Rect.unit (s := S1x8x128) ![0, 0, 0] S1x8x128.size inb8, X⟩ : View.Piece Val S1x8x128 e)]
        (Rect.unit (s := S1x8x128) ![0, 0, 0] ![1, 1, 128] inb1).toLoadRect
      = fun x => X (ix3 (0 : Fin 1) (0 : Fin 8) (⟨(x 2).val, (x 2).isLt⟩ : Fin 128)) := by
  have hz : (![0, 0, 0] : Fin 3 → ℕ) = fun _ => 0 := by
    funext a
    fin_cases a <;> rfl
  rw [View.readCov_eq_canon', View.canon_unit_zero hz]
  exact ld_row0_eq inb1 X

end Row0

theorem out_A_2 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x8x128 .f32) (h4 : a4.IsWhole)
    (a5 : Memref sig .tc .vmem S1x8x128 .f32) (h5 : a5.IsWhole) (hc : cond0_0 i) (x0 : Vec F S4096x512 .f32) (x1 : Vec F S4096x1 .i32) :
    out0_A_2 c i a2 h2 a3 h3 a4 h4 a5 h5 hc x0 x1 = mergeRow0 k0_pay1 (k0_pay7 (loopVal x0 x1).1 (row0 k0_pay1)) := by
  unfold out0_A_2
  rw [View.read_writes_eq_canon _ _ _ (cover0_A_2 c i a2 h2 a3 h3 a4 h4 a5 h5 hc x0 x1)]
  unfold kernelRun0_A
  dsimp only
  sl_unfold_words
  rw [loop_eq, readCov_row0_of_whole]
  have hz : (![0, 0, 0] : Fin 3 → ℕ) = fun _ => 0 := by
    funext a
    fin_cases a <;> rfl
  funext y
  rw [canon_row0_cons, View.canon_unit_zero hz]
  rfl

theorem out_A_3 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x8x128 .f32) (h4 : a4.IsWhole)
    (a5 : Memref sig .tc .vmem S1x8x128 .f32) (h5 : a5.IsWhole) (hc : cond0_0 i) (x0 : Vec F S4096x512 .f32) (x1 : Vec F S4096x1 .i32) :
    out0_A_3 c i a2 h2 a3 h3 a4 h4 a5 h5 hc x0 x1 = mergeRow0 k0_pay2 (k0_pay8 (loopVal x0 x1).2 (row0 k0_pay2)) := by
  unfold out0_A_3
  rw [View.read_writes_eq_canon _ _ _ (cover0_A_3 c i a2 h2 a3 h3 a4 h4 a5 h5 hc x0 x1)]
  unfold kernelRun0_A
  dsimp only
  sl_unfold_words
  rw [loop_eq, readCov_row0_of_whole]
  have hz : (![0, 0, 0] : Fin 3 → ℕ) = fun _ => 0 := by
    funext a
    fin_cases a <;> rfl
  funext y
  rw [canon_row0_cons, View.canon_unit_zero hz]
  rfl

theorem out_B_2 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x8x128 .f32) (h4 : a4.IsWhole)
    (a5 : Memref sig .tc .vmem S1x8x128 .f32) (h5 : a5.IsWhole) (hc : ¬cond0_0 i) (x0 : Vec F S4096x512 .f32) (x1 : Vec F S4096x1 .i32)
    (xo2 xo3 : Vec F S1x8x128 .f32) :
    out0_B_2 c i a2 h2 a3 h3 a4 h4 a5 h5 hc x0 x1 xo2 xo3 = mergeRow0 xo2 (k0_pay7 (loopVal x0 x1).1 (row0 xo2)) := by
  unfold out0_B_2 kernelRun0_B
  dsimp only
  rw [loop_eq]
  funext y
  rw [read_writes_row0_cons, View.writes_nil, View.readAt_eq_ld, h4.read_unread, ld_row0_eq]
  rfl

theorem out_B_3 (c : Dev nD) (i : grid0.Coords) (a2 : Memref sig .tc .vmem S4096x512 .f32) (h2 : a2.IsWhole)
    (a3 : Memref sig .tc .vmem S4096x1 .i32) (h3 : a3.IsWhole) (a4 : Memref sig .tc .vmem S1x8x128 .f32) (h4 : a4.IsWhole)
    (a5 : Memref sig .tc .vmem S1x8x128 .f32) (h5 : a5.IsWhole) (hc : ¬cond0_0 i) (x0 : Vec F S4096x512 .f32) (x1 : Vec F S4096x1 .i32)
    (xo2 xo3 : Vec F S1x8x128 .f32) :
    out0_B_3 c i a2 h2 a3 h3 a4 h4 a5 h5 hc x0 x1 xo2 xo3 = mergeRow0 xo3 (k0_pay8 (loopVal x0 x1).2 (row0 xo3)) := by
  unfold out0_B_3 kernelRun0_B
  dsimp only
  rw [loop_eq]
  funext y
  rw [read_writes_row0_cons, View.writes_nil, View.readAt_eq_ld, h5.read_unread, ld_row0_eq]
  rfl

end Cert.KernelIdeal.GhmcCases

end
-- ==== Proof.Spec.lean ====
/-
  The mathematics both programs compute, stated once over plain index types.

  A row x of 512 logits and a class word t give the log-probability of the class,
  log p_t = x_t − (max x + log Σ exp (x − max x)); the per-sample loss is −log p_t, the gradient-norm proxy
  g = |exp (log p_t) − 1|, and the sample's bin the integer part of g · 9.99989986. The loss is the mean over
  the 262144 rows of β(bin) · (−log p_t), where β is a function of the histogram of bins alone. The kernel
  accumulates, per bin, the count and the sum of losses and applies β to ten numbers; the reference applies
  β(bin) to each sample. This module names the pieces; it proves nothing.
-/
import Idealize.ShloMosaic.PureOps
import Idealize.ShloMosaic.PureOps.Ideal
import Idealize.ShloMosaic.Lib.ValueIdx

noncomputable section

namespace Ghmc

open Idealize.ShloMosaic Idealize.ShloMosaic.ValueIdx

/-- The 262144 samples and the 512 classes. -/
abbrev Rows := Fin 262144
abbrev Cls := Fin 512

abbrev S10 : Shape := ⟨1, ![10]⟩
abbrev S0 : Shape := ⟨0, ![]⟩
abbrev S2x8x128 : Shape := ⟨3, ![2, 8, 128]⟩

/-- The three float words both programs carry: the bin scale 9.99989986…, the floor 1e-4 under the
    reweighting's denominator, and the sample count 262144.0. -/
abbrev kScale : EReal := Ideal.ofBits .f32 0x411FFF97#32
abbrev epsGd : EReal := Ideal.ofBits .f32 0x38D1B717#32
abbrev nTot : EReal := Ideal.ofBits .f32 0x48800000#32

/-! ## One row -/

/-- A row's maximum (a fold of max from −∞). -/
def rowMax (x : Cls → EReal) : EReal := (Finset.univ : Finset Cls).fold max ⊥ x

/-- Σ_c exp (x_c − max x). -/
def rowSumExp (x : Cls → EReal) : EReal := ∑ c : Cls, Ideal.exp (x c - rowMax x)

/-- The logit of class word t, selected by comparing t with every class number and summing. -/
def pick (x : Cls → EReal) (t : BitVec 32) : EReal := ∑ c : Cls, if BitVec.ofNat 32 c.val = t then x c else 0

/-- log p_t as the kernel groups it: x_t − (max + log Σ). -/
def logptK (x : Cls → EReal) (t : BitVec 32) : EReal := pick x t - (rowMax x + Ideal.log (rowSumExp x))

/-- log p_t as the reference groups it, at a class in range: (x_t − max) − log Σ. -/
def logptR (x : Cls → EReal) (t : Cls) : EReal := (x t - rowMax x) - Ideal.log (rowSumExp x)

/-- g = |exp L − 1|. -/
def gOf (L : EReal) : EReal := max (Ideal.exp L - 1) (-(Ideal.exp L - 1))

/-- The bin word: ⌊g · 9.99989986⌋ converted to a signed 32-bit integer. -/
def binRaw (L : EReal) : BitVec 32 := Ideal.fptosi 32 (Ideal.liftRound Int.floor (gOf L * kScale))

/-- The kernel's clamp of a class word into [0, 511], and of a bin word into [0, 9]. -/
def clipT (t : BitVec 32) : BitVec 32 := IntOp.minsi 511#32 (IntOp.maxsi 0#32 t)
def clipB (b : BitVec 32) : BitVec 32 := IntOp.minsi 9#32 (IntOp.maxsi 0#32 b)

/-- A one-hot entry: 1 where the word is the column number, else 0. -/
def oneHot (w : BitVec 32) (col : ℕ) : EReal := if w = BitVec.ofNat 32 col then 1 else 0

/-! ## The reweighting, a function of the ten counts alone

The same chain of operations in both programs: the number of non-empty bins n₊, then β_k = 1 / max (count_k · n₊, 1e-4). -/

def betaOf (hb : S0.BroadcastsInDim S10 (![] : Fin 0 → Fin S10.rank)) (hr : S10.ReducesTo [0] S0) (h0 : 0 < S0.numel)
    (hlt : 1 < 32) (cnt : FVec Ideal S10 .f32) : FVec Ideal S10 .f32 :=
  Host.divf (broadcastInDim S10 ![] hb (constant (F := Ideal) S0 .f32 0x3F800000#32))
    (maximumf
      (mulf cnt (broadcastInDim S10 ![] hb
        (sitofp (F := Ideal) .f32 (Host.reduce IntOp.addi
          (extui 32 (cmpf .ogt cnt (broadcastInDim S10 ![] hb (constant (F := Ideal) S0 .f32 0x00000000#32))) hlt)
          (constantI S0 32 0#32) hr h0))))
      (broadcastInDim S10 ![] hb (constant (F := Ideal) S0 .f32 0x38D1B717#32)))

/-! ## The kernel's side -/

/-- The sample a grid point (core, j), a half-block ch and a row r of it name. -/
def rowOf (core : Fin 2) (j : Fin 32) (ch : Fin 2) (r : Fin 2048) : Rows :=
  ⟨core.val * 131072 + j.val * 4096 + ch.val * 2048 + r.val, by
    have := core.isLt; have := j.isLt; have := ch.isLt; have := r.isLt; omega⟩

/-- A sample's bin and loss as the kernel computes them from the row and the (already clamped) class word. -/
def rowBinK (x : Cls → EReal) (t : BitVec 32) : BitVec 32 := clipB (binRaw (logptK x t))
def rowCeK (x : Cls → EReal) (t : BitVec 32) : EReal := 0 - logptK x t

/-- The two accumulator arrays the kernel region leaves, [2, 8, 128] each: row 0 of core c's block holds, per column,
    the count (resp. the sum of losses) of core c's samples whose bin is the column; rows 1 to 7 are zero. -/
def cntArr (X : Rows → Cls → EReal) (Tc : Rows → BitVec 32) : S2x8x128.Idx → EReal := fun i =>
  if (i 1).val = 0 then
    ∑ j : Fin 32, ∑ ch : Fin 2, ∑ r : Fin 2048,
      oneHot (rowBinK (X (rowOf (i 0) j ch r)) (Tc (rowOf (i 0) j ch r))) (i 2).val
  else 0

def ceArr (X : Rows → Cls → EReal) (Tc : Rows → BitVec 32) : S2x8x128.Idx → EReal := fun i =>
  if (i 1).val = 0 then
    ∑ j : Fin 32, ∑ ch : Fin 2, ∑ r : Fin 2048,
      oneHot (rowBinK (X (rowOf (i 0) j ch r)) (Tc (rowOf (i 0) j ch r))) (i 2).val
        * rowCeK (X (rowOf (i 0) j ch r)) (Tc (rowOf (i 0) j ch r))
  else 0

/-- The ten per-bin totals the epilogue takes from such an array: row 0, columns 0 to 9, the two cores added from zero. -/
def binTotals (a : S2x8x128.Idx → EReal) : FVec Ideal S10 .f32 := fun k =>
  0 + ∑ core : Fin 2, a (ix3 core (0 : Fin 8) (⟨(k 0).val, by have h : (k 0).val < 10 := (k 0).isLt; show _ < 128; omega⟩ : Fin 128))

/-- The epilogue: (0 + Σ_k β_k · ce_k) / 262144. -/
def valueOfArrs (hb : S0.BroadcastsInDim S10 (![] : Fin 0 → Fin S10.rank)) (hr : S10.ReducesTo [0] S0) (h0 : 0 < S0.numel)
    (hlt : 1 < 32) (a2 a3 : S2x8x128.Idx → EReal) : EReal :=
  Ideal.div (0 + ∑ k : Fin 10, betaOf hb hr h0 hlt (binTotals a2) (ix1 k) * binTotals a3 (ix1 k)) nTot

/-- The kernel's result as a function of the two argument arrays. -/
def valueK (hb : S0.BroadcastsInDim S10 (![] : Fin 0 → Fin S10.rank)) (hr : S10.ReducesTo [0] S0) (h0 : 0 < S0.numel)
    (hlt : 1 < 32) (X : Rows → Cls → EReal) (T : Rows → BitVec 32) : EReal :=
  valueOfArrs hb hr h0 hlt (cntArr X (fun i => clipT (T i))) (ceArr X (fun i => clipT (T i)))

/-! ## The reference's side (at class words in range) -/

/-- A sample's log p_t, bin and loss as the reference computes them when the class word is in [0, 512). -/
def rowLR (X : Rows → Cls → EReal) (T : Rows → BitVec 32) (i : Rows) : EReal :=
  logptR (X i) ⟨(T i).toNat % 512, Nat.mod_lt _ (by norm_num)⟩
def rowBinR (X : Rows → Cls → EReal) (T : Rows → BitVec 32) (i : Rows) : BitVec 32 := binRaw (rowLR X T i)
def rowCeR (X : Rows → Cls → EReal) (T : Rows → BitVec 32) (i : Rows) : EReal := -(rowLR X T i)

/-- The histogram a scatter-add of ones into ten zeros builds. -/
def histR (b : Rows → BitVec 32) : FVec Ideal S10 .f32 := fun k => 0 + ∑ i : Rows, oneHot (b i) (k 0).val

/-- The reference's result: (0 + Σ_i β(bin_i) · ce_i) / 262144. -/
def valueR (hb : S0.BroadcastsInDim S10 (![] : Fin 0 → Fin S10.rank)) (hr : S10.ReducesTo [0] S0) (h0 : 0 < S0.numel)
    (hlt : 1 < 32) (X : Rows → Cls → EReal) (T : Rows → BitVec 32) : EReal :=
  Ideal.div (0 + ∑ i : Rows,
      betaOf hb hr h0 hlt (histR (rowBinR X T)) (ix1 (⟨(rowBinR X T i).toNat % 10, Nat.mod_lt _ (by norm_num)⟩ : Fin 10))
        * rowCeR X T i) nTot

end Ghmc

end
-- ==== Proof.KPayload.lean ====
/- The kernel body's arithmetic read at an index, at the ideal values: a half-block's per-column count and loss sum
   are sums over its 2048 rows of a one-hot entry (times the row's loss), each row's bin and loss the functions of the
   specification. -/
import proofs.«416635_j57157424775631_3_alg».proof.Proof.Spec
import proofs.«416635_j57157424775631_3_alg».proof.Proof.Gen.KernelIdeal.Skeleton
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.GhmcPay

open Cert.KernelIdeal Cert.KernelIdeal.Gen

section Layout
variable {α : Type}

/-- A vector cast to a column reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! The pointwise operations read at an index: each is the scalar operation on the elements. -/
section Pointwise
variable {s : Shape}

theorem exp_apply (a : FVec Ideal s .f32) (i : s.Idx) : exp a i = Ideal.exp (a i) := rfl
theorem log_apply (a : FVec Ideal s .f32) (i : s.Idx) : log a i = Ideal.log (a i) := rfl
theorem absf_apply (a : FVec Ideal s .f32) (i : s.Idx) : absf a i = max (a i) (-(a i)) := rfl
theorem floor_apply (a : FVec Ideal s .f32) (i : s.Idx) : floor a i = Ideal.liftRound Int.floor (a i) := rfl
theorem fptosi_apply (a : FVec Ideal s .f32) (i : s.Idx) : fptosi 32 a i = Ideal.fptosi 32 (a i) := rfl
theorem maxsi_apply (a b : IVec s 32) (i : s.Idx) : maxsi a b i = IntOp.maxsi (a i) (b i) := rfl
theorem minsi_apply (a b : IVec s 32) (i : s.Idx) : minsi a b i = IntOp.minsi (a i) (b i) := rfl
theorem cmpi_apply (p : CmpIPredicate) (a b : IVec s 32) (i : s.Idx) : cmpi p a b i = IntOp.cmpi p (a i) (b i) := rfl

end Pointwise

/-- A select on an equality test of two words is the if on the equality. -/
theorem select_cmpi_eq {α : Type} (a b : BitVec 32) (x y : α) :
    Scalar.select (IntOp.cmpi .eq a b) x y = if a = b then x else y := by
  show (if BitVec.ofBool (a == b) = 1#1 then x else y) = _
  by_cases h : a = b
  · have hb : (a == b) = true := by simp [h]
    rw [hb, if_pos h]; exact if_pos (by decide)
  · have hb : (a == b) = false := by simp [h]
    rw [hb, if_neg h]; exact if_neg (by decide)

/-- An equality test widened to a word and converted to a float is 1 or 0. -/
theorem sitofp_extui_cmpi_eq (a b : BitVec 32) :
    FloatOps.sitofp (F := Ideal) .f32 ((IntOp.cmpi .eq a b).setWidth 32) = if b = a then (1 : EReal) else 0 := by
  show ((((IntOp.cmpi .eq a b).setWidth 32).toInt : ℝ) : EReal) = _
  unfold IntOp.cmpi
  by_cases h : a = b
  · subst h
    simp
  · have h' : ¬ b = a := fun e => h e.symm
    have hb : (a == b) = false := by simp [h]
    simp [hb, h']

/-- The float word of one is the number one. -/
theorem ofBits_one_f32 : Ideal.ofBits .f32 0x3F800000#32 = 1 := by
  simp [Ideal.ofBits, Ideal.ieee, -EReal.coe_mul]; norm_num

/-- The index a reduction over the lanes of a matrix inserts: (r, k). -/
theorem lift_lanes (h : S2048x512.Reduces [1] S2048) (r : Fin 2048) (k : Fin 512) :
    h.lift (ix1 r) k = ix2 r k := by
  funext c
  match c with
  | ⟨0, _⟩ => exact Fin.ext rfl
  | ⟨1, _⟩ => exact Fin.ext rfl

/-- The index a reduction over the rows of a matrix inserts: (k, col). -/
theorem lift_rows (h : S2048x128.Reduces [0] S128) (col : Fin 128) (k : Fin 2048) :
    h.lift (ix1 col) k = ix2 k col := by
  funext c
  match c with
  | ⟨0, _⟩ => exact Fin.ext rfl
  | ⟨1, _⟩ => exact Fin.ext rfl

/-- A lane sum kept as a column, read at row r. -/
theorem rowSum_col_apply (src : FVec Ideal S2048x512 .f32) (r : Fin 2048) (u : Fin 1) :
    shapeCast S2048x1 (multiReduction (F := Ideal) .add [1] S2048 src 0x00000000#32 reduces_S2048x512_S2048 (.inl rfl) rfl)
        shapeCasts_S2048_S2048x1 (ix2 r u)
      = ∑ cl : Fin 512, src (ix2 r cl) := by
  refine (shapeCast_a_a1_apply _ shapeCasts_S2048_S2048x1 r u).trans ?_
  refine (Ideal.multiReduction_add_single src 0x00000000#32 reduces_S2048x512_S2048 (.inl rfl) rfl (ix1 r)).trans ?_
  exact Finset.sum_congr rfl fun k _ => congrArg src (lift_lanes _ r k)

/-- A row maximum kept as a column, read at row r. -/
theorem rowMax_col_apply (src : FVec Ideal S2048x512 .f32) (r : Fin 2048) (u : Fin 1) :
    shapeCast S2048x1 (multiReduction (F := Ideal) .maximumf [1] S2048 src 0xFF800000#32 reduces_S2048x512_S2048 (.inl rfl) rfl)
        shapeCasts_S2048_S2048x1 (ix2 r u)
      = Ghmc.rowMax (fun cl : Fin 512 => src (ix2 r cl)) := by
  refine (shapeCast_a_a1_apply _ shapeCasts_S2048_S2048x1 r u).trans ?_
  refine (Ideal.multiReduction_maximumf_single src 0xFF800000#32 reduces_S2048x512_S2048 (.inl rfl) rfl (ix1 r)).trans ?_
  have hb : (FloatOps.ofBits (F := Ideal) .f32 0xFF800000#32) = (⊥ : EReal) := by
    simp [Ideal.ofBits, Ideal.ieee]
  have hf : (src ∘ reduces_S2048x512_S2048.lift (ix1 r)) = fun cl : Fin 512 => src (ix2 r cl) :=
    funext fun k => congrArg src (lift_lanes _ r k)
  rw [hb]
  unfold Ghmc.rowMax
  exact congrArg (fun f => Finset.fold max (⊥ : EReal) f Finset.univ) hf

/-- A column sum kept as a row, read at a column. -/
theorem colSum_row_apply (src : FVec Ideal S2048x128 .f32) (u : Fin 1) (col : Fin 128) :
    shapeCast S1x128 (multiReduction (F := Ideal) .add [0] S128 src 0x00000000#32 reduces_S2048x128_S128 (.inl rfl) rfl)
        shapeCasts_S128_S1x128 (ix2 u col)
      = ∑ r : Fin 2048, src (ix2 r col) := by
  refine (shapeCast_a_1a_apply _ shapeCasts_S128_S1x128 u col).trans ?_
  refine (Ideal.multiReduction_add_single src 0x00000000#32 reduces_S2048x128_S128 (.inl rfl) rfl (ix1 col)).trans ?_
  exact Finset.sum_congr rfl fun k _ => congrArg src (lift_rows _ col k)

/-- One summand of the selected logit: the logit where the class number is the class word, else zero. -/
theorem pick_term (vx : Vec Ideal S2048x512 .f32) (vt : Vec Ideal S2048x1 .i32) (r : Fin 2048) (cl : Fin 512) :
    select (cmpi .eq (iota .tc S2048x512 32 [1] iota_S2048x512_d1_w32)
        (broadcastTo S2048x512 (shapeCast S2048x1 vt shapeCasts_S2048x1_S2048x1) broadcasts_S2048x1_S2048x512))
      vx (broadcast S2048x512 (Scalar.ofBits (F := Ideal) .f32 0x00000000#32)) (ix2 r cl)
    = if BitVec.ofNat 32 cl.val = vt (ix2 r (0 : Fin 1)) then vx (ix2 r cl) else 0 := by
  refine (select_apply _ _ _ _).trans ?_
  rw [cmpi_apply, iota_single_apply, broadcastTo_a1_ab_apply, shapeCast_self, select_cmpi_eq, broadcast_apply]
  show (if BitVec.ofNat 32 cl.val = vt (ix2 r (0 : Fin 1)) then vx (ix2 r cl) else Ideal.ofBits .f32 0x00000000#32) = _
  rw [Ideal.ofBits_zero_f32]

/-- One summand of the exponential sum: exp of the logit less the row's maximum. -/
theorem exp_term (vx : Vec Ideal S2048x512 .f32) (r : Fin 2048) (cl : Fin 512) :
    exp (subf vx (broadcastTo S2048x512
        (shapeCast S2048x1 (multiReduction (F := Ideal) .maximumf [1] S2048 vx 0xFF800000#32 reduces_S2048x512_S2048 (.inl rfl) rfl)
          shapeCasts_S2048_S2048x1) broadcasts_S2048x1_S2048x512)) (ix2 r cl)
    = Ideal.exp (vx (ix2 r cl) - Ghmc.rowMax (fun c : Fin 512 => vx (ix2 r c))) := by
  refine (exp_apply _ _).trans (congrArg Ideal.exp ?_)
  refine (subf_apply _ _ _).trans (congrArg (fun z : EReal => vx (ix2 r cl) - z) ?_)
  exact (broadcastTo_a1_ab_apply _ broadcasts_S2048x1_S2048x512 r cl).trans (rowMax_col_apply vx r 0)

/-- A row's log-probability of its class, as the kernel groups it: the selected logit less (maximum + log of the exponential sum). -/
theorem pay9_apply (vx : Vec Ideal S2048x512 .f32) (vt : Vec Ideal S2048x1 .i32) (r : Fin 2048) :
    k0_pay9 (F := Ideal) vx vt (ix2 r (0 : Fin 1))
      = Ghmc.logptK (fun cl : Fin 512 => vx (ix2 r cl)) (vt (ix2 r (0 : Fin 1))) := by
  unfold k0_pay9
  dsimp only
  refine (subf_apply _ _ _).trans ?_
  refine (congrArg₂ (fun a b : EReal => a - b) (rowSum_col_apply _ r 0)
    ((addf_apply _ _ _).trans (congrArg₂ (fun a b : EReal => a + b) (rowMax_col_apply vx r 0)
      ((log_apply _ _).trans (congrArg Ideal.log (rowSum_col_apply _ r 0)))))).trans ?_
  unfold Ghmc.logptK Ghmc.pick Ghmc.rowSumExp
  refine congrArg₂ (fun a b : EReal => a - b) (Finset.sum_congr rfl fun cl _ => pick_term vx vt r cl) ?_
  refine congrArg (fun z : EReal => Ghmc.rowMax (fun c : Fin 512 => vx (ix2 r c)) + Ideal.log z) ?_
  exact Finset.sum_congr rfl fun cl _ => exp_term vx r cl

/-- The bin column at a row: the clamp of the bin word of that row's log-probability. -/
theorem bin_col_apply (L : FVec Ideal S2048x1 .f32) (r : Fin 2048) (u : Fin 1) :
    minsi (broadcast S2048x1 (9#32 : BitVec 32)) (maxsi (broadcast S2048x1 (0#32 : BitVec 32))
      (fptosi 32 (floor (mulf (absf (subf (exp L) (broadcast S2048x1 (Scalar.ofBits (F := Ideal) .f32 0x3F800000#32))))
        (broadcast S2048x1 (Scalar.ofBits (F := Ideal) .f32 0x411FFF97#32)))))) (ix2 r u)
      = Ghmc.clipB (Ghmc.binRaw (L (ix2 r u))) := by
  show IntOp.minsi 9#32 (IntOp.maxsi 0#32 (Ideal.fptosi 32 (Ideal.liftRound Int.floor
    (max (Ideal.exp (L (ix2 r u)) - Ideal.ofBits .f32 0x3F800000#32) (-(Ideal.exp (L (ix2 r u)) - Ideal.ofBits .f32 0x3F800000#32))
      * Ideal.ofBits .f32 0x411FFF97#32)))) = _
  rw [ofBits_one_f32]
  rfl

/-- The one-hot entry of a row's bin at a column. -/
theorem pay10_apply (vx : Vec Ideal S2048x512 .f32) (vt : Vec Ideal S2048x1 .i32) (r : Fin 2048) (col : Fin 128) :
    k0_pay10 (F := Ideal) vx vt (ix2 r col)
      = Ghmc.oneHot (Ghmc.rowBinK (fun cl : Fin 512 => vx (ix2 r cl)) (vt (ix2 r (0 : Fin 1)))) col.val := by
  unfold k0_pay10
  dsimp only
  refine (sitofp_apply _ _).trans ?_
  refine (congrArg (FloatOps.sitofp (F := Ideal) .f32)
    ((extui_apply _ _ _).trans (congrArg (fun c : BitVec 1 => c.setWidth 32) (cmpi_apply _ _ _ _)))).trans ?_
  refine (sitofp_extui_cmpi_eq _ _).trans ?_
  rw [iota_single_apply, broadcastTo_a1_ab_apply, bin_col_apply, pay9_apply]
  rfl

/-- A row's loss, broadcast along the lanes. -/
theorem pay12_apply (vx : Vec Ideal S2048x512 .f32) (vt : Vec Ideal S2048x1 .i32) (r : Fin 2048) (col : Fin 128) :
    k0_pay12 (F := Ideal) vx vt (ix2 r col)
      = Ghmc.rowCeK (fun cl : Fin 512 => vx (ix2 r cl)) (vt (ix2 r (0 : Fin 1))) := by
  unfold k0_pay12
  refine (broadcastTo_a1_ab_apply _ broadcasts_S2048x1_S2048x128 r col).trans ?_
  refine (subf_apply _ _ _).trans ?_
  rw [pay9_apply, broadcast_apply]
  show Ideal.ofBits .f32 0x00000000#32 - _ = _
  rw [Ideal.ofBits_zero_f32]
  rfl

/-- The per-column count of a half-block: Σ over its rows of the one-hot entry of the row's bin. -/
theorem pay11_apply (vx : Vec Ideal S2048x512 .f32) (vt : Vec Ideal S2048x1 .i32) (col : Fin 128) :
    k0_pay11 (F := Ideal) vx vt (ix2 (0 : Fin 1) col)
      = ∑ r : Fin 2048, Ghmc.oneHot (Ghmc.rowBinK (fun cl : Fin 512 => vx (ix2 r cl)) (vt (ix2 r (0 : Fin 1)))) col.val := by
  unfold k0_pay11
  dsimp only
  refine (colSum_row_apply _ 0 col).trans ?_
  exact Finset.sum_congr rfl fun r _ => pay10_apply vx vt r col

/-- The per-column loss sum of a half-block, added to the carried value. -/
theorem pay6_apply (acc : FVec Ideal S1x128 .f32) (vx : Vec Ideal S2048x512 .f32) (vt : Vec Ideal S2048x1 .i32) (col : Fin 128) :
    k0_pay6 (F := Ideal) acc (k0_pay10 vx vt) (k0_pay12 vx vt) (ix2 (0 : Fin 1) col)
      = acc (ix2 (0 : Fin 1) col) + ∑ r : Fin 2048,
          Ghmc.oneHot (Ghmc.rowBinK (fun cl : Fin 512 => vx (ix2 r cl)) (vt (ix2 r (0 : Fin 1)))) col.val
            * Ghmc.rowCeK (fun cl : Fin 512 => vx (ix2 r cl)) (vt (ix2 r (0 : Fin 1))) := by
  unfold k0_pay6
  dsimp only
  refine (addf_apply _ _ _).trans ?_
  refine congrArg (fun z : EReal => acc (ix2 (0 : Fin 1) col) + z) ?_
  refine (colSum_row_apply _ 0 col).trans ?_
  refine Finset.sum_congr rfl fun r _ => ?_
  refine (mulf_apply _ _ _).trans ?_
  rw [pay10_apply, pay12_apply]

theorem pay5_apply (acc v : FVec Ideal S1x128 .f32) (col : Fin 128) :
    k0_pay5 (F := Ideal) acc v (ix2 (0 : Fin 1) col) = acc (ix2 (0 : Fin 1) col) + v (ix2 (0 : Fin 1) col) := rfl

theorem pay3_apply (col : Fin 128) : k0_pay3 (F := Ideal) (ix2 (0 : Fin 1) col) = 0 := by
  show Ideal.ofBits .f32 0x00000000#32 = 0
  exact Ideal.ofBits_zero_f32
theorem pay4_apply (col : Fin 128) : k0_pay4 (F := Ideal) (ix2 (0 : Fin 1) col) = 0 := by
  show Ideal.ofBits .f32 0x00000000#32 = 0
  exact Ideal.ofBits_zero_f32
theorem pay1_apply (y : S1x8x128.Idx) : k0_pay1 (F := Ideal) y = 0 := by
  show Ideal.ofBits .f32 0x00000000#32 = 0
  exact Ideal.ofBits_zero_f32
theorem pay2_apply (y : S1x8x128.Idx) : k0_pay2 (F := Ideal) y = 0 := by
  show Ideal.ofBits .f32 0x00000000#32 = 0
  exact Ideal.ofBits_zero_f32

/-- The row-0 update: the row read back plus the loop's result. -/
theorem pay7_apply (a : FVec Ideal S1x128 .f32) (v : Vec Ideal S1x1x128 .f32) (col : Fin 128) :
    k0_pay7 (F := Ideal) a v (ix3 (0 : Fin 1) (0 : Fin 1) col) = v (ix3 (0 : Fin 1) (0 : Fin 1) col) + a (ix2 (0 : Fin 1) col) := by
  unfold k0_pay7
  refine (shapeCast_ab_1ab_apply _ shapeCasts_S1x128_S1x1x128 0 0 col).trans ?_
  refine (addf_apply _ _ _).trans ?_
  refine congrArg (fun z : EReal => z + a (ix2 (0 : Fin 1) col)) ?_
  exact shapeCast_1ab_ab_apply _ shapeCasts_S1x1x128_S1x128 0 col
theorem pay8_apply (a : FVec Ideal S1x128 .f32) (v : Vec Ideal S1x1x128 .f32) (col : Fin 128) :
    k0_pay8 (F := Ideal) a v (ix3 (0 : Fin 1) (0 : Fin 1) col) = v (ix3 (0 : Fin 1) (0 : Fin 1) col) + a (ix2 (0 : Fin 1) col) := by
  unfold k0_pay8
  refine (shapeCast_ab_1ab_apply _ shapeCasts_S1x128_S1x1x128 0 0 col).trans ?_
  refine (addf_apply _ _ _).trans ?_
  refine congrArg (fun z : EReal => z + a (ix2 (0 : Fin 1) col)) ?_
  exact shapeCast_1ab_ab_apply _ shapeCasts_S1x1x128_S1x128 0 col

end Cert.KernelIdeal.GhmcPay

end
-- ==== Proof.KAccum.lean ====
/- The two accumulator arrays after the kernel region: the per-point contents are a running sum over the points of one
   core, reset at the core's first point and written back after its last, so row 0 of core c's block ends at the sums
   over all of core c's samples. -/
import proofs.«416635_j57157424775631_3_alg».proof.Proof.KCases
import proofs.«416635_j57157424775631_3_alg».proof.Proof.KPayload
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.GhmcAcc

open Cert.KernelIdeal Cert.KernelIdeal.Gen Cert.KernelIdeal.GhmcLoop Cert.KernelIdeal.GhmcCases

variable (m : (ℓ : Loc nD τ sig) → Buf (Elt Ideal) ℓ)

/-- The logits and the clamped class words as the region finds them, by sample. -/
def Xk (c : Dev nD) : Ghmc.Rows → Ghmc.Cls → EReal := fun i cl => V m c main_arg0 (ix2 i cl)
def Tk (c : Dev nD) : Ghmc.Rows → BitVec 32 := fun i => V m c main_v1 (ix2 i (0 : Fin 1))

/-! ## The input blocks, read at an index

Point t's block of the logits is rows 4096·t … 4096·t + 4095 of the array, and likewise for the class words. -/

abbrev accXblk (c : Dev nD) (t : Fin cfg0.N) : Vec Ideal S4096x512 .f32 := iblk m c 0 t
abbrev accTblk (c : Dev nD) (t : Fin cfg0.N) : Vec Ideal S4096x1 .i32 := iblk m c 1 t

theorem index0_0 : ∀ t : Fin grid0.N, win0_0.index t (0 : Fin 2) = t.val ∧ win0_0.index t (1 : Fin 2) = 0 := by decide +kernel
theorem index0_1 : ∀ t : Fin grid0.N, win0_1.index t (0 : Fin 2) = t.val ∧ win0_1.index t (1 : Fin 2) = 0 := by decide +kernel

theorem rowAt_lt (t : Fin cfg0.N) (r : Fin 4096) : 4096 * t.val + r.val < 262144 := by
  have hN : t.val < 64 := lt_of_lt_of_eq t.isLt (show cfg0.N = 64 from N_0)
  have := r.isLt
  omega

theorem accXblk_apply (c : Dev nD) (t : Fin cfg0.N) (r : Fin 4096) (cl : Fin 512) :
    accXblk m c t (ix2 r cl) = Xk m c ⟨4096 * t.val + r.val, rowAt_lt t r⟩ cl := by
  unfold accXblk iblk Xk
  rw [View.read_apply]
  show V m c main_arg0 _ = V m c main_arg0 _
  congr 1
  funext a
  apply Fin.ext
  match a with
  | ⟨0, _⟩ =>
    show win0_0.index t 0 * 4096 + 1 * r.val = 4096 * t.val + r.val
    rw [(index0_0 t).1]; omega
  | ⟨1, _⟩ =>
    show win0_0.index t 1 * 512 + 1 * cl.val = cl.val
    rw [(index0_0 t).2]; omega

theorem accTblk_apply (c : Dev nD) (t : Fin cfg0.N) (r : Fin 4096) :
    accTblk m c t (ix2 r (0 : Fin 1)) = Tk m c ⟨4096 * t.val + r.val, rowAt_lt t r⟩ := by
  unfold accTblk iblk Tk
  rw [View.read_apply]
  show V m c main_v1 _ = V m c main_v1 _
  congr 1
  funext a
  apply Fin.ext
  match a with
  | ⟨0, _⟩ =>
    show win0_1.index t 0 * 4096 + 1 * r.val = 4096 * t.val + r.val
    rw [(index0_1 t).1]; omega
  | ⟨1, _⟩ =>
    show win0_1.index t 1 * 1 + 1 * 0 = 0
    rw [(index0_1 t).2]

/-! ## One point's addends, and the closed form of the running sums -/

/-- Point t's addend to the count row, per column: the loop's first result on the point's two blocks. -/
def addCnt (c : Dev nD) (t : ℕ) (col : Fin 128) : EReal :=
  if h : t < cfg0.N then (loopVal (accXblk m c ⟨t, h⟩) (accTblk m c ⟨t, h⟩)).1 (ix2 (0 : Fin 1) col) else 0
/-- Point t's addend to the loss row, per column: the loop's second result. -/
def addCe (c : Dev nD) (t : ℕ) (col : Fin 128) : EReal :=
  if h : t < cfg0.N then (loopVal (accXblk m c ⟨t, h⟩) (accTblk m c ⟨t, h⟩)).2 (ix2 (0 : Fin 1) col) else 0

/-- The block after point n, for addends A: row 0 holds the sum of the addends of the points of n's core up to n,
    the other rows zero. -/
def accOf (A : ℕ → Fin 128 → EReal) (n : ℕ) : Vec Ideal S1x8x128 .f32 := fun y =>
  if (y 1).val = 0 then ∑ j' ∈ Finset.range (n % 32 + 1), A (32 * (n / 32) + j') ⟨(y 2).val, (y 2).isLt⟩ else 0

theorem accOf_reset (A : ℕ → Fin 128 → EReal) (n : ℕ) (h0 : n % 32 = 0) :
    accOf A n = fun y => if (y 1).val = 0 then A n ⟨(y 2).val, (y 2).isLt⟩ else 0 := by
  funext y
  unfold accOf
  rw [h0, Finset.sum_range_one, show 32 * (n / 32) + 0 = n from by omega]

theorem accOf_step (A : ℕ → Fin 128 → EReal) (k : ℕ) (h : ¬(k + 1) % 32 = 0) :
    accOf A (k + 1) = fun y => if (y 1).val = 0 then
        accOf A k (ix3 (0 : Fin 1) (0 : Fin 8) (⟨(y 2).val, (y 2).isLt⟩ : Fin 128)) + A (k + 1) ⟨(y 2).val, (y 2).isLt⟩
      else accOf A k y := by
  funext y
  unfold accOf
  have e1 : (k + 1) % 32 = k % 32 + 1 := by omega
  have e2 : (k + 1) / 32 = k / 32 := by omega
  by_cases hy : (y 1).val = 0
  · rw [if_pos hy, if_pos hy, if_pos (show ((ix3 (0 : Fin 1) (0 : Fin 8) (⟨(y 2).val, (y 2).isLt⟩ : Fin 128) : S1x8x128.Idx) 1).val = 0 from rfl),
      e1, e2, Finset.sum_range_succ _ (k % 32 + 1), show 32 * (k / 32) + (k % 32 + 1) = k + 1 from by omega]
  · rw [if_neg hy, if_neg hy, if_neg hy]

/-! ## The two cases' row-0 updates, read at an index -/

section Merge
variable (z : Vec Ideal S1x8x128 .f32) (hz : ∀ y, z y = 0)
  (p : FVec Ideal S1x128 .f32 → Vec Ideal S1x1x128 .f32 → Vec Ideal S1x1x128 .f32)
  (hp : ∀ (a : FVec Ideal S1x128 .f32) (v : Vec Ideal S1x1x128 .f32) (col : Fin 128),
    p a v (ix3 (0 : Fin 1) (0 : Fin 1) col) = v (ix3 (0 : Fin 1) (0 : Fin 1) col) + a (ix2 (0 : Fin 1) col))
include hz hp

/-- The reset case: the zero block with the loop's result added into row 0. -/
theorem mergeA (a : FVec Ideal S1x128 .f32) :
    mergeRow0 z (p a (row0 z)) = fun y => if (y 1).val = 0 then a (ix2 (0 : Fin 1) (⟨(y 2).val, (y 2).isLt⟩ : Fin 128)) else 0 := by
  funext y
  unfold mergeRow0
  by_cases hy : (y 1).val = 0
  · rw [if_pos hy, if_pos hy, hp]
    unfold row0
    rw [hz, zero_add]
  · rw [if_neg hy, if_neg hy, hz]

/-- The accumulating case: the loop's result added into row 0 of what was there. -/
theorem mergeB (xo : Vec Ideal S1x8x128 .f32) (a : FVec Ideal S1x128 .f32) :
    mergeRow0 xo (p a (row0 xo)) = fun y => if (y 1).val = 0 then
        xo (ix3 (0 : Fin 1) (0 : Fin 8) (⟨(y 2).val, (y 2).isLt⟩ : Fin 128)) + a (ix2 (0 : Fin 1) (⟨(y 2).val, (y 2).isLt⟩ : Fin 128))
      else xo y := by
  funext y
  unfold mergeRow0
  by_cases hy : (y 1).val = 0
  · rw [if_pos hy, if_pos hy, hp]
    rfl
  · rw [if_neg hy, if_neg hy]

end Merge

/-! ## The invariant: after every point the two blocks are the closed forms -/

theorem addCnt_at (c : Dev nD) (t : Fin cfg0.N) (col : Fin 128) :
    addCnt m c t.val col = (loopVal (accXblk m c t) (accTblk m c t)).1 (ix2 (0 : Fin 1) col) := by
  unfold addCnt; rw [dif_pos t.isLt]
theorem addCe_at (c : Dev nD) (t : Fin cfg0.N) (col : Fin 128) :
    addCe m c t.val col = (loopVal (accXblk m c t) (accTblk m c t)).2 (ix2 (0 : Fin 1) col) := by
  unfold addCe; rw [dif_pos t.isLt]

/-- At a point that resets. -/
theorem outsAt_A (c : Dev nD) (t : Fin cfg0.N) (h0 : t.val % 32 = 0) :
    outsAt0 m c t.val t.isLt = (accOf (addCnt m c) t.val, accOf (addCe m c) t.val) := by
  rw [outsAt0_A m c t h0,
    out_A_2 (F := Ideal) c (grid0.coords t) (ms0_0 t) (hs0_0 t) (ms0_1 t) (hs0_1 t) (ms0_2 t) (hs0_2 t) (ms0_3 t) (hs0_3 t)
      ((hcond0_0 t).mpr h0) (accXblk m c t) (accTblk m c t),
    out_A_3 (F := Ideal) c (grid0.coords t) (ms0_0 t) (hs0_0 t) (ms0_1 t) (hs0_1 t) (ms0_2 t) (hs0_2 t) (ms0_3 t) (hs0_3 t)
      ((hcond0_0 t).mpr h0) (accXblk m c t) (accTblk m c t),
    mergeA (k0_pay1 (F := Ideal)) GhmcPay.pay1_apply (k0_pay7 (F := Ideal)) GhmcPay.pay7_apply,
    mergeA (k0_pay2 (F := Ideal)) GhmcPay.pay2_apply (k0_pay8 (F := Ideal)) GhmcPay.pay8_apply,
    accOf_reset _ _ h0, accOf_reset _ _ h0]
  refine Prod.ext ?_ ?_
  · funext y; dsimp only; rw [addCnt_at]
  · funext y; dsimp only; rw [addCe_at]

/-- At a point that accumulates, from the closed forms at the point before. -/
theorem outsAt_B (c : Dev nD) (k : ℕ) (h : k + 1 < cfg0.N) (hB : ¬(k + 1) % 32 = 0)
    (ih : outsAt0 m c k (Nat.lt_of_succ_lt h) = (accOf (addCnt m c) k, accOf (addCe m c) k)) :
    outsAt0 m c (k + 1) h = (accOf (addCnt m c) (k + 1), accOf (addCe m c) (k + 1)) := by
  have hB' : ¬(⟨k + 1, h⟩ : Fin cfg0.N).val % 32 = 0 := hB
  have ih' : outsAt0 m c ((⟨k + 1, h⟩ : Fin cfg0.N).val - 1)
      (Nat.lt_of_le_of_lt (Nat.sub_le _ _) (⟨k + 1, h⟩ : Fin cfg0.N).isLt) = (accOf (addCnt m c) k, accOf (addCe m c) k) := ih
  rw [outsAt0_B m c ⟨k + 1, h⟩ hB', ih']
  dsimp only
  rw [out_B_2 (F := Ideal) c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩) (fun hh => hB' ((hcond0_0 ⟨k + 1, h⟩).mp hh))
      (accXblk m c ⟨k + 1, h⟩) (accTblk m c ⟨k + 1, h⟩) (accOf (addCnt m c) k) (accOf (addCe m c) k),
    out_B_3 (F := Ideal) c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩) (fun hh => hB' ((hcond0_0 ⟨k + 1, h⟩).mp hh))
      (accXblk m c ⟨k + 1, h⟩) (accTblk m c ⟨k + 1, h⟩) (accOf (addCnt m c) k) (accOf (addCe m c) k),
    mergeB (k0_pay1 (F := Ideal)) GhmcPay.pay1_apply (k0_pay7 (F := Ideal)) GhmcPay.pay7_apply,
    mergeB (k0_pay2 (F := Ideal)) GhmcPay.pay2_apply (k0_pay8 (F := Ideal)) GhmcPay.pay8_apply,
    accOf_step _ _ hB, accOf_step _ _ hB]
  refine Prod.ext ?_ ?_
  · funext y; dsimp only; rw [addCnt_at m c ⟨k + 1, h⟩]
  · funext y; dsimp only; rw [addCe_at m c ⟨k + 1, h⟩]

/-- After every point the two accumulator blocks are the closed forms. -/
theorem outsAt_eq (c : Dev nD) : ∀ (n : ℕ) (h : n < cfg0.N), outsAt0 m c n h = (accOf (addCnt m c) n, accOf (addCe m c) n)
  | 0, h => outsAt_A m c ⟨0, h⟩ rfl
  | k + 1, h => by
    by_cases h0 : (k + 1) % 32 = 0
    · exact outsAt_A m c ⟨k + 1, h⟩ h0
    · exact outsAt_B m c k h h0 (outsAt_eq c k (Nat.lt_of_succ_lt h))

/-! ## A point's addends are the specification's sums over the point's samples -/

theorem pt_lt (core : Fin 2) (j : Fin 32) : 32 * core.val + j.val < cfg0.N := by
  rw [show cfg0.N = 64 from N_0]; have := core.isLt; have := j.isLt; omega

/-- Row r of half ch of the logits block at point 32·core + j is the sample the specification names. -/
theorem halfX_row (c : Dev nD) (core : Fin 2) (j : Fin 32) (ch : Fin 2) (r : Fin 2048) :
    (fun cl : Fin 512 => halfX ch (accXblk m c ⟨32 * core.val + j.val, pt_lt core j⟩) (ix2 r cl))
      = Xk m c (Ghmc.rowOf core j ch r) := by
  funext cl
  unfold halfX
  refine (accXblk_apply m c ⟨32 * core.val + j.val, pt_lt core j⟩
    ⟨ch.val * 2048 + r.val, by have := ch.isLt; have := r.isLt; omega⟩ ⟨cl.val, cl.isLt⟩).trans ?_
  refine congrArg (fun i => Xk m c i cl) (Fin.ext ?_)
  show 4096 * (32 * core.val + j.val) + (ch.val * 2048 + r.val) = core.val * 131072 + j.val * 4096 + ch.val * 2048 + r.val
  omega

theorem halfT_row (c : Dev nD) (core : Fin 2) (j : Fin 32) (ch : Fin 2) (r : Fin 2048) :
    halfT ch (accTblk m c ⟨32 * core.val + j.val, pt_lt core j⟩) (ix2 r (0 : Fin 1)) = Tk m c (Ghmc.rowOf core j ch r) := by
  unfold halfT
  refine (accTblk_apply m c ⟨32 * core.val + j.val, pt_lt core j⟩
    ⟨ch.val * 2048 + r.val, by have := ch.isLt; have := r.isLt; omega⟩).trans ?_
  refine congrArg (fun i => Tk m c i) (Fin.ext ?_)
  show 4096 * (32 * core.val + j.val) + (ch.val * 2048 + r.val) = core.val * 131072 + j.val * 4096 + ch.val * 2048 + r.val
  omega

/-- The count addend of point 32·core + j: the two halves' counts. -/
theorem addCnt_eq (c : Dev nD) (core : Fin 2) (j : Fin 32) (col : Fin 128) :
    addCnt m c (32 * core.val + j.val) col = ∑ ch : Fin 2, ∑ r : Fin 2048,
      Ghmc.oneHot (Ghmc.rowBinK (Xk m c (Ghmc.rowOf core j ch r)) (Tk m c (Ghmc.rowOf core j ch r))) col.val := by
  rw [addCnt_at m c ⟨32 * core.val + j.val, pt_lt core j⟩ col]
  unfold loopVal
  dsimp only
  rw [GhmcPay.pay5_apply, GhmcPay.pay5_apply, GhmcPay.pay3_apply, zero_add, GhmcPay.pay11_apply, GhmcPay.pay11_apply,
    Fin.sum_univ_two]
  refine congrArg₂ (· + ·) ?_ ?_
  · exact Finset.sum_congr rfl fun r _ => by rw [halfX_row m c core j 0 r, halfT_row m c core j 0 r]
  · exact Finset.sum_congr rfl fun r _ => by rw [halfX_row m c core j 1 r, halfT_row m c core j 1 r]

/-- The loss addend of point 32·core + j: the two halves' loss sums. -/
theorem addCe_eq (c : Dev nD) (core : Fin 2) (j : Fin 32) (col : Fin 128) :
    addCe m c (32 * core.val + j.val) col = ∑ ch : Fin 2, ∑ r : Fin 2048,
      Ghmc.oneHot (Ghmc.rowBinK (Xk m c (Ghmc.rowOf core j ch r)) (Tk m c (Ghmc.rowOf core j ch r))) col.val
        * Ghmc.rowCeK (Xk m c (Ghmc.rowOf core j ch r)) (Tk m c (Ghmc.rowOf core j ch r)) := by
  rw [addCe_at m c ⟨32 * core.val + j.val, pt_lt core j⟩ col]
  unfold loopVal
  dsimp only
  rw [GhmcPay.pay6_apply, GhmcPay.pay6_apply, GhmcPay.pay4_apply, zero_add, Fin.sum_univ_two]
  refine congrArg₂ (· + ·) ?_ ?_
  · exact Finset.sum_congr rfl fun r _ => by rw [halfX_row m c core j 0 r, halfT_row m c core j 0 r]
  · exact Finset.sum_congr rfl fun r _ => by rw [halfX_row m c core j 1 r, halfT_row m c core j 1 r]

/-- At a core's last point row 0 holds the sum over all the core's points. -/
theorem accOf_last (A : ℕ → Fin 128 → EReal) (n : ℕ) (h31 : n % 32 = 31) (y : S1x8x128.Idx) :
    accOf A n y = if (y 1).val = 0 then ∑ j : Fin 32, A (32 * (n / 32) + j.val) ⟨(y 2).val, (y 2).isLt⟩ else 0 := by
  unfold accOf
  rw [h31, Finset.sum_range]

/-- The specification's count array at an index of core's block. -/
theorem cntArr_at (c : Dev nD) (i : Ghmc.S2x8x128.Idx) (core : Fin 2) (col : Fin 128) (h0 : (i 0).val = core.val)
    (h2 : (i 2).val = col.val) :
    Ghmc.cntArr (Xk m c) (Tk m c) i = if (i 1).val = 0 then ∑ j : Fin 32, addCnt m c (32 * core.val + j.val) col else 0 := by
  unfold Ghmc.cntArr
  have e0 : i 0 = core := Fin.ext h0
  rw [e0, h2]
  simp only [addCnt_eq]

theorem ceArr_at (c : Dev nD) (i : Ghmc.S2x8x128.Idx) (core : Fin 2) (col : Fin 128) (h0 : (i 0).val = core.val)
    (h2 : (i 2).val = col.val) :
    Ghmc.ceArr (Xk m c) (Tk m c) i = if (i 1).val = 0 then ∑ j : Fin 32, addCe m c (32 * core.val + j.val) col else 0 := by
  unfold Ghmc.ceArr
  have e0 : i 0 = core := Fin.ext h0
  rw [e0, h2]
  simp only [addCe_eq]

/-! ## The write-backs and the final arrays -/

theorem index0_2 : ∀ t : Fin grid0.N, win0_2.index t (0 : Fin 3) = t.val / 32 ∧ win0_2.index t (1 : Fin 3) = 0 ∧ win0_2.index t (2 : Fin 3) = 0 := by
  decide +kernel
theorem index0_3 : ∀ t : Fin grid0.N, win0_3.index t (0 : Fin 3) = t.val / 32 ∧ win0_3.index t (1 : Fin 3) = 0 ∧ win0_3.index t (2 : Fin 3) = 0 := by
  decide +kernel

theorem flushed2_eq (c : Dev nD) (t : Fin cfg0.N) (hf : (cfg0.win 2).flush t = true) :
    (dats m 0 c).flushed 2 t = ((cfg0.win 2).blk t).view.read (Elt Ideal) (Ghmc.cntArr (Xk m c) (Tk m c)) := by
  have h31 : t.val % 32 = 31 := (flush0_2 t).mp hf
  have hN : t.val < 64 := lt_of_lt_of_eq t.isLt (show cfg0.N = 64 from N_0)
  show (cfg0.win 2).cut (grid0.coords t) ((dats m 0 c).after 2 t) = _
  rw [after0_2, outsAt_eq]
  dsimp only
  funext y
  rw [View.read_apply]
  show accOf (addCnt m c) t.val (win0_2.xinj (grid0.coords t) y)
    = Ghmc.cntArr (Xk m c) (Tk m c) (((View.whole main_v2_0).slice (win0_2.rect t)).emb y)
  have hy0 : (y 0).val < 1 := (y 0).isLt
  have hy2 : (y 2).val < 128 := (y 2).isLt
  have e0 : ((((View.whole main_v2_0).slice (win0_2.rect t)).emb y) 0).val = t.val / 32 := by
    show win0_2.index t 0 * 1 + 1 * (y 0).val = t.val / 32
    rw [(index0_2 t).1]; omega
  have e1 : ((((View.whole main_v2_0).slice (win0_2.rect t)).emb y) 1).val = (y 1).val := by
    show win0_2.index t 1 * 8 + 1 * (y 1).val = (y 1).val
    rw [(index0_2 t).2.1]; omega
  have e2 : ((((View.whole main_v2_0).slice (win0_2.rect t)).emb y) 2).val = (y 2).val := by
    show win0_2.index t 2 * 128 + 1 * (y 2).val = (y 2).val
    rw [(index0_2 t).2.2]; omega
  rw [accOf_last _ _ h31, cntArr_at m c _ ⟨t.val / 32, by omega⟩ ⟨(y 2).val, hy2⟩ e0 e2, e1]

theorem flushed3_eq (c : Dev nD) (t : Fin cfg0.N) (hf : (cfg0.win 3).flush t = true) :
    (dats m 0 c).flushed 3 t = ((cfg0.win 3).blk t).view.read (Elt Ideal) (Ghmc.ceArr (Xk m c) (Tk m c)) := by
  have h31 : t.val % 32 = 31 := (flush0_3 t).mp hf
  have hN : t.val < 64 := lt_of_lt_of_eq t.isLt (show cfg0.N = 64 from N_0)
  show (cfg0.win 3).cut (grid0.coords t) ((dats m 0 c).after 3 t) = _
  rw [after0_3, outsAt_eq]
  dsimp only
  funext y
  rw [View.read_apply]
  show accOf (addCe m c) t.val (win0_3.xinj (grid0.coords t) y)
    = Ghmc.ceArr (Xk m c) (Tk m c) (((View.whole main_v2_1).slice (win0_3.rect t)).emb y)
  have hy0 : (y 0).val < 1 := (y 0).isLt
  have hy2 : (y 2).val < 128 := (y 2).isLt
  have e0 : ((((View.whole main_v2_1).slice (win0_3.rect t)).emb y) 0).val = t.val / 32 := by
    show win0_3.index t 0 * 1 + 1 * (y 0).val = t.val / 32
    rw [(index0_3 t).1]; omega
  have e1 : ((((View.whole main_v2_1).slice (win0_3.rect t)).emb y) 1).val = (y 1).val := by
    show win0_3.index t 1 * 8 + 1 * (y 1).val = (y 1).val
    rw [(index0_3 t).2.1]; omega
  have e2 : ((((View.whole main_v2_1).slice (win0_3.rect t)).emb y) 2).val = (y 2).val := by
    show win0_3.index t 2 * 128 + 1 * (y 2).val = (y 2).val
    rw [(index0_3 t).2.2]; omega
  rw [accOf_last _ _ h31, ceArr_at m c _ ⟨t.val / 32, by omega⟩ ⟨(y 2).val, hy2⟩ e0 e2, e1]

/-- The count array after the region. -/
theorem final2 (c : Dev nD) : (dats m 0 c).arrAt 2 cfg0.N = Ghmc.cntArr (Xk m c) (Tk m c) :=
  (dats m 0 c).arrAt_eq_of_cover 2 (Ghmc.cntArr (Xk m c) (Tk m c)) (flushed2_eq m c) fun i => by
    have hi0 : (i 0).val < 2 := (i 0).isLt
    have hi1 : (i 1).val < 8 := (i 1).isLt
    have hi2 : (i 2).val < 128 := (i 2).isLt
    have hlt : 32 * (i 0).val + 31 < cfg0.N := by rw [show cfg0.N = 64 from N_0]; omega
    have hidx := index0_2 ⟨32 * (i 0).val + 31, hlt⟩
    refine ⟨⟨32 * (i 0).val + 31, hlt⟩, (flush0_2 _).mpr (by show (32 * (i 0).val + 31) % 32 = 31; omega), ?_⟩
    show i ∈ ((View.whole main_v2_0).slice (win0_2.rect ⟨32 * (i 0).val + 31, hlt⟩)).set
    rw [View.set_slice_whole, Rect.mem_set_unit]
    intro a
    match a with
    | ⟨0, _⟩ =>
      show win0_2.index ⟨32 * (i 0).val + 31, hlt⟩ 0 * 1 ≤ (i 0).val
        ∧ (i 0).val < win0_2.index ⟨32 * (i 0).val + 31, hlt⟩ 0 * 1 + 1
      rw [hidx.1]; show (32 * (i 0).val + 31) / 32 * 1 ≤ (i 0).val ∧ (i 0).val < (32 * (i 0).val + 31) / 32 * 1 + 1; omega
    | ⟨1, _⟩ =>
      show win0_2.index ⟨32 * (i 0).val + 31, hlt⟩ 1 * 8 ≤ (i 1).val
        ∧ (i 1).val < win0_2.index ⟨32 * (i 0).val + 31, hlt⟩ 1 * 8 + 8
      rw [hidx.2.1]; omega
    | ⟨2, _⟩ =>
      show win0_2.index ⟨32 * (i 0).val + 31, hlt⟩ 2 * 128 ≤ (i 2).val
        ∧ (i 2).val < win0_2.index ⟨32 * (i 0).val + 31, hlt⟩ 2 * 128 + 128
      rw [hidx.2.2]; omega

/-- The loss-sum array after the region. -/
theorem final3 (c : Dev nD) : (dats m 0 c).arrAt 3 cfg0.N = Ghmc.ceArr (Xk m c) (Tk m c) :=
  (dats m 0 c).arrAt_eq_of_cover 3 (Ghmc.ceArr (Xk m c) (Tk m c)) (flushed3_eq m c) fun i => by
    have hi0 : (i 0).val < 2 := (i 0).isLt
    have hi1 : (i 1).val < 8 := (i 1).isLt
    have hi2 : (i 2).val < 128 := (i 2).isLt
    have hlt : 32 * (i 0).val + 31 < cfg0.N := by rw [show cfg0.N = 64 from N_0]; omega
    have hidx := index0_3 ⟨32 * (i 0).val + 31, hlt⟩
    refine ⟨⟨32 * (i 0).val + 31, hlt⟩, (flush0_3 _).mpr (by show (32 * (i 0).val + 31) % 32 = 31; omega), ?_⟩
    show i ∈ ((View.whole main_v2_1).slice (win0_3.rect ⟨32 * (i 0).val + 31, hlt⟩)).set
    rw [View.set_slice_whole, Rect.mem_set_unit]
    intro a
    match a with
    | ⟨0, _⟩ =>
      show win0_3.index ⟨32 * (i 0).val + 31, hlt⟩ 0 * 1 ≤ (i 0).val
        ∧ (i 0).val < win0_3.index ⟨32 * (i 0).val + 31, hlt⟩ 0 * 1 + 1
      rw [hidx.1]; show (32 * (i 0).val + 31) / 32 * 1 ≤ (i 0).val ∧ (i 0).val < (32 * (i 0).val + 31) / 32 * 1 + 1; omega
    | ⟨1, _⟩ =>
      show win0_3.index ⟨32 * (i 0).val + 31, hlt⟩ 1 * 8 ≤ (i 1).val
        ∧ (i 1).val < win0_3.index ⟨32 * (i 0).val + 31, hlt⟩ 1 * 8 + 8
      rw [hidx.2.1]; omega
    | ⟨2, _⟩ =>
      show win0_3.index ⟨32 * (i 0).val + 31, hlt⟩ 2 * 128 ≤ (i 2).val
        ∧ (i 2).val < win0_3.index ⟨32 * (i 0).val + 31, hlt⟩ 2 * 128 + 128
      rw [hidx.2.2]; omega

end Cert.KernelIdeal.GhmcAcc

end
-- ==== Proof.KHost.lean ====
/- The kernel program around its region: the class words clamped and re-laid before it, the ten-number epilogue after
   it, and the whole run read as one value of the two argument arrays. -/
import proofs.«416635_j57157424775631_3_alg».proof.Proof.KAccum
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.GhmcHost

open Cert.KernelIdeal Cert.KernelIdeal.Gen Cert.KernelIdeal.GhmcAcc

variable (m : (ℓ : Loc nD τ sig) → Buf (Elt Ideal) ℓ) (ρ : Dev nD → PrngReg)

/-- The argument arrays by sample. -/
def Xof (c : Dev nD) : Ghmc.Rows → Ghmc.Cls → EReal := fun i cl => m ((c : Thread nD τ).loc main_arg0) (ix2 i cl)
def Tof (c : Dev nD) : Ghmc.Rows → BitVec 32 := fun i => m ((c : Thread nD τ).loc main_arg1) (ix1 i)

/-- The region finds the logits as launched, -/
theorem Xk_eq (c : Dev nD) : Xk m c = Xof m c := by
  funext i cl
  show V m c main_arg0 (ix2 i cl) = m ((c : Thread nD τ).loc main_arg0) (ix2 i cl)
  rw [V_main_arg0]

/-- The class words as the region finds them: the launched words, each raised to at least 0 and lowered to at most 511,
    laid out as a column. -/
theorem v1_eq (c : Dev nD) : (V m c main_v1 : S262144x1.Idx → BitVec 32) =
    shapeCast S262144x1 (minsi (broadcastInDim S262144 ![] bcast_S_S262144 (constantI S_ 32 511#32))
      (maxsi (broadcastInDim S262144 ![] bcast_S_S262144 (constantI S_ 32 0#32)) (m ((c : Thread nD τ).loc main_arg1))))
      shapeCasts_S262144_S262144x1 := by
  dsimp only [Gen.V, Gen.V0]
  simp only [Gen.hostOps0, Gen.hostOps0_1, Gen.hostOps0_2, List.flatten_cons, List.flatten_nil, List.append_nil,
    List.cons_append, List.nil_append]
  after_results
  rfl

/-- and the class words clamped into [0, 511]. -/
theorem Tk_eq (c : Dev nD) : Tk m c = fun i => Ghmc.clipT (Tof m c i) := by
  funext i
  show (V m c main_v1 : S262144x1.Idx → BitVec 32) (ix2 i (0 : Fin 1)) = _
  rw [v1_eq]
  -- entry (i, 0) of the column is entry i of the vector: both sit at row-major position i
  refine (shapeCast_apply _ shapeCasts_S262144_S262144x1 (ix2 i (0 : Fin 1)) (ix1 i) ?_).trans ?_
  · rw [Shape.rowMajor_val_two, Shape.rowMajor_val_one]
    show i.val = i.val * 1 + 0
    omega
  · rfl

/-! ## The epilogue on any two accumulator arrays -/

/-- The ten totals the epilogue takes from an accumulator array: row 0, columns 0 to 9 of each core's block, the two
    cores added from zero. -/
def tot (a : FVec Ideal S2x8x128 .f32) : FVec Ideal S10 .f32 :=
  Host.reduceAdd (shapeCast S2x10 (extractStridedSlice S2x1x10 ![0, 0, 0] a slices_S2x8x128_S2x1x10_0_0_0) shapeCasts_S2x1x10_S2x10)
    (constant (F := Ideal) S_ .f32 0x00000000#32) reducesTo_S2x10_S10_d0 h_S_

/-- The epilogue: the reweighting of the ten counts times the ten loss sums, added from zero, over the sample count. -/
def tailOf (a2 a3 : FVec Ideal S2x8x128 .f32) : FVec Ideal S_ .f32 :=
  Host.divf (Host.reduceAdd (mulf (Ghmc.betaOf bcast_S_S10 reducesTo_S10_S_d0 h_S_ natLt_1_32 (tot a2)) (tot a3))
      (constant (F := Ideal) S_ .f32 0x00000000#32) reducesTo_S10_S_d0 h_S_)
    (constant (F := Ideal) S_ .f32 0x48800000#32)

/-- A rank-one index set is its one coordinate's range, -/
def idxEquiv1 {n : Nat} : (⟨1, ![n]⟩ : Shape).Idx ≃ Fin n where
  toFun i := i 0
  invFun a := ix1 a
  left_inv i := (eq_ix1 i).symm
  right_inv _ := rfl

/-- so a sum over it is the sum over that range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The ten totals, read entry by entry: total k is 0 plus, over the two cores, the array at (core, 0, k). -/
theorem tot_eq (a : FVec Ideal S2x8x128 .f32) : tot a = Ghmc.binTotals a := by
  funext k
  unfold tot Host.reduceAdd Ghmc.binTotals
  show Ideal.hostReduceAdd reducesTo_S2x10_S10_d0 _ (Ideal.ofBits .f32 0x00000000#32) k = _
  rw [Ideal.hostReduceAdd_single reducesTo_S2x10_S10_d0 (by decide : S2x10.Reduces [0] S10), Ideal.ofBits_zero_f32]
  refine congrArg (fun s : EReal => 0 + s) (Finset.sum_congr rfl fun core _ => ?_)
  -- entry (core, k) of the [2, 10] array is entry (core, 0, k) of the [2, 1, 10] slice: position core * 10 + k in both
  refine (shapeCast_apply _ shapeCasts_S2x1x10_S2x10 _ (ix3 core (0 : Fin 1) (k 0)) ?_).trans ?_
  · rw [Shape.rowMajor_val_three, Shape.rowMajor_val_two]
    show (core.val * 1 + 0) * 10 + (k 0).val = core.val * 10 + (k 0).val
    omega
  · -- the slice starts at the origin: its entry (core, 0, k) is the array's
    refine extractStridedSlice_apply _ a slices_S2x8x128_S2x1x10_0_0_0 _ _ ?_
    intro ax
    match ax with
    | ⟨0, _⟩ => exact (Nat.zero_add _).symm
    | ⟨1, _⟩ => exact (Nat.zero_add _).symm
    | ⟨2, _⟩ => exact (Nat.zero_add _).symm

/-- The epilogue's one number: (0 + Σ_k β_k · ce_k) / 262144 over the ten totals of each array. -/
theorem tailOf_eq (a2 a3 : FVec Ideal S2x8x128 .f32) :
    tailOf a2 a3 = fun _ => Ghmc.valueOfArrs bcast_S_S10 reducesTo_S10_S_d0 h_S_ natLt_1_32 a2 a3 := by
  funext u
  unfold tailOf Ghmc.valueOfArrs Host.divf Host.reduceAdd
  rw [tot_eq, tot_eq]
  show Ideal.div (Ideal.hostReduceAdd reducesTo_S10_S_d0 _ (Ideal.ofBits .f32 0x00000000#32) _) (Ideal.ofBits .f32 0x48800000#32) = _
  -- a sum over every axis of a vector of ten: the initial value plus the sum of the ten entries
  rw [Ideal.hostReduceAdd_total reducesTo_S10_S_d0 (fun b => b.elim0), Ideal.ofBits_zero_f32, sum_idx1]
  rfl

/-- The operations after the region, composed: the epilogue applied to the two arrays the region leaves. -/
theorem tail_ops (c : Dev nD) :
    (Pipeline.afterTail₀ cfgs (dats m) 0 (V0 m) [hostOps1] c main_v22 : FVec Ideal S_ .f32)
      = tailOf ((dats m 0 c).arrAt 2 cfg0.N) ((dats m 0 c).arrAt 3 cfg0.N) := by
  unfold Pipeline.afterTail₀
  simp only [Gen.hostOps1, List.flatten_cons, List.flatten_nil, List.append_nil]
  after_results_simp
  have h2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  rw [h2, h3]
  rfl

/-- The epilogue's result from the two arrays the region leaves. -/
theorem tail_eq (c : Dev nD) :
    Pipeline.afterTail₀ cfgs (dats m) 0 (V0 m) [hostOps1] c main_v22
      = fun _ => Ghmc.valueOfArrs bcast_S_S10 reducesTo_S10_S_d0 h_S_ natLt_1_32
          ((dats m 0 c).arrAt 2 cfg0.N) ((dats m 0 c).arrAt 3 cfg0.N) :=
  (tail_ops m c).trans (tailOf_eq _ _)

/-- THE KERNEL'S RUN, read: the result buffer at the kernel's value of the argument arrays, the arguments unchanged. -/
theorem run : θ_run defs (onTc (τ := τ) (main (F := Ideal))) ⟨m, fun _ => 0, ρ⟩ fun r => ∀ c : Dev nD,
      r.2.mem ((c.tc : Thread nD τ).loc main_v22)
        = (fun _ => Ghmc.valueK bcast_S_S10 reducesTo_S10_S_d0 h_S_ natLt_1_32 (Xof m c) (Tof m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · -- the result buffer is no array of the region: it ends as the epilogue leaves it
    refine ((h c).2 main_v22 (Pipeline.mem_restRefs_of main_v22 (by decide) (by decide))).trans ?_
    rw [tail_eq, final2, final3, Xk_eq, Tk_eq]
    rfl
  · -- the logits are a staged input: the region leaves the array as it found it, and it found it as launched
    exact ((h c).1 0).trans (((dats m 0 c).arrAt_in 0 rfl _).trans ((A_eq m c 0).trans (V_main_arg0 m c)))
  · -- the class words are no array of the region and no operation after it writes them
    exact ((h c).2 main_arg1 (Pipeline.mem_restRefs_of main_arg1 (by decide) (by decide))).trans (W_main_arg1 m (dats m) c)

end Cert.KernelIdeal.GhmcHost

end
-- ==== Proof.Analysis.lean ====
/- Per-row real analysis: on a finite row both groupings of log p_t are one real number, which is not positive, so the
   bin word lies in [0, 9] and neither clamp binds. -/
import proofs.«416635_j57157424775631_3_alg».proof.Proof.Spec
import Mathlib.Analysis.SpecialFunctions.Log.Basic
import Mathlib.Data.EReal.Basic
import Mathlib.Data.EReal.Operations
import Mathlib.Data.Finset.Fold

noncomputable section

namespace Ghmc

open Idealize.ShloMosaic

/-- Every entry of the row is a real number. -/
def FiniteRow (x : Cls → EReal) : Prop := ∀ c, ∃ r : ℝ, x c = (r : EReal)

/-- The inclusion of the reals in the extended reals commutes with finite sums. -/
theorem ereal_coe_finsum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The pieces of a finite row: real entries f, a real maximum m, and the sum of exponentials as the real
    Σ exp (f c − m). The maximum is a real because it lies between one entry and +∞ exclusive. -/
theorem finiteRow_real (x : Cls → EReal) (hx : FiniteRow x) :
    ∃ (f : Cls → ℝ) (m : ℝ), (∀ c, x c = (f c : EReal)) ∧ rowMax x = (m : EReal) ∧
      rowSumExp x = ((∑ c : Cls, Real.exp (f c - m) : ℝ) : EReal) := by
  choose f hf using hx
  have hbot : rowMax x ≠ ⊥ := by
    have h : x ⟨0, by norm_num⟩ ≤ rowMax x :=
      (Finset.le_fold_max _).mpr (Or.inr ⟨_, Finset.mem_univ _, le_rfl⟩)
    intro hb
    rw [hb, hf] at h
    exact absurd h (not_le.mpr (EReal.bot_lt_coe _))
  have htop : rowMax x ≠ ⊤ := by
    have h : rowMax x < ⊤ :=
      (Finset.fold_max_lt _).mpr ⟨bot_lt_top, fun c _ => by rw [hf]; exact EReal.coe_lt_top _⟩
    exact ne_of_lt h
  refine ⟨f, (rowMax x).toReal, hf, (EReal.coe_toReal htop hbot).symm, ?_⟩
  have hm : rowMax x = ((rowMax x).toReal : EReal) := (EReal.coe_toReal htop hbot).symm
  unfold rowSumExp
  rw [ereal_coe_finsum]
  refine Finset.sum_congr rfl fun c _ => ?_
  rw [hm, hf c, ← EReal.coe_sub, Ideal.exp_coe, EReal.toReal_coe]

/-- The selecting sum has one non-zero term, the one at the class whose number is the word. -/
theorem pick_eq_of_lt (x : Cls → EReal) (t : BitVec 32) (ht : t.toNat < 512) : pick x t = x ⟨t.toNat, ht⟩ := by
  unfold pick
  rw [Finset.sum_eq_single (⟨t.toNat, ht⟩ : Cls)]
  · rw [if_pos]
    apply BitVec.eq_of_toNat_eq
    rw [BitVec.toNat_ofNat]
    exact Nat.mod_eq_of_lt t.isLt
  · intro c _ hc
    rw [if_neg]
    intro h
    apply hc
    apply Fin.ext
    have h2 := congrArg BitVec.toNat h
    rw [BitVec.toNat_ofNat] at h2
    have hc512 := c.isLt
    show c.val = t.toNat
    omega
  · intro h; exact absurd (Finset.mem_univ _) h

/-- The sum of exponentials of a row of reals is positive. -/
theorem sumExp_pos (f : Cls → ℝ) (m : ℝ) : 0 < ∑ c : Cls, Real.exp (f c - m) :=
  Finset.sum_pos (fun c _ => Real.exp_pos _) ⟨⟨0, by norm_num⟩, Finset.mem_univ _⟩

/-- On a finite row and a class word in range the kernel's grouping of log p_t is the reference's. -/
theorem logptK_eq_logptR (x : Cls → EReal) (hx : FiniteRow x) (t : BitVec 32) (ht : t.toNat < 512) :
    logptK x t = logptR x ⟨t.toNat % 512, Nat.mod_lt _ (by norm_num)⟩ := by
  obtain ⟨f, m, hf, hm, hs⟩ := finiteRow_real x hx
  have hpos := sumExp_pos f m
  have hidx : (⟨t.toNat % 512, Nat.mod_lt _ (by norm_num)⟩ : Cls) = ⟨t.toNat, ht⟩ :=
    Fin.ext (Nat.mod_eq_of_lt ht)
  unfold logptK logptR
  rw [hidx, pick_eq_of_lt x t ht, hm, hs, hf, Ideal.log_coe, if_neg (not_le.mpr hpos),
    ← EReal.coe_add, ← EReal.coe_sub, ← EReal.coe_sub, ← EReal.coe_sub]
  congr 1
  ring

/-- On a finite row log p_t is a real number that is not positive (the target's exponential is one term of the sum). -/
theorem logptR_nonpos (x : Cls → EReal) (hx : FiniteRow x) (t : Cls) : ∃ r : ℝ, r ≤ 0 ∧ logptR x t = (r : EReal) := by
  obtain ⟨f, m, hf, hm, hs⟩ := finiteRow_real x hx
  have hpos := sumExp_pos f m
  refine ⟨(f t - m) - Real.log (∑ c : Cls, Real.exp (f c - m)), ?_, ?_⟩
  · have hle : Real.exp (f t - m) ≤ ∑ c : Cls, Real.exp (f c - m) :=
      Finset.single_le_sum (f := fun c => Real.exp (f c - m)) (fun c _ => (Real.exp_pos _).le) (Finset.mem_univ t)
    have h2 : f t - m ≤ Real.log (∑ c : Cls, Real.exp (f c - m)) := by
      have := Real.log_le_log (Real.exp_pos _) hle
      rwa [Real.log_exp] at this
    linarith
  · unfold logptR
    rw [hm, hs, hf, Ideal.log_coe, if_neg (not_le.mpr hpos), ← EReal.coe_sub, ← EReal.coe_sub]

/-- The bin scale is the real 10485655 / 2^20 (sign 0, exponent 130, significand 2^23 + 2097047). -/
theorem kScale_eq_real : kScale = ((10485655 / 1048576 : ℝ) : EReal) := by
  simp [kScale, Ideal.ofBits, Ideal.ieee, -EReal.coe_mul]; norm_num

/-- For a real L ≤ 0: exp L ∈ (0, 1], so g ∈ [0, 1), g · 9.99989986 ∈ [0, 10), and the bin word is one of 0 … 9. -/
theorem binRaw_lt_ten (L : EReal) (r : ℝ) (hL : L = (r : EReal)) (hr : r ≤ 0) : (binRaw L).toNat < 10 := by
  subst hL
  have he0 : 0 < Real.exp r := Real.exp_pos r
  have he1 : Real.exp r ≤ 1 := Real.exp_le_one_iff.mpr hr
  have hg : gOf (r : EReal) = ((1 - Real.exp r : ℝ) : EReal) := by
    unfold gOf
    rw [Ideal.exp_coe, ← EReal.coe_one, ← EReal.coe_sub, ← EReal.coe_neg,
      max_eq_right (EReal.coe_le_coe_iff.mpr (by linarith))]
    congr 1
    ring
  have hprod : gOf (r : EReal) * kScale = (((1 - Real.exp r) * (10485655 / 1048576) : ℝ) : EReal) := by
    rw [hg, kScale_eq_real, ← EReal.coe_mul]
  have hy0 : (0 : ℝ) ≤ (1 - Real.exp r) * (10485655 / 1048576) := by
    apply mul_nonneg <;> [linarith; norm_num]
  have hy10 : (1 - Real.exp r) * (10485655 / 1048576) < 10 := by nlinarith
  have hn0 : 0 ≤ ⌊(1 - Real.exp r) * (10485655 / 1048576)⌋ := Int.floor_nonneg.mpr hy0
  have hn9 : ⌊(1 - Real.exp r) * (10485655 / 1048576)⌋ < 10 := Int.floor_lt.mpr (by exact_mod_cast hy10)
  have hb : binRaw (r : EReal) = BitVec.ofInt 32 ⌊(1 - Real.exp r) * (10485655 / 1048576)⌋ := by
    unfold binRaw
    rw [hprod, Ideal.liftRound_coe]
    unfold Ideal.fptosi
    rw [Ideal.toIntClamped_coe, if_pos (by exact_mod_cast hn0), Int.floor_intCast]
    congr 1
    norm_num
    omega
  rw [hb, BitVec.toNat_ofInt]
  omega

/-- A bin word in range is its own clamp. -/
theorem clipB_of_lt (b : BitVec 32) (h : b.toNat < 10) : clipB b = b := by
  have hi : b.toInt = (b.toNat : ℤ) := BitVec.toInt_eq_toNat_of_lt (by omega)
  have h0 : (0#32 : BitVec 32).toInt = 0 := by decide
  have h9 : (9#32 : BitVec 32).toInt = 9 := by decide
  have hmax : IntOp.maxsi 0#32 b = b := by
    unfold IntOp.maxsi
    rw [if_neg]
    rw [BitVec.slt_iff_toInt_lt, hi, h0]; omega
  have hmin : IntOp.minsi 9#32 b = b := by
    unfold IntOp.minsi
    rw [if_neg]
    rw [BitVec.slt_iff_toInt_lt, hi, h9]; omega
  rw [clipB, hmax, hmin]

/-- A class word in range is its own clamp, and its unsigned value is below 512. -/
theorem clipT_of_range (t : BitVec 32) (h0 : 0 ≤ t.toInt) (h1 : t.toInt < 512) : clipT t = t ∧ t.toNat < 512 := by
  have hlt := t.isLt
  have hc := BitVec.toInt_eq_toNat_cond t
  have hn : t.toNat < 512 := by
    split_ifs at hc <;> omega
  have hz : (0#32 : BitVec 32).toInt = 0 := by decide
  have h511 : (511#32 : BitVec 32).toInt = 511 := by decide
  have hmax : IntOp.maxsi 0#32 t = t := by
    unfold IntOp.maxsi
    rw [if_neg]
    rw [BitVec.slt_iff_toInt_lt, hz]; omega
  have hmin : IntOp.minsi 511#32 t = t := by
    unfold IntOp.minsi
    rw [if_neg]
    rw [BitVec.slt_iff_toInt_lt, h511]; omega
  exact ⟨by rw [clipT, hmax, hmin], hn⟩

/-- The kernel's 0 − L is the reference's −L on every extended real. -/
theorem zero_sub_eq_neg (L : EReal) : (0 : EReal) - L = -L := by
  rw [sub_eq_add_neg, zero_add]

end Ghmc

end
-- ==== Proof.RefRows.lean ====
/- The reference, one sample at a time: with the class word in range, log p_t, the loss and the bin word of sample i
   are the specification's functions of row i. -/
import proofs.«416635_j57157424775631_3_alg».proof.Proof.Analysis
import proofs.«416635_j57157424775631_3_alg».proof.Proof.RefRead
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.ReferenceIdeal.GhmcRows

open Cert.ReferenceIdeal Cert.ReferenceIdeal.Gen Cert.ReferenceIdeal.ReadP

/-- The argument arrays by sample. -/
def Xr (X : (⟨S262144x512, .f32⟩ : BufTy).Contents (Elt Ideal)) : Ghmc.Rows → Ghmc.Cls → EReal := fun i cl => X (ix2 i cl)
def Tr (T : (⟨S262144, .i32⟩ : BufTy).Contents (Elt Ideal)) : Ghmc.Rows → BitVec 32 := fun i => T (ix1 i)

variable (X : (⟨S262144x512, .f32⟩ : BufTy).Contents (Elt Ideal)) (T : (⟨S262144, .i32⟩ : BufTy).Contents (Elt Ideal))

/-- The word of minus infinity denotes the bottom of the extended reals. -/
theorem negInf_eq : Ideal.ofBits .f32 0xFF800000#32 = (⊥ : EReal) := by
  simp [Ideal.ofBits, Ideal.ieee]

/-- Over row i, the source index with class k on the reduced axis is (i, k). -/
theorem lift_row (h : S262144x512.Reduces [1] S262144) (i : Ghmc.Rows) (k : Fin (S262144x512.size 1)) :
    h.lift (ix1 i) k = ix2 i (⟨k.val, k.isLt⟩ : Fin 512) := by
  funext c; apply Fin.ext
  match c with
  | ⟨0, _⟩ => rfl
  | ⟨1, _⟩ => rfl

/-- The row maximum of sample i. -/
theorem rowmax_apply (i : Ghmc.Rows) :
    val_main_call0_v0 (F := Ideal) X (ix1 i) = Ghmc.rowMax (Xr X i) := by
  unfold val_main_call0_v0
  have h : S262144x512.Reduces [1] S262144 := by decide
  refine (Host.reduce_eq_fold_single (FloatOps.maximumf (F := Ideal) (φ := .f32)) X (val_main_call0_cst (F := Ideal)) reducesTo_S262144x512_S262144_d1 h h_S_ (ix1 i)).trans ?_
  have hf : (X ∘ h.lift (ix1 i)) = Xr X i := funext fun k => congrArg X (lift_row h i k)
  rw [hf, val_main_call0_cst_apply, Ideal.ofBits_def, negInf_eq]
  rfl

/-- The shifted logit x − max x at (i, cl). -/
theorem shifted_apply (i : Ghmc.Rows) (cl : Ghmc.Cls) :
    val_main_call0_v5 (F := Ideal) X (ix2 i cl) = Xr X i cl - Ghmc.rowMax (Xr X i) := by
  have e4 : idx_main_call0_v4 (ix2 i cl) = ix2 i (0 : Fin 1) :=
    funext fun a => Fin.ext (by match a with | ⟨0, _⟩ => rfl | ⟨1, _⟩ => rfl)
  have e3 : idx_main_call0_v3 (ix2 i (0 : Fin 1)) = ix1 i :=
    funext fun a => Fin.ext (by match a with | ⟨0, _⟩ => rfl)
  rw [val_main_call0_v5_apply, val_main_call0_v4_apply, e4, val_main_call0_v3_apply, e3, val_main_call0_v2_apply,
    val_main_call0_v1_apply, val_main_call0_cst_0_apply, rowmax_apply]
  simp only [Ideal.subf_def, Ideal.maximumf_def, Ideal.ofBits_def, negInf_eq]
  rw [max_eq_right bot_le]
  rfl

/-- The sum of exponentials of row i. -/
theorem sumexp_apply (i : Ghmc.Rows) :
    val_main_call0_v7 (F := Ideal) X (ix1 i) = Ghmc.rowSumExp (Xr X i) := by
  rw [val_main_call0_v7_apply, val_main_call0_cst_1_apply, Ideal.ofBits_def, Ideal.ofBits_zero_f32, zero_add]
  unfold Ghmc.rowSumExp
  refine Finset.sum_congr rfl fun k _ => ?_
  have e : idx_main_call0_v7 (ix1 i) k = ix2 i k :=
    funext fun a => Fin.ext (by match a with | ⟨0, _⟩ => rfl | ⟨1, _⟩ => rfl)
  rw [e, val_main_call0_v6_apply, shifted_apply, Ideal.hostUnary_exp_def]

/-- log-softmax at (i, cl). -/
theorem logp_apply (i : Ghmc.Rows) (cl : Ghmc.Cls) :
    val_main_v0 (F := Ideal) X (ix2 i cl) = Ghmc.logptR (Xr X i) cl := by
  have e10 : idx_main_call0_v10 (ix2 i cl) = ix2 i (0 : Fin 1) :=
    funext fun a => Fin.ext (by match a with | ⟨0, _⟩ => rfl | ⟨1, _⟩ => rfl)
  have e8 : idx_main_call0_v8 (ix2 i (0 : Fin 1)) = ix1 i :=
    funext fun a => Fin.ext (by match a with | ⟨0, _⟩ => rfl)
  rw [val_main_v0_apply, shifted_apply, val_main_call0_v10_apply, e10, val_main_call0_v9_apply, val_main_call0_v8_apply, e8,
    sumexp_apply]
  rfl

/-! ## The class word: in range, the wrap is the identity and the range test passes -/

theorem slt_zero_of_nonneg (t : BitVec 32) (h : 0 ≤ t.toInt) : IntOp.cmpi .slt t 0#32 = 0#1 := by
  show BitVec.ofBool (t.slt 0#32) = 0#1
  have e : t.slt 0#32 = false := by
    unfold BitVec.slt
    rw [decide_eq_false_iff_not]
    show ¬ t.toInt < 0
    omega
  rw [e]; rfl

theorem sge_zero_of_nonneg (t : BitVec 32) (h : 0 ≤ t.toInt) : IntOp.cmpi .sge t 0#32 = 1#1 := by
  show BitVec.ofBool ((0#32).sle t) = 1#1
  have e : (0#32).sle t = true := by
    unfold BitVec.sle
    rw [decide_eq_true_iff]
    show (0 : Int) ≤ t.toInt
    exact h
  rw [e]; rfl

theorem sle_511_of_lt (t : BitVec 32) (h : t.toInt < 512) : IntOp.cmpi .sle t 511#32 = 1#1 := by
  show BitVec.ofBool (t.sle 511#32) = 1#1
  have e : t.sle 511#32 = true := by
    unfold BitVec.sle
    rw [decide_eq_true_iff]
    show t.toInt ≤ 511
    omega
  rw [e]; rfl

/-- A word in [0, 512), read signed and clamped into [0, 511], is its own number. -/
theorem clamp_eq (t : BitVec 32) (h0 : 0 ≤ t.toInt) (h1 : t.toInt < 512) : min t.toInt.toNat 511 = t.toNat % 512 := by
  have hc := BitVec.toInt_eq_toNat_cond t
  have hl := t.isLt
  split at hc <;> omega

/-- The start index of sample i is its class word. -/
theorem idx_apply (hT : ∀ i : Ghmc.Rows, 0 ≤ (Tr T i).toInt ∧ (Tr T i).toInt < 512) (i : Ghmc.Rows) :
    val_main_call1_v5 (F := Ideal) T (ix3 i (0 : Fin 1) (0 : Fin 1)) = Tr T i := by
  have e5 : idx_main_call1_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  have e1 : idx_main_v1 (ix2 i (0 : Fin 1)) = ix1 i :=
    funext fun a => Fin.ext (by match a with | ⟨0, _⟩ => rfl)
  rw [val_main_call1_v5_apply, e5, val_main_call1_v4_apply, val_main_call1_v1_apply, val_main_v1_apply, e1,
    val_main_call1_v0_apply, val_main_call1_c_apply]
  show Scalar.select (IntOp.cmpi .slt (Tr T i) 0#32) _ (Tr T i) = Tr T i
  rw [slt_zero_of_nonneg _ (hT i).1, select_zero]

/-- Over (i, 0), the source index with coordinate k on the reduced unit axis is (i, 0, 0). -/
theorem lift_unit (h : S262144x1x1.Reduces [2] S262144x1) (i : Ghmc.Rows) (k : Fin (S262144x1x1.size 2)) :
    h.lift (ix2 i (0 : Fin 1)) k = ix3 i (0 : Fin 1) (0 : Fin 1) := by
  funext c; apply Fin.ext
  match c with
  | ⟨0, _⟩ => rfl
  | ⟨1, _⟩ => rfl
  | ⟨2, _⟩ => show k.val = 0; have := k.isLt; show k.val = 0; exact Nat.lt_one_iff.mp this

/-- The range test of sample i passes. -/
theorem test_apply (hT : ∀ i : Ghmc.Rows, 0 ≤ (Tr T i).toInt ∧ (Tr T i).toInt < 512) (i : Ghmc.Rows) :
    val_main_call1_v12 (F := Ideal) T (ix2 i (0 : Fin 1)) = 1#1 := by
  unfold val_main_call1_v12
  have h : S262144x1x1.Reduces [2] S262144x1 := by decide
  refine (Host.reduce_eq_fold_single (IntOp.andi (w := 1)) (val_main_call1_v11 (F := Ideal) T) (val_main_call1_c_3 (F := Ideal))
    reducesTo_S262144x1x1_S262144x1_d2 h h_S_ (ix2 i (0 : Fin 1))).trans ?_
  have hf : (val_main_call1_v11 (F := Ideal) T ∘ h.lift (ix2 i (0 : Fin 1))) = fun _ => 1#1 := by
    funext k
    show val_main_call1_v11 (F := Ideal) T (h.lift (ix2 i (0 : Fin 1)) k) = 1#1
    have e9 : idx_main_call1_v9 (ix3 i (0 : Fin 1) (0 : Fin 1)) = ix3 (0 : Fin 1) (0 : Fin 1) (0 : Fin 1) :=
      funext fun a => Fin.ext (by match a with | ⟨0, _⟩ => rfl | ⟨1, _⟩ => rfl | ⟨2, _⟩ => rfl)
    rw [lift_unit h i k, val_main_call1_v11_apply, val_main_call1_v7_apply, val_main_call1_v10_apply, idx_apply T hT i,
      val_main_call1_v6_apply, val_main_call1_c_2_apply, val_main_call1_v9_apply, val_main_call1_v8_apply, val_main_call1_c_1_apply,
      sge_zero_of_nonneg _ (hT i).1, sle_511_of_lt _ (hT i).2]
    rfl
  rw [hf, val_main_call1_c_3_apply]
  show Finset.fold IntOp.andi 1#1 (fun _ => 1#1) (Finset.univ : Finset (Fin 1)) = 1#1
  rw [Finset.univ_unique, Finset.fold_singleton]
  rfl

/-! ## The gather of take_along_axis, read at (i, 0)

Operand axis 0 is a batching axis (it reads the result's row), operand axis 1 is collapsed and indexed: its coordinate is
the start index at (i, 0, 0), read signed and clamped so that the one-element slice fits. -/

abbrev gD : GatherDims S262144x512 S262144x1x1 S262144x1 := gather_S262144x512_S262144x1x1_S262144x1_n_1_0_0_1_2_11

theorem gather_axis0 (idx : IVec S262144x1x1 32) (i : Ghmc.Rows) :
    (gD.operandIdx (ix2 i (0 : Fin 1)) idx 0).val = i.val := by
  show gD.start (ix2 i (0 : Fin 1)) idx 0 + gD.batchCoord (ix2 i (0 : Fin 1)) 0 + gD.offCoord (ix2 i (0 : Fin 1)) 0 = i.val
  rw [GatherDims.start_batching gD _ idx 0 (List.mem_singleton.mpr rfl),
    GatherDims.offCoord_eq_zero gD _ 0 (fun h => ((GatherDims.mem_sKept gD 0).mp h).2 (List.mem_singleton.mpr rfl))]
  simp only [Nat.zero_add, Nat.add_zero]
  unfold GatherDims.batchCoord
  rw [dif_pos (show (0 : Fin 2) ∈ gD.operandBatchingDims from List.mem_singleton.mpr rfl)]
  rfl

theorem gather_axis1 (idx : IVec S262144x1x1 32) (i : Ghmc.Rows) :
    (gD.operandIdx (ix2 i (0 : Fin 1)) idx 1).val = min (idx (ix3 i (0 : Fin 1) (0 : Fin 1))).toInt.toNat 511 := by
  show gD.start (ix2 i (0 : Fin 1)) idx 1 + gD.batchCoord (ix2 i (0 : Fin 1)) 1 + gD.offCoord (ix2 i (0 : Fin 1)) 1 = _
  rw [GatherDims.batchCoord_eq_zero gD _ 1 (by decide),
    GatherDims.offCoord_eq_zero gD _ 1 (fun h => ((GatherDims.mem_sKept gD 1).mp h).1 (List.mem_singleton.mpr rfl))]
  simp only [Nat.add_zero]
  unfold GatherDims.start
  rw [dif_pos (show (1 : Fin 2) ∈ gD.startIndexMap from List.mem_singleton.mpr rfl)]
  have hsi : gD.siIdx (ix2 i (0 : Fin 1)) ⟨List.idxOf (1 : Fin 2) gD.startIndexMap,
      List.idxOf_lt_length_iff.2 (List.mem_singleton.mpr rfl)⟩ = ix3 i (0 : Fin 1) (0 : Fin 1) := by
    funext b; refine Fin.ext ?_
    match b with
    | ⟨0, _⟩ => rfl
    | ⟨1, _⟩ => rfl
    | ⟨2, _⟩ => rfl
  rw [hsi]
  rfl

/-- The gathered element of sample i is the operand at (i, c), c the clamped start index. -/
theorem gather_apply (x : (⟨S262144x512, .f32⟩ : BufTy).Contents (Elt Ideal)) (idx : IVec S262144x1x1 32)
    (i : Ghmc.Rows) (c : Ghmc.Cls) (hc : c.val = min (idx (ix3 i (0 : Fin 1) (0 : Fin 1))).toInt.toNat 511) :
    Host.gather gather_S262144x512_S262144x1x1_S262144x1_n_1_0_0_1_2_11 x idx (ix2 i (0 : Fin 1)) = x (ix2 i c) := by
  unfold Host.gather
  refine congrArg x (funext fun a => Fin.ext ?_)
  match a with
  | ⟨0, _⟩ => exact gather_axis0 idx i
  | ⟨1, _⟩ => exact (gather_axis1 idx i).trans hc.symm

/-! ## The three reads -/

/-- The gathered element of sample i: the log-softmax of row i at its class. -/
theorem gathered_apply (hT : ∀ i : Ghmc.Rows, 0 ≤ (Tr T i).toInt ∧ (Tr T i).toInt < 512) (i : Ghmc.Rows) :
    val_main_call1_v13 (F := Ideal) X T (ix2 i (0 : Fin 1)) = Ghmc.rowLR (Xr X) (Tr T) i := by
  unfold val_main_call1_v13
  have hc : ((⟨(Tr T i).toNat % 512, Nat.mod_lt _ (by norm_num)⟩ : Ghmc.Cls)).val
      = min (val_main_call1_v5 (F := Ideal) T (ix3 i (0 : Fin 1) (0 : Fin 1))).toInt.toNat 511 := by
    rw [idx_apply T hT i]; exact (clamp_eq _ (hT i).1 (hT i).2).symm
  rw [gather_apply (val_main_v0 (F := Ideal) X) (val_main_call1_v5 (F := Ideal) T) i _ hc, logp_apply]
  rfl

/-- The word of 1.0 denotes 1. -/
theorem oneWord_eq : Ideal.ofBits .f32 0x3F800000#32 = (1 : EReal) := by
  simp [Ideal.ofBits, Ideal.ieee, -EReal.coe_mul]; norm_num

/-- log p_t of sample i (the gather behind take_along_axis reads class T_i of row i; the range test passes). -/
theorem v3_apply (hT : ∀ i : Ghmc.Rows, 0 ≤ (Tr T i).toInt ∧ (Tr T i).toInt < 512) (i : Ghmc.Rows) :
    val_main_v3 (F := Ideal) X T (ix1 i) = Ghmc.rowLR (Xr X) (Tr T) i := by
  have e3 : idx_main_v3 (ix1 i) = ix2 i (0 : Fin 1) :=
    funext fun a => Fin.ext (by
      match a with
      | ⟨0, _⟩ => exact Nat.div_one _
      | ⟨1, _⟩ => rfl)
  rw [val_main_v3_apply, e3, val_main_v2_apply, test_apply T hT i, select_one, gathered_apply X T hT i]

/-- The loss of sample i. -/
theorem v4_apply (hT : ∀ i : Ghmc.Rows, 0 ≤ (Tr T i).toInt ∧ (Tr T i).toInt < 512) (i : Ghmc.Rows) :
    val_main_v4 (F := Ideal) X T (ix1 i) = Ghmc.rowCeR (Xr X) (Tr T) i := by
  rw [val_main_v4_apply, v3_apply X T hT i]
  rfl

/-- The bin word of sample i. -/
theorem v12_apply (hT : ∀ i : Ghmc.Rows, 0 ≤ (Tr T i).toInt ∧ (Tr T i).toInt < 512) (i : Ghmc.Rows) :
    val_main_v12 (F := Ideal) X T (ix1 i) = Ghmc.rowBinR (Xr X) (Tr T) i := by
  rw [val_main_v12_apply, val_main_v11_apply, val_main_v10_apply, val_main_v9_apply, val_main_cst_0_apply, val_main_v8_apply,
    val_main_v7_apply, val_main_v6_apply, val_main_cst_apply, val_main_v5_apply, v3_apply X T hT i]
  simp only [Ideal.hostUnary_floor_def, Ideal.mulf_def, Ideal.hostAbsf_def, Ideal.absf_def, Ideal.subf_def,
    Ideal.hostUnary_exp_def, Ideal.ofBits_def, oneWord_eq]
  rfl

end Cert.ReferenceIdeal.GhmcRows

end
-- ==== Proof.RefTail.lean ====
/- The reference after the per-sample part: the histogram by scatter-add, the reweighting, the gather of each sample's
   weight, the mean. With every bin word in [0, 10) the scatter drops nothing and the gather clamps nothing. -/
import proofs.«416635_j57157424775631_3_alg».proof.Proof.RefRows

noncomputable section

open Idealize.ShloMosaic Idealize.ShloMosaic.TcCoe Idealize.ShloMosaic.ValueIdx Idealize.SL.Sem
open Idealize.ShloMosaic.Pipeline (Dat)

namespace Cert.ReferenceIdeal.GhmcTail

open Cert.ReferenceIdeal Cert.ReferenceIdeal.Gen Cert.ReferenceIdeal.ReadP Cert.ReferenceIdeal.GhmcRows

variable (X : (⟨S262144x512, .f32⟩ : BufTy).Contents (Elt Ideal)) (T : (⟨S262144, .i32⟩ : BufTy).Contents (Elt Ideal))

/-! ## The index words: a bin word in [0, 10) is not wrapped -/

/-- A word below ten is not signed-negative: the wrap of a negative index leaves it alone. -/
theorem wrap_of_lt (b : BitVec 32) (h : b.toNat < 10) :
    Scalar.select (IntOp.cmpi .slt b 0#32) (IntOp.addi b 10#32) b = b := by
  have hz : IntOp.cmpi .slt b 0#32 = 0#1 := by
    refine eq_zero_of_ne_one fun h1 => ?_
    rw [IntOp.cmpi_slt, BitVec.toInt_eq_toNat_of_lt (by omega)] at h1
    simp at h1
    omega
  rw [hz, select_zero]

/-- The word of 1.0 is the real 1. -/
theorem ofBits_one : Ideal.ofBits .f32 0x3F800000#32 = 1 := by
  simp [Ideal.ofBits, Ideal.ieee, -EReal.coe_mul]; norm_num

/-- The scatter's wrapped index word of sample i is its bin word when that is below ten. -/
theorem v18_apply (i : Ghmc.Rows) (h : (val_main_v12 (F := Ideal) X T (ix1 i)).toNat < 10) :
    val_main_v18 (F := Ideal) X T (ix1 i) = val_main_v12 (F := Ideal) X T (ix1 i) := by
  rw [val_main_v18_apply, val_main_v15_apply, val_main_v17_apply, val_main_v14_apply, val_main_v16_apply,
    val_main_c_apply, val_main_c_2_apply]
  exact wrap_of_lt _ h

/-- The gather's wrapped index word of sample i is its bin word when that is below ten. -/
theorem v37_apply (i : Ghmc.Rows) (h : (val_main_v12 (F := Ideal) X T (ix1 i)).toNat < 10) :
    val_main_v37 (F := Ideal) X T (ix1 i) = val_main_v12 (F := Ideal) X T (ix1 i) := by
  rw [val_main_v37_apply, val_main_v34_apply, val_main_v36_apply, val_main_v33_apply, val_main_v35_apply,
    val_main_c_8_apply, val_main_c_9_apply]
  exact wrap_of_lt _ h

/-! ## The scatter: which bin an update lands on -/

local notation "dS" => scatter_S10_S262144x1_S262144_n_0_0_1

/-- The scatter's start plus window coordinate on the operand's one axis is the index word of the update, read signed. -/
theorem scatter_coord (idx : IVec S262144x1 32) (i : Fin 262144) (a : Fin S10.rank) :
    ScatterDims.start dS (ix1 i) idx a + ScatterDims.window dS (ix1 i) a = (idx (ix2 i (0 : Fin 1))).toInt := by
  obtain rfl : a = 0 := Subsingleton.elim _ _
  unfold ScatterDims.start ScatterDims.window
  rw [dif_pos (show (0 : Fin 1) ∈ ScatterDims.scatterDimsToOperandDims dS from List.mem_singleton.mpr rfl)]
  rw [dif_neg (show ¬ (0 : Fin 1) ∈ ScatterDims.sKept dS by decide)]
  have hsi : ScatterDims.siIdx dS (ix1 i) ⟨List.idxOf (0 : Fin 1) (ScatterDims.scatterDimsToOperandDims dS),
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  simp

/-- With the index word in [0, 10), update i lands on bin k exactly when its word is k. -/
theorem scatter_lands_iff (idx : IVec S262144x1 32) (i : Fin 262144) (k : Fin 10)
    (h : (idx (ix2 i (0 : Fin 1))).toNat < 10) :
    ScatterDims.resultIdx? dS (ix1 i) idx = some (ix1 k) ↔ idx (ix2 i (0 : Fin 1)) = BitVec.ofNat 32 k.val := by
  have hs := scatter_coord idx i
  have hi : (idx (ix2 i (0 : Fin 1))).toInt = ((idx (ix2 i (0 : Fin 1))).toNat : Int) :=
    BitVec.toInt_eq_toNat_of_lt (by omega)
  have hk : k.val < 10 := k.isLt
  unfold ScatterDims.resultIdx?
  rw [dif_pos (fun a => by
    obtain rfl : a = 0 := Subsingleton.elim _ _
    rw [hs 0, hi]
    exact ⟨by omega, by show _ < ((10 : Nat) : Int); omega⟩)]
  rw [Option.some.injEq]
  constructor
  · intro e
    have e0 := congrArg (fun f => (f 0).val) e
    simp only [hs 0, hi, Int.toNat_natCast] at e0
    apply BitVec.eq_of_toNat_eq
    rw [BitVec.toNat_ofNat]
    change _ = k.val at e0
    omega
  · intro e
    funext a
    obtain rfl : a = 0 := Subsingleton.elim _ _
    refine Fin.ext ?_
    show (ScatterDims.start dS (ix1 i) idx 0 + ScatterDims.window dS (ix1 i) 0).toNat = k.val
    rw [hs 0, hi, e, BitVec.toNat_ofNat, Int.toNat_natCast]
    omega

/-! ## The histogram -/

local notation "dG" => gather_S10_S262144x1_S262144_n_0_n_n_0_1_1

/-- A sum over the flat arrays' index type is the sum over the samples. -/
theorem sum_rows {M : Type} [AddCommMonoid M] (f : S262144.Idx → M) :
    ∑ j : S262144.Idx, f j = ∑ i : Fin 262144, f (ix1 i) := by
  let e : Fin 262144 ≃ S262144.Idx :=
    { toFun := ix1, invFun := fun j => j 0, left_inv := fun _ => rfl, right_inv := fun j => (eq_ix1 j).symm }
  exact (Fintype.sum_equiv e (fun i => f (ix1 i)) f (fun _ => rfl)).symm

/-- The broadcast [N] to [N, 1] reads row i of the column at sample i. -/
theorem idx19 (i : Fin 262144) : idx_main_v19 (ix2 i (0 : Fin 1)) = ix1 i := by
  funext a; match a with | ⟨0, _⟩ => rfl
theorem idx38 (i : Fin 262144) : idx_main_v38 (ix2 i (0 : Fin 1)) = ix1 i := by
  funext a; match a with | ⟨0, _⟩ => rfl

section
variable (hT : ∀ i : Ghmc.Rows, 0 ≤ (Tr T i).toInt ∧ (Tr T i).toInt < 512)
  (hB : ∀ i : Ghmc.Rows, (Ghmc.rowBinR (Xr X) (Tr T) i).toNat < 10)
include hT hB

/-- The scatter's index words are the bin words. -/
theorem v19_at (i : Ghmc.Rows) : val_main_v19 (F := Ideal) X T (ix2 i (0 : Fin 1)) = Ghmc.rowBinR (Xr X) (Tr T) i := by
  rw [val_main_v19_apply, idx19, v18_apply X T i (by rw [v12_apply X T hT]; exact hB i), v12_apply X T hT]

/-- The gather's index words are the bin words. -/
theorem v38_at (i : Ghmc.Rows) : val_main_v38 (F := Ideal) X T (ix2 i (0 : Fin 1)) = Ghmc.rowBinR (Xr X) (Tr T) i := by
  rw [val_main_v38_apply, idx38, v37_apply X T i (by rw [v12_apply X T hT]; exact hB i), v12_apply X T hT]

/-- Sample i's update, a one, lands on bin k exactly when its bin word is k. -/
theorem scatter_term (i : Ghmc.Rows) (k : Fin 10)
    [inst : Decidable (ScatterDims.resultIdx? dS (ix1 i) (val_main_v19 (F := Ideal) X T) = some (ix1 k))] :
    (if ScatterDims.resultIdx? dS (ix1 i) (val_main_v19 (F := Ideal) X T) = some (ix1 k)
      then val_main_v20 (F := Ideal) (ix1 i) else 0) = Ghmc.oneHot (Ghmc.rowBinR (Xr X) (Tr T) i) k.val := by
  rw [val_main_v20_apply, val_main_cst_3_apply, Ideal.ofBits_def, ofBits_one]
  unfold Ghmc.oneHot
  refine if_congr ?_ rfl rfl
  rw [scatter_lands_iff _ i k (by rw [v19_at X T hT hB]; exact hB i), v19_at X T hT hB]

end

section
variable (hT : ∀ i : Ghmc.Rows, 0 ≤ (Tr T i).toInt ∧ (Tr T i).toInt < 512)
  (hB : ∀ i : Ghmc.Rows, (Ghmc.rowBinR (Xr X) (Tr T) i).toNat < 10)
include hT hB

/-- The scatter-add of ones into ten zeros is the histogram of the bin words. -/
theorem v21_eq : val_main_v21 (F := Ideal) X T = Ghmc.histR (Ghmc.rowBinR (Xr X) (Tr T)) := by
  funext k
  obtain ⟨k, rfl⟩ : ∃ k' : Fin 10, k = ix1 k' := ⟨k 0, eq_ix1 k⟩
  unfold val_main_v21 Ghmc.histR
  rw [Host.scatterAdd, Ideal.hostScatterAdd_def, Ideal.hostScatterAdd]
  rw [val_main_v13_apply, val_main_cst_1_apply, Ideal.ofBits_def, Ideal.ofBits_zero_f32, Finset.sum_filter, sum_rows]
  refine congrArg (fun s : EReal => 0 + s) ?_
  refine Finset.sum_congr rfl fun i _ => ?_
  exact @scatter_term X T hT hB i k _

end

/-- The reweighting is the specification's chain applied to the histogram. -/
theorem v32_eq : val_main_v32 (F := Ideal) X T
    = Ghmc.betaOf bcast_S_S10 reducesTo_S10_S_d0 h_S_ natLt_1_32 (val_main_v21 (F := Ideal) X T) := by
  unfold val_main_v32 val_main_v31 val_main_v30 val_main_v29 val_main_v28 val_main_v27 val_main_v26 val_main_v25
    val_main_v24 val_main_v23 val_main_v22 val_main_cst_7 val_main_cst_6 val_main_cst_4 val_main_c_5 Ghmc.betaOf
  rfl

/-! ## The gather, and the mean -/

/-- The gather reads the operand at the index word of the sample, read signed and clamped into [0, 9]. -/
theorem gather_coord (idx : IVec S262144x1 32) (i : Fin 262144) :
    GatherDims.operandIdx dG (ix1 i) idx
      = ix1 (⟨min (idx (ix2 i (0 : Fin 1))).toInt.toNat 9, by omega⟩ : Fin 10) := by
  have hb : GatherDims.batchCoord dG (ix1 i) 0 = 0 := GatherDims.batchCoord_eq_zero _ _ _ (by decide)
  have ho : GatherDims.offCoord dG (ix1 i) 0 = 0 := GatherDims.offCoord_eq_zero _ _ _ (by decide)
  have hst : GatherDims.start dG (ix1 i) idx 0 = min (idx (ix2 i (0 : Fin 1))).toInt.toNat 9 := by
    unfold GatherDims.start
    rw [dif_pos (show (0 : Fin 1) ∈ GatherDims.startIndexMap dG by decide)]
    have hsi : GatherDims.siIdx dG (ix1 i) ⟨List.idxOf (0 : Fin 1) (GatherDims.startIndexMap dG),
        List.idxOf_lt_length_iff.2 (by decide)⟩ = ix2 i (0 : Fin 1) := by
      funext b; refine Fin.ext ?_
      match b with
      | ⟨0, _⟩ => rfl
      | ⟨1, _⟩ => rfl
    rw [hsi]
    rfl
  funext a
  obtain rfl : a = 0 := Subsingleton.elim _ _
  refine Fin.ext ?_
  show GatherDims.start dG (ix1 i) idx 0 + GatherDims.batchCoord dG (ix1 i) 0 + GatherDims.offCoord dG (ix1 i) 0 = _
  rw [hst, hb, ho]
  rfl

/-- With the index word in [0, 10) the clamp does nothing: the gather reads the operand at the word. -/
theorem gather_at (idx : IVec S262144x1 32) (i : Fin 262144) (w : BitVec 32) (hw : idx (ix2 i (0 : Fin 1)) = w)
    (hlt : w.toNat < 10) :
    GatherDims.operandIdx dG (ix1 i) idx = ix1 (⟨w.toNat % 10, Nat.mod_lt _ (by norm_num)⟩ : Fin 10) := by
  rw [gather_coord]
  refine congrArg (fun n : Fin 10 => (ix1 n : S10.Idx)) (Fin.ext ?_)
  show min (idx (ix2 i (0 : Fin 1))).toInt.toNat 9 = w.toNat % 10
  rw [hw, BitVec.toInt_eq_toNat_of_lt (by omega), Int.toNat_natCast]
  omega

section
variable (hT : ∀ i : Ghmc.Rows, 0 ≤ (Tr T i).toInt ∧ (Tr T i).toInt < 512)
  (hB : ∀ i : Ghmc.Rows, (Ghmc.rowBinR (Xr X) (Tr T) i).toNat < 10)
include hT hB

/-- Each sample's weight is the reweighting read at its bin: a word in [0, 10) is not clamped. -/
theorem v39_at (i : Ghmc.Rows) : val_main_v39 (F := Ideal) X T (ix1 i)
    = val_main_v32 (F := Ideal) X T
        (ix1 (⟨(Ghmc.rowBinR (Xr X) (Tr T) i).toNat % 10, Nat.mod_lt _ (by norm_num)⟩ : Fin 10)) := by
  unfold val_main_v39 Host.gather
  rw [gather_at (val_main_v38 (F := Ideal) X T) i _ (v38_at X T hT hB i) (hB i)]

end

/-- THE REFERENCE'S VALUE of the argument arrays. -/
theorem result_eq (hT : ∀ i : Ghmc.Rows, 0 ≤ (Tr T i).toInt ∧ (Tr T i).toInt < 512)
    (hB : ∀ i : Ghmc.Rows, (Ghmc.rowBinR (Xr X) (Tr T) i).toNat < 10) :
    val_main_v42 (F := Ideal) X T
      = fun _ => Ghmc.valueR bcast_S_S10 reducesTo_S10_S_d0 h_S_ natLt_1_32 (Xr X) (Tr T) := by
  funext u
  rw [val_main_v42_apply, val_main_v41_apply, val_main_cst_11_apply, val_main_cst_10_apply]
  rw [Ideal.hostDivf_def, Ideal.ofBits_def, Ideal.ofBits_def, Ideal.ofBits_zero_f32, sum_rows]
  unfold Ghmc.valueR Ghmc.nTot
  refine congrArg (fun s : EReal => Ideal.div (0 + s) (Ideal.ofBits .f32 0x48800000#32)) ?_
  refine Finset.sum_congr rfl fun i _ => ?_
  rw [val_main_v40_apply, Ideal.mulf_def, v39_at X T hT hB, v4_apply X T hT, v32_eq, v21_eq X T hT hB]

end Cert.ReferenceIdeal.GhmcTail

end
-- ==== Proof.RefRunStages.lean ====
/- The reference program's run, read over its stages: every weakly fair execution of its straight line of host operations
   ends with the result buffer at the last stage's value of the two argument arrays, and the arguments unchanged. -/
import proofs.«416635_j57157424775631_3_alg».proof.Proof.RefRun
import proofs.«416635_j57157424775631_3_alg».proof.Proof.RefRead
import Idealize.ShloMosaic.Lib.StableHlo.Run
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.ReferenceIdeal.GhmcRun

open Cert.ReferenceIdeal Cert.ReferenceIdeal.Gen Cert.ReferenceIdeal.ValueP Cert.ReferenceIdeal.ReadP Idealize.ShloMosaic.StableHlo

variable {F : FTy → Type} [FloatOps F]

/-- Contents moved to a buffer's own type and back are the contents (an inlined call's operations state their
    functions at the value's type and move them to the buffer's; between two operations the moves cancel). -/
theorem ofBuf_toBuf {T : BufTy} (x : TRef sig T) (v : T.Contents (Elt F)) : x.ofBuf (x.toBuf v) = v := by
  obtain ⟨r, rfl, _, _⟩ := x; rfl

/-! ## The operations in eleven consecutive stages

The cuts fall where few buffers are still to be read: after the row's shifted logits, after the log-probabilities,
after the wrapped class index, after its range test, after the picked log-probability, after the bin word, after the
histogram, after the count of non-empty bins, after the reweighting, after the wrapped bin index. -/

abbrev stageA : List (HloOp τ sig (Elt F)) :=
  [ TRef.nullary (TRef.of (T := ⟨S_, .f32⟩) main_call0_cst) (constant S_ .f32 0xFF800000#32),
    TRef.binary (TRef.of (T := ⟨S262144x512, .f32⟩) main_arg0) (TRef.of (T := ⟨S_, .f32⟩) main_call0_cst) (TRef.of (T := ⟨S262144, .f32⟩) main_call0_v0) (fun x v => Host.reduce FloatOps.maximumf x v reducesTo_S262144x512_S262144_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S262144, .f32⟩) main_call0_v1) (broadcastInDim S262144 ![] bcast_S_S262144),
    TRef.binary (TRef.of (T := ⟨S262144, .f32⟩) main_call0_v1) (TRef.of (T := ⟨S262144, .f32⟩) main_call0_v0) (TRef.of (T := ⟨S262144, .f32⟩) main_call0_v2) maximumf,
    TRef.unary (TRef.of (T := ⟨S262144, .f32⟩) main_call0_v2) (TRef.of (T := ⟨S262144x1, .f32⟩) main_call0_v3) (broadcastInDim S262144x1 ![0] bcast_S262144_S262144x1_0),
    TRef.unary (TRef.of (T := ⟨S262144x1, .f32⟩) main_call0_v3) (TRef.of (T := ⟨S262144x512, .f32⟩) main_call0_v4) (broadcastInDim S262144x512 ![0, 1] bcast_S262144x1_S262144x512_0_1),
    TRef.binary (TRef.of (T := ⟨S262144x512, .f32⟩) main_arg0) (TRef.of (T := ⟨S262144x512, .f32⟩) main_call0_v4) (TRef.of (T := ⟨S262144x512, .f32⟩) main_call0_v5) subf ]

abbrev stageB : List (HloOp τ sig (Elt F)) :=
  [ TRef.unary (TRef.of (T := ⟨S262144x512, .f32⟩) main_call0_v5) (TRef.of (T := ⟨S262144x512, .f32⟩) main_call0_v6) Host.exp,
    TRef.nullary (TRef.of (T := ⟨S_, .f32⟩) main_call0_cst_1) (constant S_ .f32 0x00000000#32),
    TRef.binary (TRef.of (T := ⟨S262144x512, .f32⟩) main_call0_v6) (TRef.of (T := ⟨S_, .f32⟩) main_call0_cst_1) (TRef.of (T := ⟨S262144, .f32⟩) main_call0_v7) (fun x v => Host.reduceAdd x v reducesTo_S262144x512_S262144_d1 h_S_),
    TRef.unary (TRef.of (T := ⟨S262144, .f32⟩) main_call0_v7) (TRef.of (T := ⟨S262144x1, .f32⟩) main_call0_v8) (broadcastInDim S262144x1 ![0] bcast_S262144_S262144x1_0),
    TRef.unary (TRef.of (T := ⟨S262144x1, .f32⟩) main_call0_v8) (TRef.of (T := ⟨S262144x1, .f32⟩) main_call0_v9) Host.log,
    TRef.unary (TRef.of (T := ⟨S262144x1, .f32⟩) main_call0_v9) (TRef.of (T := ⟨S262144x512, .f32⟩) main_call0_v10) (broadcastInDim S262144x512 ![0, 1] bcast_S262144x1_S262144x512_0_1),
    TRef.binary (TRef.of (T := ⟨S262144x512, .f32⟩) main_call0_v5) (TRef.of (T := ⟨S262144x512, .f32⟩) main_call0_v10) (TRef.of (T := ⟨S262144x512, .f32⟩) main_v0) subf ]

abbrev stageC : List (HloOp τ sig (Elt F)) :=
  [ unary main_arg1 main_v1 (broadcastInDim S262144x1 ![0] bcast_S262144_S262144x1_0 : (⟨S262144, .i32⟩ : BufTy).Contents (Elt F) → (⟨S262144x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S262144x1, .i32⟩) main_call1_v0) (broadcastInDim S262144x1 ![] bcast_S_S262144x1),
    TRef.binary (TRef.of (T := ⟨S262144x1, .i32⟩) main_v1) (TRef.of (T := ⟨S262144x1, .i32⟩) main_call1_v0) (TRef.of (T := ⟨S262144x1, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S262144x1, .i32⟩) main_call1_v2) (broadcastInDim S262144x1 ![] bcast_S_S262144x1),
    TRef.binary (TRef.of (T := ⟨S262144x1, .i32⟩) main_v1) (TRef.of (T := ⟨S262144x1, .i32⟩) main_call1_v2) (TRef.of (T := ⟨S262144x1, .i32⟩) main_call1_v3) addi,
    TRef.ternary (TRef.of (T := ⟨S262144x1, .i1⟩) main_call1_v1) (TRef.of (T := ⟨S262144x1, .i32⟩) main_call1_v3) (TRef.of (T := ⟨S262144x1, .i32⟩) main_v1) (TRef.of (T := ⟨S262144x1, .i32⟩) main_call1_v4) select,
    TRef.reshape (TRef.of (T := ⟨S262144x1, .i32⟩) main_call1_v4) (TRef.of (T := ⟨S262144x1x1, .i32⟩) main_call1_v5) rfl shapeCasts_S262144x1_S262144x1x1 ]

abbrev stageD : List (HloOp τ sig (Elt F)) :=
  [ TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S262144x1x1, .i32⟩) main_call1_v6) (broadcastInDim S262144x1x1 ![] bcast_S_S262144x1x1),
    TRef.binary (TRef.of (T := ⟨S262144x1x1, .i32⟩) main_call1_v5) (TRef.of (T := ⟨S262144x1x1, .i32⟩) main_call1_v6) (TRef.of (T := ⟨S262144x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S262144x1x1, .i32⟩) main_call1_v9) (broadcastInDim S262144x1x1 ![0, 1, 2] bcast_S1x1x1_S262144x1x1_0_1_2),
    TRef.binary (TRef.of (T := ⟨S262144x1x1, .i32⟩) main_call1_v5) (TRef.of (T := ⟨S262144x1x1, .i32⟩) main_call1_v9) (TRef.of (T := ⟨S262144x1x1, .i1⟩) main_call1_v10) (cmpi .sle),
    TRef.binary (TRef.of (T := ⟨S262144x1x1, .i1⟩) main_call1_v7) (TRef.of (T := ⟨S262144x1x1, .i1⟩) main_call1_v10) (TRef.of (T := ⟨S262144x1x1, .i1⟩) main_call1_v11) andi,
    TRef.nullary (TRef.of (T := ⟨S_, .i1⟩) main_call1_c_3) (constantI S_ 1 1#1),
    TRef.binary (TRef.of (T := ⟨S262144x1x1, .i1⟩) main_call1_v11) (TRef.of (T := ⟨S_, .i1⟩) main_call1_c_3) (TRef.of (T := ⟨S262144x1, .i1⟩) main_call1_v12) (fun x v => Host.reduce IntOp.andi x v reducesTo_S262144x1x1_S262144x1_d2 h_S_) ]

abbrev stageE : List (HloOp τ sig (Elt F)) :=
  [ TRef.binary (TRef.of (T := ⟨S262144x512, .f32⟩) main_v0) (TRef.of (T := ⟨S262144x1x1, .i32⟩) main_call1_v5) (TRef.of (T := ⟨S262144x1, .f32⟩) main_call1_v13) (fun x i => Host.gather gather_S262144x512_S262144x1x1_S262144x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S262144x1, .f32⟩) main_call1_v14) (broadcastInDim S262144x1 ![] bcast_S_S262144x1),
    TRef.ternary (TRef.of (T := ⟨S262144x1, .i1⟩) main_call1_v12) (TRef.of (T := ⟨S262144x1, .f32⟩) main_call1_v13) (TRef.of (T := ⟨S262144x1, .f32⟩) main_call1_v14) (TRef.of (T := ⟨S262144x1, .f32⟩) main_v2) select,
    reshape main_v2 main_v3 rfl shapeCasts_S262144x1_S262144 ]

abbrev stageF : List (HloOp τ sig (Elt F)) :=
  [ unary main_v3 main_v4 (Host.negf : (⟨S262144, .f32⟩ : BufTy).Contents (Elt F) → (⟨S262144, .f32⟩ : BufTy).Contents (Elt F)),
    unary main_v3 main_v5 (Host.exp : (⟨S262144, .f32⟩ : BufTy).Contents (Elt F) → (⟨S262144, .f32⟩ : BufTy).Contents (Elt F)),
    nullary main_cst (constant S_ .f32 0x3F800000#32),
    unary main_cst main_v6 (broadcastInDim S262144 ![] bcast_S_S262144 : (⟨S_, .f32⟩ : BufTy).Contents (Elt F) → (⟨S262144, .f32⟩ : BufTy).Contents (Elt F)),
    binary main_v5 main_v6 main_v7 (subf : (⟨S262144, .f32⟩ : BufTy).Contents (Elt F) → (⟨S262144, .f32⟩ : BufTy).Contents (Elt F) → (⟨S262144, .f32⟩ : BufTy).Contents (Elt F)),
    unary main_v7 main_v8 (Host.absf : (⟨S262144, .f32⟩ : BufTy).Contents (Elt F) → (⟨S262144, .f32⟩ : BufTy).Contents (Elt F)),
    nullary main_cst_0 (constant S_ .f32 0x411FFF97#32),
    unary main_cst_0 main_v9 (broadcastInDim S262144 ![] bcast_S_S262144 : (⟨S_, .f32⟩ : BufTy).Contents (Elt F) → (⟨S262144, .f32⟩ : BufTy).Contents (Elt F)),
    binary main_v8 main_v9 main_v10 (mulf : (⟨S262144, .f32⟩ : BufTy).Contents (Elt F) → (⟨S262144, .f32⟩ : BufTy).Contents (Elt F) → (⟨S262144, .f32⟩ : BufTy).Contents (Elt F)),
    unary main_v10 main_v11 (Host.floor : (⟨S262144, .f32⟩ : BufTy).Contents (Elt F) → (⟨S262144, .f32⟩ : BufTy).Contents (Elt F)),
    unary main_v11 main_v12 (fptosi 32 : (⟨S262144, .f32⟩ : BufTy).Contents (Elt F) → (⟨S262144, .i32⟩ : BufTy).Contents (Elt F)) ]

abbrev stageG : List (HloOp τ sig (Elt F)) :=
  [ nullary main_cst_1 (constant S_ .f32 0x00000000#32),
    unary main_cst_1 main_v13 (broadcastInDim S10 ![] bcast_S_S10 : (⟨S_, .f32⟩ : BufTy).Contents (Elt F) → (⟨S10, .f32⟩ : BufTy).Contents (Elt F)),
    nullary main_c (constantI S_ 32 0#32),
    unary main_c main_v14 (broadcastInDim S262144 ![] bcast_S_S262144 : (⟨S_, .i32⟩ : BufTy).Contents (Elt F) → (⟨S262144, .i32⟩ : BufTy).Contents (Elt F)),
    binary main_v12 main_v14 main_v15 (cmpi .slt : (⟨S262144, .i32⟩ : BufTy).Contents (Elt F) → (⟨S262144, .i32⟩ : BufTy).Contents (Elt F) → (⟨S262144, .i1⟩ : BufTy).Contents (Elt F)),
    nullary main_c_2 (constantI S_ 32 10#32),
    unary main_c_2 main_v16 (broadcastInDim S262144 ![] bcast_S_S262144 : (⟨S_, .i32⟩ : BufTy).Contents (Elt F) → (⟨S262144, .i32⟩ : BufTy).Contents (Elt F)),
    binary main_v12 main_v16 main_v17 (addi : (⟨S262144, .i32⟩ : BufTy).Contents (Elt F) → (⟨S262144, .i32⟩ : BufTy).Contents (Elt F) → (⟨S262144, .i32⟩ : BufTy).Contents (Elt F)),
    ternary main_v15 main_v17 main_v12 main_v18 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v18 main_v19 (broadcastInDim S262144x1 ![0] bcast_S262144_S262144x1_0 : (⟨S262144, .i32⟩ : BufTy).Contents (Elt F) → (⟨S262144x1, .i32⟩ : BufTy).Contents (Elt F)),
    nullary main_cst_3 (constant S_ .f32 0x3F800000#32),
    unary main_cst_3 main_v20 (broadcastInDim S262144 ![] bcast_S_S262144 : (⟨S_, .f32⟩ : BufTy).Contents (Elt F) → (⟨S262144, .f32⟩ : BufTy).Contents (Elt F)),
    ternary main_v13 main_v19 main_v20 main_v21 ((fun x i u => Host.scatterAdd scatter_S10_S262144x1_S262144_n_0_0_1 x i u) : (⟨S10, .f32⟩ : BufTy).Contents (Elt F) → (⟨S262144x1, .i32⟩ : BufTy).Contents (Elt F) → (⟨S262144, .f32⟩ : BufTy).Contents (Elt F) → (⟨S10, .f32⟩ : BufTy).Contents (Elt F)) ]

abbrev stageH : List (HloOp τ sig (Elt F)) :=
  [ nullary main_cst_4 (constant S_ .f32 0x00000000#32),
    unary main_cst_4 main_v22 (broadcastInDim S10 ![] bcast_S_S10 : (⟨S_, .f32⟩ : BufTy).Contents (Elt F) → (⟨S10, .f32⟩ : BufTy).Contents (Elt F)),
    binary main_v21 main_v22 main_v23 (cmpf (F := F) .ogt : (⟨S10, .f32⟩ : BufTy).Contents (Elt F) → (⟨S10, .f32⟩ : BufTy).Contents (Elt F) → (⟨S10, .i1⟩ : BufTy).Contents (Elt F)),
    unary main_v23 main_v24 ((extui 32 · natLt_1_32) : (⟨S10, .i1⟩ : BufTy).Contents (Elt F) → (⟨S10, .i32⟩ : BufTy).Contents (Elt F)),
    nullary main_c_5 (constantI S_ 32 0#32),
    binary main_v24 main_c_5 main_v25 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v25 main_v26 (sitofp (F := F) .f32 : (⟨S_, .i32⟩ : BufTy).Contents (Elt F) → (⟨S_, .f32⟩ : BufTy).Contents (Elt F)),
    unary main_v26 main_v27 (broadcastInDim S10 ![] bcast_S_S10 : (⟨S_, .f32⟩ : BufTy).Contents (Elt F) → (⟨S10, .f32⟩ : BufTy).Contents (Elt F)) ]

abbrev stageI : List (HloOp τ sig (Elt F)) :=
  [ binary main_v21 main_v27 main_v28 (mulf : (⟨S10, .f32⟩ : BufTy).Contents (Elt F) → (⟨S10, .f32⟩ : BufTy).Contents (Elt F) → (⟨S10, .f32⟩ : BufTy).Contents (Elt F)),
    nullary main_cst_6 (constant S_ .f32 0x38D1B717#32),
    unary main_cst_6 main_v29 (broadcastInDim S10 ![] bcast_S_S10 : (⟨S_, .f32⟩ : BufTy).Contents (Elt F) → (⟨S10, .f32⟩ : BufTy).Contents (Elt F)),
    binary main_v28 main_v29 main_v30 (maximumf : (⟨S10, .f32⟩ : BufTy).Contents (Elt F) → (⟨S10, .f32⟩ : BufTy).Contents (Elt F) → (⟨S10, .f32⟩ : BufTy).Contents (Elt F)),
    nullary main_cst_7 (constant S_ .f32 0x3F800000#32),
    unary main_cst_7 main_v31 (broadcastInDim S10 ![] bcast_S_S10 : (⟨S_, .f32⟩ : BufTy).Contents (Elt F) → (⟨S10, .f32⟩ : BufTy).Contents (Elt F)),
    binary main_v31 main_v30 main_v32 (Host.divf : (⟨S10, .f32⟩ : BufTy).Contents (Elt F) → (⟨S10, .f32⟩ : BufTy).Contents (Elt F) → (⟨S10, .f32⟩ : BufTy).Contents (Elt F)) ]

abbrev stageJ : List (HloOp τ sig (Elt F)) :=
  [ nullary main_c_8 (constantI S_ 32 0#32),
    unary main_c_8 main_v33 (broadcastInDim S262144 ![] bcast_S_S262144 : (⟨S_, .i32⟩ : BufTy).Contents (Elt F) → (⟨S262144, .i32⟩ : BufTy).Contents (Elt F)),
    binary main_v12 main_v33 main_v34 (cmpi .slt : (⟨S262144, .i32⟩ : BufTy).Contents (Elt F) → (⟨S262144, .i32⟩ : BufTy).Contents (Elt F) → (⟨S262144, .i1⟩ : BufTy).Contents (Elt F)),
    nullary main_c_9 (constantI S_ 32 10#32),
    unary main_c_9 main_v35 (broadcastInDim S262144 ![] bcast_S_S262144 : (⟨S_, .i32⟩ : BufTy).Contents (Elt F) → (⟨S262144, .i32⟩ : BufTy).Contents (Elt F)),
    binary main_v12 main_v35 main_v36 (addi : (⟨S262144, .i32⟩ : BufTy).Contents (Elt F) → (⟨S262144, .i32⟩ : BufTy).Contents (Elt F) → (⟨S262144, .i32⟩ : BufTy).Contents (Elt F)),
    ternary main_v34 main_v36 main_v12 main_v37 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v37 main_v38 (broadcastInDim S262144x1 ![0] bcast_S262144_S262144x1_0 : (⟨S262144, .i32⟩ : BufTy).Contents (Elt F) → (⟨S262144x1, .i32⟩ : BufTy).Contents (Elt F)) ]

abbrev stageK : List (HloOp τ sig (Elt F)) :=
  [ binary main_v32 main_v38 main_v39 ((fun x i => Host.gather gather_S10_S262144x1_S262144_n_0_n_n_0_1_1 x i) : (⟨S10, .f32⟩ : BufTy).Contents (Elt F) → (⟨S262144x1, .i32⟩ : BufTy).Contents (Elt F) → (⟨S262144, .f32⟩ : BufTy).Contents (Elt F)),
    binary main_v39 main_v4 main_v40 (mulf : (⟨S262144, .f32⟩ : BufTy).Contents (Elt F) → (⟨S262144, .f32⟩ : BufTy).Contents (Elt F) → (⟨S262144, .f32⟩ : BufTy).Contents (Elt F)),
    nullary main_cst_10 (constant S_ .f32 0x00000000#32),
    binary main_v40 main_cst_10 main_v41 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_11 (constant S_ .f32 0x48800000#32),
    binary main_v41 main_cst_11 main_v42 (Host.divf : (⟨S_, .f32⟩ : BufTy).Contents (Elt F) → (⟨S_, .f32⟩ : BufTy).Contents (Elt F) → (⟨S_, .f32⟩ : BufTy).Contents (Elt F)) ]

/-- The program's operations are the stages in order. -/
theorem ops_split : (ops : List (HloOp τ sig (Elt F))) = stageA ++ (stageB ++ (stageC ++ (stageD ++ (stageE ++ (stageF ++ (stageG ++ (stageH ++ (stageI ++ (stageJ ++ (stageK)))))))))) := rfl

/-- The fold over the program is the folds over the stages, one after the other. -/
theorem after_ops (V : Valuation τ sig (Elt F)) :
    after (ops (F := F)) V = after stageK (after stageJ (after stageI (after stageH (after stageG (after stageF (after stageE (after stageD (after stageC (after stageB (after stageA (V))))))))))) := by
  rw [ops_split]; simp only [after_append]

/-! ## One stage at a time

From the contents W reached so far, each stage's fold leaves the buffer it computes at that buffer's value of the two
argument arrays, given the same of the buffers it reads; a buffer it does not write keeps its contents. -/

set_option maxRecDepth 8192 in
theorem stageA_main_call0_v5 (W : Valuation τ sig (Elt F)) (X : (⟨S262144x512, .f32⟩ : BufTy).Contents (Elt F)) (T : (⟨S262144, .i32⟩ : BufTy).Contents (Elt F))
    (h_main_arg0 : W (Proc.devRef .tc main_arg0) = X) :
    after (stageA (F := F)) W (Proc.devRef .tc main_call0_v5) = val_main_call0_v5 (F := F) X := by
  after_results
  try simp only [ofBuf_toBuf]
  rw [h_main_arg0]
  try simp only [TRef.ofBuf, TRef.toBuf, cast_eq]
  rfl
set_option maxRecDepth 8192 in
theorem stageA_keeps_main_arg1 (W : Valuation τ sig (Elt F)) :
    after (stageA (F := F)) W (Proc.devRef .tc main_arg1) = W (Proc.devRef .tc main_arg1) := by
  after_results
set_option maxRecDepth 8192 in
theorem stageA_keeps_main_arg0 (W : Valuation τ sig (Elt F)) :
    after (stageA (F := F)) W (Proc.devRef .tc main_arg0) = W (Proc.devRef .tc main_arg0) := by
  after_results

set_option maxRecDepth 8192 in
theorem stageB_main_v0 (W : Valuation τ sig (Elt F)) (X : (⟨S262144x512, .f32⟩ : BufTy).Contents (Elt F)) (T : (⟨S262144, .i32⟩ : BufTy).Contents (Elt F))
    (h_main_call0_v5 : W (Proc.devRef .tc main_call0_v5) = val_main_call0_v5 (F := F) X) :
    after (stageB (F := F)) W (Proc.devRef .tc main_v0) = val_main_v0 (F := F) X := by
  after_results
  try simp only [ofBuf_toBuf]
  rw [h_main_call0_v5]
  try simp only [TRef.ofBuf, TRef.toBuf, cast_eq]
  rfl
set_option maxRecDepth 8192 in
theorem stageB_keeps_main_arg1 (W : Valuation τ sig (Elt F)) :
    after (stageB (F := F)) W (Proc.devRef .tc main_arg1) = W (Proc.devRef .tc main_arg1) := by
  after_results
set_option maxRecDepth 8192 in
theorem stageB_keeps_main_arg0 (W : Valuation τ sig (Elt F)) :
    after (stageB (F := F)) W (Proc.devRef .tc main_arg0) = W (Proc.devRef .tc main_arg0) := by
  after_results

set_option maxRecDepth 8192 in
theorem stageC_main_call1_v5 (W : Valuation τ sig (Elt F)) (X : (⟨S262144x512, .f32⟩ : BufTy).Contents (Elt F)) (T : (⟨S262144, .i32⟩ : BufTy).Contents (Elt F))
    (h_main_arg1 : W (Proc.devRef .tc main_arg1) = T) :
    after (stageC (F := F)) W (Proc.devRef .tc main_call1_v5) = val_main_call1_v5 (F := F) T := by
  after_results
  try simp only [ofBuf_toBuf]
  rw [h_main_arg1]
  try simp only [TRef.ofBuf, TRef.toBuf, cast_eq]
  rfl
set_option maxRecDepth 8192 in
theorem stageC_keeps_main_v0 (W : Valuation τ sig (Elt F)) :
    after (stageC (F := F)) W (Proc.devRef .tc main_v0) = W (Proc.devRef .tc main_v0) := by
  after_results
set_option maxRecDepth 8192 in
theorem stageC_keeps_main_arg0 (W : Valuation τ sig (Elt F)) :
    after (stageC (F := F)) W (Proc.devRef .tc main_arg0) = W (Proc.devRef .tc main_arg0) := by
  after_results
set_option maxRecDepth 8192 in
theorem stageC_keeps_main_arg1 (W : Valuation τ sig (Elt F)) :
    after (stageC (F := F)) W (Proc.devRef .tc main_arg1) = W (Proc.devRef .tc main_arg1) := by
  after_results

set_option maxRecDepth 8192 in
theorem stageD_main_call1_v12 (W : Valuation τ sig (Elt F)) (X : (⟨S262144x512, .f32⟩ : BufTy).Contents (Elt F)) (T : (⟨S262144, .i32⟩ : BufTy).Contents (Elt F))
    (h_main_call1_v5 : W (Proc.devRef .tc main_call1_v5) = val_main_call1_v5 (F := F) T) :
    after (stageD (F := F)) W (Proc.devRef .tc main_call1_v12) = val_main_call1_v12 (F := F) T := by
  after_results
  try simp only [ofBuf_toBuf]
  rw [h_main_call1_v5]
  try simp only [TRef.ofBuf, TRef.toBuf, cast_eq]
  rfl
set_option maxRecDepth 8192 in
theorem stageD_keeps_main_v0 (W : Valuation τ sig (Elt F)) :
    after (stageD (F := F)) W (Proc.devRef .tc main_v0) = W (Proc.devRef .tc main_v0) := by
  after_results
set_option maxRecDepth 8192 in
theorem stageD_keeps_main_call1_v5 (W : Valuation τ sig (Elt F)) :
    after (stageD (F := F)) W (Proc.devRef .tc main_call1_v5) = W (Proc.devRef .tc main_call1_v5) := by
  after_results
set_option maxRecDepth 8192 in
theorem stageD_keeps_main_arg0 (W : Valuation τ sig (Elt F)) :
    after (stageD (F := F)) W (Proc.devRef .tc main_arg0) = W (Proc.devRef .tc main_arg0) := by
  after_results
set_option maxRecDepth 8192 in
theorem stageD_keeps_main_arg1 (W : Valuation τ sig (Elt F)) :
    after (stageD (F := F)) W (Proc.devRef .tc main_arg1) = W (Proc.devRef .tc main_arg1) := by
  after_results

set_option maxRecDepth 8192 in
theorem stageE_main_v3 (W : Valuation τ sig (Elt F)) (X : (⟨S262144x512, .f32⟩ : BufTy).Contents (Elt F)) (T : (⟨S262144, .i32⟩ : BufTy).Contents (Elt F))
    (h_main_v0 : W (Proc.devRef .tc main_v0) = val_main_v0 (F := F) X)
    (h_main_call1_v5 : W (Proc.devRef .tc main_call1_v5) = val_main_call1_v5 (F := F) T)
    (h_main_call1_v12 : W (Proc.devRef .tc main_call1_v12) = val_main_call1_v12 (F := F) T) :
    after (stageE (F := F)) W (Proc.devRef .tc main_v3) = val_main_v3 (F := F) X T := by
  after_results
  try simp only [ofBuf_toBuf]
  rw [h_main_v0, h_main_call1_v5, h_main_call1_v12]
  try simp only [TRef.ofBuf, TRef.toBuf, cast_eq]
  rfl
set_option maxRecDepth 8192 in
theorem stageE_keeps_main_arg0 (W : Valuation τ sig (Elt F)) :
    after (stageE (F := F)) W (Proc.devRef .tc main_arg0) = W (Proc.devRef .tc main_arg0) := by
  after_results
set_option maxRecDepth 8192 in
theorem stageE_keeps_main_arg1 (W : Valuation τ sig (Elt F)) :
    after (stageE (F := F)) W (Proc.devRef .tc main_arg1) = W (Proc.devRef .tc main_arg1) := by
  after_results

set_option maxRecDepth 8192 in
theorem stageF_main_v4 (W : Valuation τ sig (Elt F)) (X : (⟨S262144x512, .f32⟩ : BufTy).Contents (Elt F)) (T : (⟨S262144, .i32⟩ : BufTy).Contents (Elt F))
    (h_main_v3 : W (Proc.devRef .tc main_v3) = val_main_v3 (F := F) X T) :
    after (stageF (F := F)) W (Proc.devRef .tc main_v4) = val_main_v4 (F := F) X T := by
  after_results
  try simp only [ofBuf_toBuf]
  rw [h_main_v3]
  try simp only [TRef.ofBuf, TRef.toBuf, cast_eq]
  rfl
set_option maxRecDepth 8192 in
theorem stageF_main_v12 (W : Valuation τ sig (Elt F)) (X : (⟨S262144x512, .f32⟩ : BufTy).Contents (Elt F)) (T : (⟨S262144, .i32⟩ : BufTy).Contents (Elt F))
    (h_main_v3 : W (Proc.devRef .tc main_v3) = val_main_v3 (F := F) X T) :
    after (stageF (F := F)) W (Proc.devRef .tc main_v12) = val_main_v12 (F := F) X T := by
  after_results
  try simp only [ofBuf_toBuf]
  rw [h_main_v3]
  try simp only [TRef.ofBuf, TRef.toBuf, cast_eq]
  rfl
set_option maxRecDepth 8192 in
theorem stageF_keeps_main_arg0 (W : Valuation τ sig (Elt F)) :
    after (stageF (F := F)) W (Proc.devRef .tc main_arg0) = W (Proc.devRef .tc main_arg0) := by
  after_results
set_option maxRecDepth 8192 in
theorem stageF_keeps_main_arg1 (W : Valuation τ sig (Elt F)) :
    after (stageF (F := F)) W (Proc.devRef .tc main_arg1) = W (Proc.devRef .tc main_arg1) := by
  after_results

set_option maxRecDepth 8192 in
theorem stageG_main_v21 (W : Valuation τ sig (Elt F)) (X : (⟨S262144x512, .f32⟩ : BufTy).Contents (Elt F)) (T : (⟨S262144, .i32⟩ : BufTy).Contents (Elt F))
    (h_main_v12 : W (Proc.devRef .tc main_v12) = val_main_v12 (F := F) X T) :
    after (stageG (F := F)) W (Proc.devRef .tc main_v21) = val_main_v21 (F := F) X T := by
  after_results
  try simp only [ofBuf_toBuf]
  rw [h_main_v12]
  try simp only [TRef.ofBuf, TRef.toBuf, cast_eq]
  rfl
set_option maxRecDepth 8192 in
theorem stageG_keeps_main_v4 (W : Valuation τ sig (Elt F)) :
    after (stageG (F := F)) W (Proc.devRef .tc main_v4) = W (Proc.devRef .tc main_v4) := by
  after_results
set_option maxRecDepth 8192 in
theorem stageG_keeps_main_v12 (W : Valuation τ sig (Elt F)) :
    after (stageG (F := F)) W (Proc.devRef .tc main_v12) = W (Proc.devRef .tc main_v12) := by
  after_results
set_option maxRecDepth 8192 in
theorem stageG_keeps_main_arg0 (W : Valuation τ sig (Elt F)) :
    after (stageG (F := F)) W (Proc.devRef .tc main_arg0) = W (Proc.devRef .tc main_arg0) := by
  after_results
set_option maxRecDepth 8192 in
theorem stageG_keeps_main_arg1 (W : Valuation τ sig (Elt F)) :
    after (stageG (F := F)) W (Proc.devRef .tc main_arg1) = W (Proc.devRef .tc main_arg1) := by
  after_results

set_option maxRecDepth 8192 in
theorem stageH_main_v27 (W : Valuation τ sig (Elt F)) (X : (⟨S262144x512, .f32⟩ : BufTy).Contents (Elt F)) (T : (⟨S262144, .i32⟩ : BufTy).Contents (Elt F))
    (h_main_v21 : W (Proc.devRef .tc main_v21) = val_main_v21 (F := F) X T) :
    after (stageH (F := F)) W (Proc.devRef .tc main_v27) = val_main_v27 (F := F) X T := by
  after_results
  try simp only [ofBuf_toBuf]
  rw [h_main_v21]
  try simp only [TRef.ofBuf, TRef.toBuf, cast_eq]
  rfl
set_option maxRecDepth 8192 in
theorem stageH_keeps_main_v4 (W : Valuation τ sig (Elt F)) :
    after (stageH (F := F)) W (Proc.devRef .tc main_v4) = W (Proc.devRef .tc main_v4) := by
  after_results
set_option maxRecDepth 8192 in
theorem stageH_keeps_main_v12 (W : Valuation τ sig (Elt F)) :
    after (stageH (F := F)) W (Proc.devRef .tc main_v12) = W (Proc.devRef .tc main_v12) := by
  after_results
set_option maxRecDepth 8192 in
theorem stageH_keeps_main_v21 (W : Valuation τ sig (Elt F)) :
    after (stageH (F := F)) W (Proc.devRef .tc main_v21) = W (Proc.devRef .tc main_v21) := by
  after_results
set_option maxRecDepth 8192 in
theorem stageH_keeps_main_arg0 (W : Valuation τ sig (Elt F)) :
    after (stageH (F := F)) W (Proc.devRef .tc main_arg0) = W (Proc.devRef .tc main_arg0) := by
  after_results
set_option maxRecDepth 8192 in
theorem stageH_keeps_main_arg1 (W : Valuation τ sig (Elt F)) :
    after (stageH (F := F)) W (Proc.devRef .tc main_arg1) = W (Proc.devRef .tc main_arg1) := by
  after_results

set_option maxRecDepth 8192 in
theorem stageI_main_v32 (W : Valuation τ sig (Elt F)) (X : (⟨S262144x512, .f32⟩ : BufTy).Contents (Elt F)) (T : (⟨S262144, .i32⟩ : BufTy).Contents (Elt F))
    (h_main_v21 : W (Proc.devRef .tc main_v21) = val_main_v21 (F := F) X T)
    (h_main_v27 : W (Proc.devRef .tc main_v27) = val_main_v27 (F := F) X T) :
    after (stageI (F := F)) W (Proc.devRef .tc main_v32) = val_main_v32 (F := F) X T := by
  after_results
  try simp only [ofBuf_toBuf]
  rw [h_main_v21, h_main_v27]
  try simp only [TRef.ofBuf, TRef.toBuf, cast_eq]
  rfl
set_option maxRecDepth 8192 in
theorem stageI_keeps_main_v4 (W : Valuation τ sig (Elt F)) :
    after (stageI (F := F)) W (Proc.devRef .tc main_v4) = W (Proc.devRef .tc main_v4) := by
  after_results
set_option maxRecDepth 8192 in
theorem stageI_keeps_main_v12 (W : Valuation τ sig (Elt F)) :
    after (stageI (F := F)) W (Proc.devRef .tc main_v12) = W (Proc.devRef .tc main_v12) := by
  after_results
set_option maxRecDepth 8192 in
theorem stageI_keeps_main_arg0 (W : Valuation τ sig (Elt F)) :
    after (stageI (F := F)) W (Proc.devRef .tc main_arg0) = W (Proc.devRef .tc main_arg0) := by
  after_results
set_option maxRecDepth 8192 in
theorem stageI_keeps_main_arg1 (W : Valuation τ sig (Elt F)) :
    after (stageI (F := F)) W (Proc.devRef .tc main_arg1) = W (Proc.devRef .tc main_arg1) := by
  after_results

set_option maxRecDepth 8192 in
theorem stageJ_main_v38 (W : Valuation τ sig (Elt F)) (X : (⟨S262144x512, .f32⟩ : BufTy).Contents (Elt F)) (T : (⟨S262144, .i32⟩ : BufTy).Contents (Elt F))
    (h_main_v12 : W (Proc.devRef .tc main_v12) = val_main_v12 (F := F) X T) :
    after (stageJ (F := F)) W (Proc.devRef .tc main_v38) = val_main_v38 (F := F) X T := by
  after_results
  try simp only [ofBuf_toBuf]
  rw [h_main_v12]
  try simp only [TRef.ofBuf, TRef.toBuf, cast_eq]
  rfl
set_option maxRecDepth 8192 in
theorem stageJ_keeps_main_v4 (W : Valuation τ sig (Elt F)) :
    after (stageJ (F := F)) W (Proc.devRef .tc main_v4) = W (Proc.devRef .tc main_v4) := by
  after_results
set_option maxRecDepth 8192 in
theorem stageJ_keeps_main_v32 (W : Valuation τ sig (Elt F)) :
    after (stageJ (F := F)) W (Proc.devRef .tc main_v32) = W (Proc.devRef .tc main_v32) := by
  after_results
set_option maxRecDepth 8192 in
theorem stageJ_keeps_main_arg0 (W : Valuation τ sig (Elt F)) :
    after (stageJ (F := F)) W (Proc.devRef .tc main_arg0) = W (Proc.devRef .tc main_arg0) := by
  after_results
set_option maxRecDepth 8192 in
theorem stageJ_keeps_main_arg1 (W : Valuation τ sig (Elt F)) :
    after (stageJ (F := F)) W (Proc.devRef .tc main_arg1) = W (Proc.devRef .tc main_arg1) := by
  after_results

set_option maxRecDepth 8192 in
theorem stageK_main_v42 (W : Valuation τ sig (Elt F)) (X : (⟨S262144x512, .f32⟩ : BufTy).Contents (Elt F)) (T : (⟨S262144, .i32⟩ : BufTy).Contents (Elt F))
    (h_main_v32 : W (Proc.devRef .tc main_v32) = val_main_v32 (F := F) X T)
    (h_main_v38 : W (Proc.devRef .tc main_v38) = val_main_v38 (F := F) X T)
    (h_main_v4 : W (Proc.devRef .tc main_v4) = val_main_v4 (F := F) X T) :
    after (stageK (F := F)) W (Proc.devRef .tc main_v42) = val_main_v42 (F := F) X T := by
  after_results
  try simp only [ofBuf_toBuf]
  rw [h_main_v32, h_main_v38, h_main_v4]
  try simp only [TRef.ofBuf, TRef.toBuf, cast_eq]
  rfl
set_option maxRecDepth 8192 in
theorem stageK_keeps_main_arg0 (W : Valuation τ sig (Elt F)) :
    after (stageK (F := F)) W (Proc.devRef .tc main_arg0) = W (Proc.devRef .tc main_arg0) := by
  after_results
set_option maxRecDepth 8192 in
theorem stageK_keeps_main_arg1 (W : Valuation τ sig (Elt F)) :
    after (stageK (F := F)) W (Proc.devRef .tc main_arg1) = W (Proc.devRef .tc main_arg1) := by
  after_results

/-! ## The stages joined -/

/-- The fold of the program's operations over any buffer contents leaves the result buffer at the last stage's value
    of the contents of the two argument buffers. -/
theorem after_result (V : Valuation τ sig (Elt F)) :
    after (ops (F := F)) V (Proc.devRef .tc main_v42)
      = val_main_v42 (F := F) (V (Proc.devRef .tc main_arg0)) (V (Proc.devRef .tc main_arg1)) := by
  rw [after_ops]
  have fA_call0_v5 := stageA_main_call0_v5 V (V (Proc.devRef .tc main_arg0)) (V (Proc.devRef .tc main_arg1)) rfl
  have fA_arg1 := stageA_keeps_main_arg1 V
  have fB_v0 := stageB_main_v0 (after stageA V) (V (Proc.devRef .tc main_arg0)) (V (Proc.devRef .tc main_arg1)) fA_call0_v5
  have fB_arg1 := (stageB_keeps_main_arg1 (after stageA V)).trans fA_arg1
  have fC_call1_v5 := stageC_main_call1_v5 (after stageB (after stageA V)) (V (Proc.devRef .tc main_arg0)) (V (Proc.devRef .tc main_arg1)) fB_arg1
  have fC_v0 := (stageC_keeps_main_v0 (after stageB (after stageA V))).trans fB_v0
  have fD_call1_v12 := stageD_main_call1_v12 (after stageC (after stageB (after stageA V))) (V (Proc.devRef .tc main_arg0)) (V (Proc.devRef .tc main_arg1)) fC_call1_v5
  have fD_v0 := (stageD_keeps_main_v0 (after stageC (after stageB (after stageA V)))).trans fC_v0
  have fD_call1_v5 := (stageD_keeps_main_call1_v5 (after stageC (after stageB (after stageA V)))).trans fC_call1_v5
  have fE_v3 := stageE_main_v3 (after stageD (after stageC (after stageB (after stageA V)))) (V (Proc.devRef .tc main_arg0)) (V (Proc.devRef .tc main_arg1)) fD_v0 fD_call1_v5 fD_call1_v12
  have fF_v4 := stageF_main_v4 (after stageE (after stageD (after stageC (after stageB (after stageA V))))) (V (Proc.devRef .tc main_arg0)) (V (Proc.devRef .tc main_arg1)) fE_v3
  have fF_v12 := stageF_main_v12 (after stageE (after stageD (after stageC (after stageB (after stageA V))))) (V (Proc.devRef .tc main_arg0)) (V (Proc.devRef .tc main_arg1)) fE_v3
  have fG_v21 := stageG_main_v21 (after stageF (after stageE (after stageD (after stageC (after stageB (after stageA V)))))) (V (Proc.devRef .tc main_arg0)) (V (Proc.devRef .tc main_arg1)) fF_v12
  have fG_v4 := (stageG_keeps_main_v4 (after stageF (after stageE (after stageD (after stageC (after stageB (after stageA V))))))).trans fF_v4
  have fG_v12 := (stageG_keeps_main_v12 (after stageF (after stageE (after stageD (after stageC (after stageB (after stageA V))))))).trans fF_v12
  have fH_v27 := stageH_main_v27 (after stageG (after stageF (after stageE (after stageD (after stageC (after stageB (after stageA V))))))) (V (Proc.devRef .tc main_arg0)) (V (Proc.devRef .tc main_arg1)) fG_v21
  have fH_v4 := (stageH_keeps_main_v4 (after stageG (after stageF (after stageE (after stageD (after stageC (after stageB (after stageA V)))))))).trans fG_v4
  have fH_v12 := (stageH_keeps_main_v12 (after stageG (after stageF (after stageE (after stageD (after stageC (after stageB (after stageA V)))))))).trans fG_v12
  have fH_v21 := (stageH_keeps_main_v21 (after stageG (after stageF (after stageE (after stageD (after stageC (after stageB (after stageA V)))))))).trans fG_v21
  have fI_v32 := stageI_main_v32 (after stageH (after stageG (after stageF (after stageE (after stageD (after stageC (after stageB (after stageA V)))))))) (V (Proc.devRef .tc main_arg0)) (V (Proc.devRef .tc main_arg1)) fH_v21 fH_v27
  have fI_v4 := (stageI_keeps_main_v4 (after stageH (after stageG (after stageF (after stageE (after stageD (after stageC (after stageB (after stageA V))))))))).trans fH_v4
  have fI_v12 := (stageI_keeps_main_v12 (after stageH (after stageG (after stageF (after stageE (after stageD (after stageC (after stageB (after stageA V))))))))).trans fH_v12
  have fJ_v38 := stageJ_main_v38 (after stageI (after stageH (after stageG (after stageF (after stageE (after stageD (after stageC (after stageB (after stageA V))))))))) (V (Proc.devRef .tc main_arg0)) (V (Proc.devRef .tc main_arg1)) fI_v12
  have fJ_v4 := (stageJ_keeps_main_v4 (after stageI (after stageH (after stageG (after stageF (after stageE (after stageD (after stageC (after stageB (after stageA V)))))))))).trans fI_v4
  have fJ_v32 := (stageJ_keeps_main_v32 (after stageI (after stageH (after stageG (after stageF (after stageE (after stageD (after stageC (after stageB (after stageA V)))))))))).trans fI_v32
  have fK_v42 := stageK_main_v42 (after stageJ (after stageI (after stageH (after stageG (after stageF (after stageE (after stageD (after stageC (after stageB (after stageA V)))))))))) (V (Proc.devRef .tc main_arg0)) (V (Proc.devRef .tc main_arg1)) fJ_v32 fJ_v38 fJ_v4
  exact fK_v42

/-- No operation writes an argument buffer. -/
theorem after_arg0 (V : Valuation τ sig (Elt F)) :
    after (ops (F := F)) V (Proc.devRef .tc main_arg0) = V (Proc.devRef .tc main_arg0) := by
  rw [after_ops, stageK_keeps_main_arg0, stageJ_keeps_main_arg0, stageI_keeps_main_arg0, stageH_keeps_main_arg0, stageG_keeps_main_arg0, stageF_keeps_main_arg0, stageE_keeps_main_arg0, stageD_keeps_main_arg0, stageC_keeps_main_arg0, stageB_keeps_main_arg0, stageA_keeps_main_arg0]
theorem after_arg1 (V : Valuation τ sig (Elt F)) :
    after (ops (F := F)) V (Proc.devRef .tc main_arg1) = V (Proc.devRef .tc main_arg1) := by
  rw [after_ops, stageK_keeps_main_arg1, stageJ_keeps_main_arg1, stageI_keeps_main_arg1, stageH_keeps_main_arg1, stageG_keeps_main_arg1, stageF_keeps_main_arg1, stageE_keeps_main_arg1, stageD_keeps_main_arg1, stageC_keeps_main_arg1, stageB_keeps_main_arg1, stageA_keeps_main_arg1]

/-- THE REFERENCE'S RUN over its stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = val_main_v42 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (after_result _), (h c main_arg0).trans (after_arg0 _),
      (h c main_arg1).trans (after_arg1 _)⟩)
    (run_seq scopedRefs_eq scopedSems_eq defs main (fun _ => ops) main_eq (fun _ => ops_sub) m ρ)

end Cert.ReferenceIdeal.GhmcRun

end
-- ==== Proof.Aggregate.lean ====
/- The aggregation: the kernel's per-bin totals re-indexed over the samples, the reweighting finite, and the
   factorisation Σ_i β(bin_i)·ce_i = Σ_k β_k · Σ_{i : bin_i = k} ce_i. -/
import proofs.«416635_j57157424775631_3_alg».proof.Proof.Analysis
import Mathlib.Algebra.BigOperators.Group.Finset.Basic
import Mathlib.Data.Fintype.BigOperators
import Mathlib.Data.EReal.Basic
import Mathlib.Data.EReal.Operations
import Mathlib.Data.EReal.Inv

noncomputable section

namespace Ghmc

open Idealize.ShloMosaic Idealize.ShloMosaic.ValueIdx

/-- The grid order as a bijection onto the samples: the inverse reads the four digits off by division. -/
def rowEquiv : Fin 2 × Fin 32 × Fin 2 × Fin 2048 ≃ Rows where
  toFun p := rowOf p.1 p.2.1 p.2.2.1 p.2.2.2
  invFun i := (⟨i.val / 131072, by have := i.isLt; omega⟩, ⟨i.val / 4096 % 32, by omega⟩,
    ⟨i.val / 2048 % 2, by omega⟩, ⟨i.val % 2048, by omega⟩)
  left_inv := by
    rintro ⟨a, b, c, d⟩
    have := a.isLt; have := b.isLt; have := c.isLt; have := d.isLt
    simp only [rowOf, Prod.mk.injEq, Fin.ext_iff]
    refine ⟨?_, ?_, ?_, ?_⟩ <;> omega
  right_inv := by
    intro i
    have := i.isLt
    simp only [rowOf, Fin.ext_iff]
    omega

/-- The grid order (core, block, half, row) enumerates the samples once each. -/
theorem sum_rows (f : Rows → EReal) :
    ∑ core : Fin 2, ∑ j : Fin 32, ∑ ch : Fin 2, ∑ r : Fin 2048, f (rowOf core j ch r) = ∑ i : Rows, f i := by
  rw [← Equiv.sum_comp rowEquiv f]
  simp only [Fintype.sum_prod_type]
  rfl

/-- The word of 1.0 is the real 1. -/
theorem ofBits_one : Ideal.ofBits .f32 0x3F800000#32 = 1 := by
  simp [Ideal.ofBits, Ideal.ieee, -EReal.coe_mul]; norm_num

/-- The floor word under the denominator is the positive real 13743895 / 2^37 (about 1e-4). -/
theorem ofBits_eps : Ideal.ofBits .f32 0x38D1B717#32 = ((13743895 / 137438953472 : ℝ) : EReal) := by
  simp [Ideal.ofBits, Ideal.ieee, -EReal.coe_mul]; norm_num

/-- One over a positive real is the real reciprocal. -/
theorem div_one_coe (w : ℝ) (hw : 0 < w) : Ideal.div 1 (w : EReal) = ((w⁻¹ : ℝ) : EReal) := by
  unfold Ideal.div
  rw [if_neg (EReal.coe_ne_zero.mpr hw.ne'), one_mul, EReal.coe_inv]

/-- One over +∞ is 0. -/
theorem div_one_top : Ideal.div 1 (⊤ : EReal) = ((0 : ℝ) : EReal) := by
  unfold Ideal.div
  rw [if_neg EReal.top_ne_zero, EReal.inv_top, mul_zero]; rfl

/-- Whatever y is, 1 / max (y, 1e-4) is a real: the maximum is +∞ or a real at least 1e-4. -/
theorem div_one_max_real (y : EReal) :
    ∃ r : ℝ, Ideal.div (Ideal.ofBits .f32 0x3F800000#32) (max y (Ideal.ofBits .f32 0x38D1B717#32)) = (r : EReal) := by
  rw [ofBits_one, ofBits_eps]
  have hepos : (0 : ℝ) < 13743895 / 137438953472 := by norm_num
  induction y using EReal.rec with
  | bot => rw [max_eq_right bot_le]; exact ⟨_, div_one_coe _ hepos⟩
  | coe z =>
    rcases le_total z (13743895 / 137438953472) with h | h
    · rw [max_eq_right (EReal.coe_le_coe_iff.mpr h)]; exact ⟨_, div_one_coe _ hepos⟩
    · rw [max_eq_left (EReal.coe_le_coe_iff.mpr h)]; exact ⟨_, div_one_coe _ (lt_of_lt_of_le hepos h)⟩
  | top => rw [max_eq_left le_top]; exact ⟨_, div_one_top⟩

/-- Whatever the counts, each β_k is a real number: the denominator is at least 1e-4. -/
theorem betaOf_real (hb : S0.BroadcastsInDim S10 (![] : Fin 0 → Fin S10.rank)) (hr : S10.ReducesTo [0] S0) (h0 : 0 < S0.numel)
    (hlt : 1 < 32) (cnt : FVec Ideal S10 .f32) (k : S10.Idx) : ∃ r : ℝ, betaOf hb hr h0 hlt cnt k = (r : EReal) := by
  unfold betaOf
  simp only [Host.divf, maximumf, mulf, broadcastInDim, constant, Ideal.hostDivf_def, Ideal.maximumf_def, Ideal.mulf_def,
    Ideal.ofBits_def]
  exact div_one_max_real _

/-- On finite rows the reference's bin word is one of 0 … 9. -/
theorem rowBinR_lt (X : Rows → Cls → EReal) (T : Rows → BitVec 32) (hX : ∀ i, FiniteRow (X i)) (i : Rows) :
    (rowBinR X T i).toNat < 10 := by
  obtain ⟨r, hr, hL⟩ := logptR_nonpos (X i) (hX i) ⟨(T i).toNat % 512, Nat.mod_lt _ (by norm_num)⟩
  exact binRaw_lt_ten _ r hL hr

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A one-hot entry is the coercion of the real indicator. -/
theorem oneHot_coe (w : BitVec 32) (col : ℕ) :
    oneHot w col = (((if w = BitVec.ofNat 32 col then 1 else 0 : ℝ)) : EReal) := by
  unfold oneHot
  split_ifs <;> simp

/-- Row 0 of a core's count block is the sum over the core's samples. -/
theorem cntArr_row0 (X : Rows → Cls → EReal) (Tc : Rows → BitVec 32) (core : Fin 2) (c : Fin 128) :
    cntArr X Tc (ix3 core (0 : Fin 8) c) = ∑ j : Fin 32, ∑ ch : Fin 2, ∑ r : Fin 2048,
      oneHot (rowBinK (X (rowOf core j ch r)) (Tc (rowOf core j ch r))) c.val :=
  if_pos rfl

/-- Row 0 of a core's loss block is the sum over the core's samples. -/
theorem ceArr_row0 (X : Rows → Cls → EReal) (Tc : Rows → BitVec 32) (core : Fin 2) (c : Fin 128) :
    ceArr X Tc (ix3 core (0 : Fin 8) c) = ∑ j : Fin 32, ∑ ch : Fin 2, ∑ r : Fin 2048,
      oneHot (rowBinK (X (rowOf core j ch r)) (Tc (rowOf core j ch r))) c.val
        * rowCeK (X (rowOf core j ch r)) (Tc (rowOf core j ch r)) :=
  if_pos rfl

/-- The kernel's ten counts are the histogram of the bin words. -/
theorem binTotals_cntArr (X : Rows → Cls → EReal) (T : Rows → BitVec 32) (b : Rows → BitVec 32)
    (hbin : ∀ i, rowBinK (X i) (T i) = b i) : binTotals (cntArr X T) = histR b := by
  funext k
  unfold binTotals histR
  refine congrArg (fun z => (0 : EReal) + z) ?_
  rw [← sum_rows (fun i => oneHot (b i) (k 0).val)]
  refine Fintype.sum_congr _ _ fun core => ?_
  rw [cntArr_row0]
  simp only [hbin]

/-- The kernel's ten loss totals are, per bin, the sum of the losses of the samples in the bin. -/
theorem binTotals_ceArr (X : Rows → Cls → EReal) (T : Rows → BitVec 32) (b : Rows → BitVec 32) (ce : Rows → EReal)
    (hbin : ∀ i, rowBinK (X i) (T i) = b i) (hce : ∀ i, rowCeK (X i) (T i) = ce i) (k : S10.Idx) :
    binTotals (ceArr X T) k = 0 + ∑ i : Rows, oneHot (b i) (k 0).val * ce i := by
  unfold binTotals
  refine congrArg (fun z => (0 : EReal) + z) ?_
  rw [← sum_rows (fun i => oneHot (b i) (k 0).val * ce i)]
  refine Fintype.sum_congr _ _ fun core => ?_
  rw [ceArr_row0]
  simp only [hbin, hce]

/-- The factorisation over the reals: Σ_k β_k · Σ_i [bin_i = k] · c_i = Σ_i β(bin_i) · c_i when every bin word is below ten. -/
theorem factor_sum (β : Fin 10 → ℝ) (b : Rows → BitVec 32) (hb : ∀ i, (b i).toNat < 10) (c : Rows → ℝ) :
    (0 : EReal) + ∑ k : Fin 10, (β k : EReal) * (0 + ∑ i : Rows, oneHot (b i) k.val * (c i : EReal))
      = 0 + ∑ i : Rows, (β ⟨(b i).toNat % 10, Nat.mod_lt _ (by norm_num)⟩ : EReal) * (c i : EReal) := by
  have hL : ∀ k : Fin 10, (β k : EReal) * (0 + ∑ i : Rows, oneHot (b i) k.val * (c i : EReal))
      = ((β k * ∑ i : Rows, (if b i = BitVec.ofNat 32 k.val then 1 else 0 : ℝ) * c i : ℝ) : EReal) := by
    intro k
    rw [zero_add, EReal.coe_mul, coe_sum]
    refine congrArg (fun z => (β k : EReal) * z) ?_
    refine Finset.sum_congr rfl fun i _ => ?_
    rw [oneHot_coe, EReal.coe_mul]
  have hR : ∀ i : Rows, (β ⟨(b i).toNat % 10, Nat.mod_lt _ (by norm_num)⟩ : EReal) * (c i : EReal)
      = ((β ⟨(b i).toNat % 10, Nat.mod_lt _ (by norm_num)⟩ * c i : ℝ) : EReal) := fun i => (EReal.coe_mul _ _).symm
  rw [Fintype.sum_congr _ _ hL, Fintype.sum_congr _ _ hR, zero_add, zero_add, ← coe_sum, ← coe_sum]
  refine congrArg (fun z : ℝ => (z : EReal)) ?_
  simp only [Finset.mul_sum]
  rw [Finset.sum_comm]
  refine Finset.sum_congr rfl fun i _ => ?_
  have hi := hb i
  rw [Finset.sum_eq_single (⟨(b i).toNat % 10, Nat.mod_lt _ (by norm_num)⟩ : Fin 10)]
  · have : b i = BitVec.ofNat 32 ((b i).toNat % 10) := by
      apply BitVec.eq_of_toNat_eq
      rw [BitVec.toNat_ofNat]
      omega
    rw [if_pos this, one_mul]
  · intro k _ hk
    have : b i ≠ BitVec.ofNat 32 k.val := by
      intro h
      apply hk
      apply Fin.ext
      have h2 := congrArg BitVec.toNat h
      rw [BitVec.toNat_ofNat] at h2
      have := k.isLt
      show k.val = (b i).toNat % 10
      omega
    rw [if_neg this, zero_mul, mul_zero]
  · intro h
    exact absurd (Finset.mem_univ _) h

/-- THE EQUIVALENCE: on finite rows and class words in [0, 512) the kernel's value is the reference's. -/
theorem value_eq (hb : S0.BroadcastsInDim S10 (![] : Fin 0 → Fin S10.rank)) (hr : S10.ReducesTo [0] S0) (h0 : 0 < S0.numel)
    (hlt : 1 < 32) (X : Rows → Cls → EReal) (T : Rows → BitVec 32) (hX : ∀ i, FiniteRow (X i))
    (hT : ∀ i, 0 ≤ (T i).toInt ∧ (T i).toInt < 512) :
    valueK hb hr h0 hlt X T = valueR hb hr h0 hlt X T := by
  -- neither clamp binds, and the two groupings of log p_t agree
  have hTc : (fun i => clipT (T i)) = T := funext fun i => (clipT_of_range _ (hT i).1 (hT i).2).1
  have hlog : ∀ i, logptK (X i) (T i) = rowLR X T i := fun i =>
    logptK_eq_logptR (X i) (hX i) (T i) (clipT_of_range _ (hT i).1 (hT i).2).2
  have hbin : ∀ i, rowBinK (X i) (T i) = rowBinR X T i := fun i => by
    unfold rowBinK; rw [hlog i]; exact clipB_of_lt _ (rowBinR_lt X T hX i)
  have hce : ∀ i, rowCeK (X i) (T i) = rowCeR X T i := fun i => by
    unfold rowCeK rowCeR; rw [hlog i]; exact zero_sub_eq_neg _
  -- the losses and the ten weights are reals
  have hcR : ∀ i, ∃ c : ℝ, rowCeR X T i = (c : EReal) := fun i => by
    obtain ⟨r, _, hL⟩ := logptR_nonpos (X i) (hX i) ⟨(T i).toNat % 512, Nat.mod_lt _ (by norm_num)⟩
    exact ⟨-r, by unfold rowCeR rowLR; rw [hL, EReal.coe_neg]⟩
  choose c hc using hcR
  choose β hβ using fun k : Fin 10 => betaOf_real hb hr h0 hlt (histR (rowBinR X T)) (ix1 k)
  unfold valueK valueOfArrs valueR
  rw [hTc, binTotals_cntArr X T _ hbin]
  refine congrArg (fun z => Ideal.div z nTot) ?_
  simp only [binTotals_ceArr X T _ _ hbin hce, hβ, hc]
  exact factor_sum β _ (rowBinR_lt X T hX) c

end Ghmc

end
-- ==== Proof.PreDecode.lean ====
/- The precondition read: every logit finite, every class word in [0, 512). -/
import proofs.«416635_j57157424775631_3_alg».proof.Proof.Analysis
import proofs.«416635_j57157424775631_3_alg».proof.Pre_finite_inputs
import proofs.«416635_j57157424775631_3_alg».proof.Proof.Gen.Pre_finite_inputs
import Idealize.ShloMosaic.Lib.ReduceAll

noncomputable section

namespace Ghmc

open Idealize.ShloMosaic Idealize.ShloMosaic.ValueIdx

/-- A shape of rank zero has one index. -/
instance subsingleton_scalar_idx : Subsingleton Cert.Pre_finite_inputs.S_.Idx :=
  ⟨fun a b => funext fun d => d.elim0⟩

/-- An extended real whose absolute value max x (−x) lies strictly below the word 0x7F800000 (which denotes +∞)
    is a real number: both infinities have absolute value +∞. -/
theorem finite_of_abs_lt_top (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => exact absurd hx (by simp [Ideal.cmp])
  | coe r => exact ⟨r, rfl⟩
  | top => exact absurd hx (by simp [Ideal.cmp])

/-- The precondition is the conjunction of two reductions by and over every axis. Each being 1, every element of the
    reduced array is 1: at a logit that says |x| < +∞, at a class word that says 0 ≤ t and t < 512 read signed. -/
theorem pre_decode (X : FVec Ideal Cert.Pre_finite_inputs.S262144x512 .f32) (T : IVec Cert.Pre_finite_inputs.S262144 32)
    (h : Cert.Pre_finite_inputs.fn (F := Ideal) X T = fun _ => 1#1) :
    (∀ i : Rows, FiniteRow (fun cl : Cls => X (ix2 i cl)))
      ∧ (∀ i : Rows, 0 ≤ (T (ix1 i)).toInt ∧ (T (ix1 i)).toInt < 512) := by
  have h0 := congrFun h ValueIdx.ix0
  dsimp only [Cert.Pre_finite_inputs.fn] at h0
  -- the scalar conjunction: both reductions are 1
  obtain ⟨hA, hB⟩ := IntOp.andi_eq_one.1 h0
  constructor
  · -- the element of the first array at (i, cl) compares max x (−x) with the broadcast constant +∞
    intro i cl
    have e := Host.reduce_andi_all _ _ _ _ _ hA (ix2 i cl)
    exact finite_of_abs_lt_top _ e
  · -- the element of the second array at i is the and of the two signed comparisons of the word with 0 and 512
    intro i
    have e := Host.reduce_andi_all _ _ _ _ _ hB (ix1 i)
    obtain ⟨e1, e2⟩ := IntOp.andi_eq_one.1 e
    have g1 : (0#32 : BitVec 32).toInt ≤ (T (ix1 i)).toInt := IntOp.cmpi_sge.1 e1
    have g2 : (T (ix1 i)).toInt < (512#32 : BitVec 32).toInt := IntOp.cmpi_slt.1 e2
    have z0 : (0#32 : BitVec 32).toInt = 0 := by decide
    have z512 : (512#32 : BitVec 32).toInt = 512 := by decide
    rw [z0] at g1
    rw [z512] at g2
    exact ⟨g1, g2⟩

end Ghmc

end
-- ==== Proof.lean ====
/- The certificate of the fused histogram-reweighted cross-entropy loss against its jnp reference, over the extended reals.

   Both programs compute, for 262144 rows of 512 logits and one class word per row, the mean of β(bin_i) · (−log p_i),
   where log p_i is the log-softmax of row i at its class, bin_i the integer part of |exp (log p_i) − 1| · 9.99989986, and
   β a function of the histogram of the bins (one over the count times the number of non-empty bins, floored at 1e-4).
   The kernel sums, per bin and per core, the counts and the losses in one pass over the rows and applies β to ten
   numbers; the reference applies β(bin_i) to every sample. Over the extended reals the two agree when every logit is
   finite and every class word lies in [0, 512): then log p_i is a real ≤ 0, so the bin is one of 0 … 9, neither the
   kernel's clamps nor the reference's index wrap and range test bind, and Σ_i β(bin_i)·ce_i = Σ_k β_k · Σ_{bin_i = k} ce_i.
   Outside [0, 512) the reference's own indexing leaves the row (negative words wrap, the rest read a fill value), which is
   why the class words' range is part of the precondition.

   The three frames are the generated ones (the reference's is its run with the result dropped); preserves is trivial (the
   ideal pass rewrote nothing); algebraic joins the kernel's run read as a value of the argument arrays (KHost), the
   reference's (RefTail over the reference's run, RefRunStages), the precondition read (PreDecode) and the equivalence (Aggregate). -/
import proofs.«416635_j57157424775631_3_alg».proof.Defs
import proofs.«416635_j57157424775631_3_alg».proof.Proof.Gen.Kernel
import proofs.«416635_j57157424775631_3_alg».proof.Proof.Gen.Kernel.Frame
import proofs.«416635_j57157424775631_3_alg».proof.Proof.Gen.KernelIdeal
import proofs.«416635_j57157424775631_3_alg».proof.Proof.Gen.KernelIdeal.Frame
import proofs.«416635_j57157424775631_3_alg».proof.Proof.Gen.ReferenceIdeal
import proofs.«416635_j57157424775631_3_alg».proof.Proof.Gen.Pre_finite_inputs
import proofs.«416635_j57157424775631_3_alg».proof.Proof.KHost
import proofs.«416635_j57157424775631_3_alg».proof.Proof.RefTail
import proofs.«416635_j57157424775631_3_alg».proof.Proof.RefRunStages
import proofs.«416635_j57157424775631_3_alg».proof.Proof.Aggregate
import proofs.«416635_j57157424775631_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.GhmcRun.run (F := Ideal) m ρ)

theorem preserves : Cert.preserves_Kernel_KernelIdeal := trivial

/-- From memories agreeing on the arguments, under the precondition, both programs end at one value. -/
theorem algebraic : Cert.algebraic_KernelIdeal_ReferenceIdeal := by
  intro m ρ m' ρ' hpre hagree
  refine ⟨_, Cert.KernelIdeal.GhmcHost.run m ρ, ?_⟩
  refine (θ_run Cert.ReferenceIdeal.defs _ _).mono (fun _ h c => ⟨(h c).1.trans ?_, (h c).2.1, (h c).2.2⟩)
    (Cert.ReferenceIdeal.GhmcRun.run (F := Ideal) m' ρ')
  obtain ⟨hX, hT⟩ := Ghmc.pre_decode _ _ (hpre c)
  rw [(hagree c).1, (hagree c).2]
  rw [Cert.ReferenceIdeal.GhmcTail.result_eq _ _ hT (fun i => Ghmc.rowBinR_lt _ _ hX i)]
  funext _
  exact (Ghmc.value_eq _ _ _ _ _ _ hX hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
